-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S128x1024 : Shape := ⟨2, ![128, 1024]⟩
abbrev S128 : Shape := ⟨1, ![128]⟩
abbrev S1024x128 : Shape := ⟨2, ![1024, 128]⟩
abbrev S1024 : Shape := ⟨1, ![1024]⟩
abbrev S4096x1024 : Shape := ⟨2, ![4096, 1024]⟩
abbrev S4096 : Shape := ⟨1, ![4096]⟩
abbrev S1024x4096 : Shape := ⟨2, ![1024, 4096]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S128x1024 : S_.BroadcastsInDim S128x1024 (![] : Fin 0 → Fin S128x1024.rank)
  reducesTo_S128x1024_S_d0_1 : S128x1024.ReducesTo [0, 1] S_
  bcast_S_S128 : S_.BroadcastsInDim S128 (![] : Fin 0 → Fin S128.rank)
  reducesTo_S128_S_d0 : S128.ReducesTo [0] S_
  bcast_S_S1024x128 : S_.BroadcastsInDim S1024x128 (![] : Fin 0 → Fin S1024x128.rank)
  reducesTo_S1024x128_S_d0_1 : S1024x128.ReducesTo [0, 1] S_
  bcast_S_S1024 : S_.BroadcastsInDim S1024 (![] : Fin 0 → Fin S1024.rank)
  reducesTo_S1024_S_d0 : S1024.ReducesTo [0] S_
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_
  bcast_S_S1024x4096 : S_.BroadcastsInDim S1024x4096 (![] : Fin 0 → Fin S1024x4096.rank)
  reducesTo_S1024x4096_S_d0_1 : S1024x4096.ReducesTo [0, 1] S_

variable [Facts]

def fn_part3 {F : FTy → Type} [FloatOps F] (main_arg11 : FVec F S1024x4096 .f32) (main_arg12 : FVec F S1024 .f32) (main_v48 : IVec S_ 1) (main_v49 : FVec F S4096 .f32) (main_v50 : FVec F S4096 .f32) : IVec S_ 1 :=
  let main_v51 : IVec S4096 1 := cmpf .olt main_v49 main_v50
  let main_c_19 : IVec S_ 1 := constantI S_ 1 1#1
  let main_v52 : IVec S_ 1 := (fun x v => Host.reduce IntOp.andi x v reducesTo_S4096_S_d0 h_S_) main_v51 main_c_19
  let main_v53 : IVec S_ 1 := andi main_v48 main_v52
  let main_v54 : FVec F S1024x4096 .f32 := Host.absf main_arg11
  let main_cst_20 : FVec F S_ .f32 := constant S_ .f32 0x7F800000#32
  let main_v55 : FVec F S1024x4096 .f32 := broadcastInDim S1024x4096 ![] bcast_S_S1024x4096 main_cst_20
  let main_v56 : IVec S1024x4096 1 := cmpf .olt main_v54 main_v55
  let main_c_21 : IVec S_ 1 := constantI S_ 1 1#1
  let main_v57 : IVec S_ 1 := (fun x v => Host.reduce IntOp.andi x v reducesTo_S1024x4096_S_d0_1 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  main_v63

def fn_part2 {F : FTy → Type} [FloatOps F] (main_arg7 : FVec F S1024x128 .f32) (main_arg8 : FVec F S1024 .f32) (main_arg9 : FVec F S4096x1024 .f32) (main_arg10 : FVec F S4096 .f32) (main_arg11 : FVec F S1024x4096 .f32) (main_arg12 : FVec F S1024 .f32) (main_v33 : IVec S_ 1) : IVec S_ 1 :=
  let main_v34 : FVec F S1024x128 .f32 := Host.absf main_arg7
  let main_cst_12 : FVec F S_ .f32 := constant S_ .f32 0x7F800000#32
  let main_v35 : FVec F S1024x128 .f32 := broadcastInDim S1024x128 ![] bcast_S_S1024x128 main_cst_12
  let main_v36 : IVec S1024x128 1 := cmpf .olt main_v34 main_v35
  let main_c_13 : IVec S_ 1 := constantI S_ 1 1#1
  let main_v37 : IVec S_ 1 := (fun x v => Host.reduce IntOp.andi x v reducesTo_S1024x128_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S4096x1024 .f32 := Host.absf main_arg9
  let main_cst_16 : FVec F S_ .f32 := constant S_ .f32 0x7F800000#32
  let main_v45 : FVec F S4096x1024 .f32 := broadcastInDim S4096x1024 ![] bcast_S_S4096x1024 main_cst_16
  let main_v46 : IVec S4096x1024 1 := cmpf .olt main_v44 main_v45
  let main_c_17 : IVec S_ 1 := constantI S_ 1 1#1
  let main_v47 : IVec S_ 1 := (fun x v => Host.reduce IntOp.andi x v reducesTo_S4096x1024_S_d0_1 h_S_) main_v46 main_c_17
  let main_v48 : IVec S_ 1 := andi main_v43 main_v47
  let main_v49 : FVec F S4096 .f32 := Host.absf main_arg10
  let main_cst_18 : FVec F S_ .f32 := constant S_ .f32 0x7F800000#32
  let main_v50 : FVec F S4096 .f32 := broadcastInDim S4096 ![] bcast_S_S4096 main_cst_18
  fn_part3 (F := F) main_arg11 main_arg12 main_v48 main_v49 main_v50

def fn_part1 {F : FTy → Type} [FloatOps F] (main_arg4 : FVec F S128 .f32) (main_arg5 : FVec F S128x1024 .f32) (main_arg6 : FVec F S128 .f32) (main_arg7 : FVec F S1024x128 .f32) (main_arg8 : FVec F S1024 .f32) (main_arg9 : FVec F S4096x1024 .f32) (main_arg10 : FVec F S4096 .f32) (main_arg11 : FVec F S1024x4096 .f32) (main_arg12 : FVec F S1024 .f32) (main_v13 : IVec S_ 1) (main_v16 : IVec S128x1024 1) : IVec S_ 1 :=
  let main_c_5 : IVec S_ 1 := constantI S_ 1 1#1
  let main_v17 : IVec S_ 1 := (fun x v => Host.reduce IntOp.andi x v reducesTo_S128x1024_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x1024 .f32 := Host.absf main_arg5
  let main_cst_8 : FVec F S_ .f32 := constant S_ .f32 0x7F800000#32
  let main_v25 : FVec F S128x1024 .f32 := broadcastInDim S128x1024 ![] bcast_S_S128x1024 main_cst_8
  let main_v26 : IVec S128x1024 1 := cmpf .olt main_v24 main_v25
  let main_c_9 : IVec S_ 1 := constantI S_ 1 1#1
  let main_v27 : IVec S_ 1 := (fun x v => Host.reduce IntOp.andi x v reducesTo_S128x1024_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S8192x1024 .f32) (main_arg1 : FVec F S128x1024 .f32) (main_arg2 : FVec F S128 .f32) (main_arg3 : FVec F S128x1024 .f32) (main_arg4 : FVec F S128 .f32) (main_arg5 : FVec F S128x1024 .f32) (main_arg6 : FVec F S128 .f32) (main_arg7 : FVec F S1024x128 .f32) (main_arg8 : FVec F S1024 .f32) (main_arg9 : FVec F S4096x1024 .f32) (main_arg10 : FVec F S4096 .f32) (main_arg11 : FVec F S1024x4096 .f32) (main_arg12 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S128x1024 .f32 := Host.absf main_arg1
  let main_cst_0 : FVec F S_ .f32 := constant S_ .f32 0x7F800000#32
  let main_v5 : FVec F S128x1024 .f32 := broadcastInDim S128x1024 ![] bcast_S_S128x1024 main_cst_0
  let main_v6 : IVec S128x1024 1 := cmpf .olt main_v4 main_v5
  let main_c_1 : IVec S_ 1 := constantI S_ 1 1#1
  let main_v7 : IVec S_ 1 := (fun x v => Host.reduce IntOp.andi x v reducesTo_S128x1024_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x1024 .f32 := Host.absf main_arg3
  let main_cst_4 : FVec F S_ .f32 := constant S_ .f32 0x7F800000#32
  let main_v15 : FVec F S128x1024 .f32 := broadcastInDim S128x1024 ![] bcast_S_S128x1024 main_cst_4
  let main_v16 : IVec S128x1024 1 := cmpf .olt main_v14 main_v15
  fn_part1 (F := F) main_arg4 main_arg5 main_arg6 main_arg7 main_arg8 main_arg9 main_arg10 main_arg11 main_arg12 main_v13 main_v16
-- ==== Kernel.lean ====
abbrev S8192x1024 : Shape := ⟨2, ![8192, 1024]⟩
abbrev S128x1024 : Shape := ⟨2, ![128, 1024]⟩
abbrev S128 : Shape := ⟨1, ![128]⟩
abbrev S1024x128 : Shape := ⟨2, ![1024, 128]⟩
abbrev S1024 : Shape := ⟨1, ![1024]⟩
abbrev S4096x1024 : Shape := ⟨2, ![4096, 1024]⟩
abbrev S4096 : Shape := ⟨1, ![4096]⟩
abbrev S1024x4096 : Shape := ⟨2, ![1024, 4096]⟩
abbrev S1x128 : Shape := ⟨2, ![1, 128]⟩
abbrev S1x1024 : Shape := ⟨2, ![1, 1024]⟩
abbrev S1x4096 : Shape := ⟨2, ![1, 4096]⟩
abbrev S128x128 : Shape := ⟨2, ![128, 128]⟩
abbrev S1024x1024 : Shape := ⟨2, ![1024, 1024]⟩
abbrev S256x1024 : Shape := ⟨2, ![256, 1024]⟩
abbrev S256x128 : Shape := ⟨2, ![256, 128]⟩
abbrev S256x4096 : Shape := ⟨2, ![256, 4096]⟩

abbrev nBuf : Space → Nat
  | .hbm => 34
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S128x1024, .f32⟩
  | .hbm, ⟨2, _⟩ => ⟨S128, .f32⟩
  | .hbm, ⟨3, _⟩ => ⟨S128x1024, .f32⟩
  | .hbm, ⟨4, _⟩ => ⟨S128, .f32⟩
  | .hbm, ⟨5, _⟩ => ⟨S128x1024, .f32⟩
  | .hbm, ⟨6, _⟩ => ⟨S128, .f32⟩
  | .hbm, ⟨7, _⟩ => ⟨S1024x128, .f32⟩
  | .hbm, ⟨8, _⟩ => ⟨S1024, .f32⟩
  | .hbm, ⟨9, _⟩ => ⟨S4096x1024, .f32⟩
  | .hbm, ⟨10, _⟩ => ⟨S4096, .f32⟩
  | .hbm, ⟨11, _⟩ => ⟨S1024x4096, .f32⟩
  | .hbm, ⟨12, _⟩ => ⟨S1024, .f32⟩
  | .hbm, ⟨13, _⟩ => ⟨S1024x128, .f32⟩
  | .hbm, ⟨14, _⟩ => ⟨S1024x128, .bf16⟩
  | .hbm, ⟨15, _⟩ => ⟨S1024x128, .f32⟩
  | .hbm, ⟨16, _⟩ => ⟨S1024x128, .bf16⟩
  | .hbm, ⟨17, _⟩ => ⟨S1024x128, .f32⟩
  | .hbm, ⟨18, _⟩ => ⟨S1024x128, .bf16⟩
  | .hbm, ⟨19, _⟩ => ⟨S128x1024, .f32⟩
  | .hbm, ⟨20, _⟩ => ⟨S128x1024, .bf16⟩
  | .hbm, ⟨21, _⟩ => ⟨S1024x4096, .f32⟩
  | .hbm, ⟨22, _⟩ => ⟨S1024x4096, .bf16⟩
  | .hbm, ⟨23, _⟩ => ⟨S4096x1024, .f32⟩
  | .hbm, ⟨24, _⟩ => ⟨S4096x1024, .bf16⟩
  | .hbm, ⟨25, _⟩ => ⟨S1x128, .f32⟩
  | .hbm, ⟨26, _⟩ => ⟨S1x128, .f32⟩
  | .hbm, ⟨27, _⟩ => ⟨S1x128, .f32⟩
  | .hbm, ⟨28, _⟩ => ⟨S1x1024, .f32⟩
  | .hbm, ⟨29, _⟩ => ⟨S1x4096, .f32⟩
  | .hbm, ⟨30, _⟩ => ⟨S1x1024, .f32⟩
  | .hbm, ⟨31, _⟩ => ⟨S128x128, .f32⟩
  | .hbm, ⟨32, _⟩ => ⟨S128x128, .bf16⟩
  | .hbm, ⟨33, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x128, .bf16⟩
  | .local _ .vmem, ⟨3, _⟩ => ⟨S1x128, .f32⟩
  | .local _ .vmem, ⟨4, _⟩ => ⟨S1024x128, .bf16⟩
  | .local _ .vmem, ⟨5, _⟩ => ⟨S1x128, .f32⟩
  | .local _ .vmem, ⟨6, _⟩ => ⟨S128x128, .f32⟩
  | .local _ .vmem, ⟨7, _⟩ => ⟨S128x128, .f32⟩
  | .local _ .vmem, ⟨8, _⟩ => ⟨S256x1024, .f32⟩
  | .local _ .vmem, ⟨9, _⟩ => ⟨S256x1024, .f32⟩
  | .local _ .vmem, ⟨10, _⟩ => ⟨S1024x128, .bf16⟩
  | .local _ .vmem, ⟨11, _⟩ => ⟨S1x128, .f32⟩
  | .local _ .vmem, ⟨12, _⟩ => ⟨S128x128, .bf16⟩
  | .local _ .vmem, ⟨13, _⟩ => ⟨S128x1024, .bf16⟩
  | .local _ .vmem, ⟨14, _⟩ => ⟨S1x1024, .f32⟩
  | .local _ .vmem, ⟨15, _⟩ => ⟨S1024x4096, .bf16⟩
  | .local _ .vmem, ⟨16, _⟩ => ⟨S1x4096, .f32⟩
  | .local _ .vmem, ⟨17, _⟩ => ⟨S4096x1024, .bf16⟩
  | .local _ .vmem, ⟨18, _⟩ => ⟨S1x1024, .f32⟩
  | .local _ .vmem, ⟨19, _⟩ => ⟨S256x1024, .f32⟩
  | .local _ .vmem, ⟨20, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg9_0 : Ref sig .tc := ⟨.vmem, 18, rfl⟩
abbrev cc1_stg10_0 : Ref sig .tc := ⟨.vmem, 19, rfl⟩
abbrev cc1_stg10_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem9_0 : DmaSem sig := 17
abbrev cc1_sem10_0 : DmaSem sig := 18
abbrev cc1_sem10_1 : DmaSem sig := 19

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v27 : BitVec 1 := Scalar.cmpi .eq arg0 c7_i32
  let v28 : BitVec 32 := Scalar.extui v27
  let c0_i32_16 : BitVec 32 := 0#32
  let v29 : BitVec 1 := Scalar.cmpi .ne v28 c0_i32_16
  v29

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1024x4096 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x4096 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S4096x1024 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x1024 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S256x1024 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

class Facts₀ : Prop where
  transposes_S128x1024_S1024x128_1_0 : S128x1024.Transposes [1, 0] S1024x128
  bitsLt_bf16_f32 : FTy.bits .bf16 < FTy.bits .f32
  transposes_S1024x128_S128x1024_1_0 : S1024x128.Transposes [1, 0] S128x1024
  transposes_S4096x1024_S1024x4096_1_0 : S4096x1024.Transposes [1, 0] S1024x4096
  transposes_S1024x4096_S4096x1024_1_0 : S1024x4096.Transposes [1, 0] S4096x1024
  shapeCasts_S128_S1x128 : S128.ShapeCasts S1x128
  shapeCasts_S1024_S1x1024 : S1024.ShapeCasts S1x1024
  shapeCasts_S4096_S1x4096 : S4096.ShapeCasts S1x4096
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1024x1024_S1024x1024_0_0 : ∀ a, (![0, 0] : Fin 2 → Nat) a + S1024x1024.size a ≤ S1024x1024.size a
  h_S1024x1024 : 0 < S1024x1024.numel
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  inb_S256x1024_S256x1024_0_0 : ∀ a, (![0, 0] : Fin 2 → Nat) a + S256x1024.size a ≤ S256x1024.size a
  h_S256x1024 : 0 < S256x1024.numel
  broadcasts_S1x128_S256x128 : S1x128.Broadcasts S256x128
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  dot_S1024x1024_S1024x128_S1024x128_1_0_0_1_n_n_wf : DotDims.WF S1024x1024 S1024x128 S1024x128 [1] [0] [0] [1] [] []
  dot_S1024x128_S1024x128_S128x128_0_0_1_1_n_n_wf : DotDims.WF S1024x128 S1024x128 S128x128 [0] [0] [1] [1] [] []
  dot_S256x1024_S1024x128_S256x128_1_0_0_1_n_n_wf : DotDims.WF S256x1024 S1024x128 S256x128 [1] [0] [0] [1] [] []
  dot_S256x128_S128x128_S256x128_1_0_0_1_n_n_wf : DotDims.WF S256x128 S128x128 S256x128 [1] [0] [0] [1] [] []
  dot_S256x128_S128x1024_S256x1024_1_0_0_1_n_n_wf : DotDims.WF S256x128 S128x1024 S256x1024 [1] [0] [0] [1] [] []
  dot_S256x1024_S1024x4096_S256x4096_1_0_0_1_n_n_wf : DotDims.WF S256x1024 S1024x4096 S256x4096 [1] [0] [0] [1] [] []
  dot_S256x4096_S4096x1024_S256x1024_1_0_0_1_n_n_wf : DotDims.WF S256x4096 S4096x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S1024x128.size a
  hwx0_1 : ∀ i : grid0.Coords, EltTy.bits .bf16 = 32 ∨ (Rect.block (s := S1024x128) S1024x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S1024x128.size a
  hwx0_3 : ∀ i : grid0.Coords, EltTy.bits .bf16 = 32 ∨ (Rect.block (s := S1024x128) S1024x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x1024.size a ≤ S8192x1024.size a
  hwx1_0 : ∀ i : grid1.Coords, EltTy.bits .f32 = 32 ∨ (Rect.block (s := S8192x1024) S256x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S1024x128.size a
  hwx1_1 : ∀ i : grid1.Coords, EltTy.bits .bf16 = 32 ∨ (Rect.block (s := S1024x128) S1024x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x1024.size a ≤ S128x1024.size a
  hwx1_4 : ∀ i : grid1.Coords, EltTy.bits .bf16 = 32 ∨ (Rect.block (s := S128x1024) S128x1024.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1024.size a ≤ S1x1024.size a
  hwx1_5 : ∀ i : grid1.Coords, EltTy.bits .f32 = 32 ∨ (Rect.block (s := S1x1024) S1x1024.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1024x4096.size a ≤ S1024x4096.size a
  hwx1_6 : ∀ i : grid1.Coords, EltTy.bits .bf16 = 32 ∨ (Rect.block (s := S1024x4096) S1024x4096.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x4096.size a ≤ S1x4096.size a
  hwx1_7 : ∀ i : grid1.Coords, EltTy.bits .f32 = 32 ∨ (Rect.block (s := S1x4096) S1x4096.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S4096x1024.size a ≤ S4096x1024.size a
  hwx1_8 : ∀ i : grid1.Coords, EltTy.bits .bf16 = 32 ∨ (Rect.block (s := S4096x1024) S4096x1024.size (cc1_transform_8 i) (hinb1_8 i)).WholeWords (EltTy.packing .bf16)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x1024.size a ≤ S1x1024.size a
  hwx1_9 : ∀ i : grid1.Coords, EltTy.bits .f32 = 32 ∨ (Rect.block (s := S1x1024) S1x1024.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S256x1024.size a ≤ S8192x1024.size a
  hwx1_10 : ∀ i : grid1.Coords, EltTy.bits .f32 = 32 ∨ (Rect.block (s := S8192x1024) S256x1024.size (cc1_transform_10 i) (hinb1_10 i)).WholeWords (EltTy.packing .f32)

variable [Facts₀]

def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def dot_S1024x128_S1024x128_S128x128_0_0_1_1_n_n : DotDims S1024x128 S1024x128 S128x128 where
  lhsContracting := [0]
  rhsContracting := [0]
  lhsNonContracting := [1]
  rhsNonContracting := [1]
  lhsBatch := []
  rhsBatch := []
  wf := dot_S1024x128_S1024x128_S128x128_0_0_1_1_n_n_wf
def dot_S256x1024_S1024x128_S256x128_1_0_0_1_n_n : DotDims S256x1024 S1024x128 S256x128 where
  lhsContracting := [1]
  rhsContracting := [0]
  lhsNonContracting := [0]
  rhsNonContracting := [1]
  lhsBatch := []
  rhsBatch := []
  wf := dot_S256x1024_S1024x128_S256x128_1_0_0_1_n_n_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S256x128_S128x1024_S256x1024_1_0_0_1_n_n : DotDims S256x128 S128x1024 S256x1024 where
  lhsContracting := [1]
  rhsContracting := [0]
  lhsNonContracting := [0]
  rhsNonContracting := [1]
  lhsBatch := []
  rhsBatch := []
  wf := dot_S256x128_S128x1024_S256x1024_1_0_0_1_n_n_wf
def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf
def dot_S256x4096_S4096x1024_S256x1024_1_0_0_1_n_n : DotDims S256x4096 S4096x1024 S256x1024 where
  lhsContracting := [1]
  rhsContracting := [0]
  lhsNonContracting := [0]
  rhsNonContracting := [1]
  lhsBatch := []
  rhsBatch := []
  wf := dot_S256x4096_S4096x1024_S256x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S128x128.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

abbrev win1_0 : Pipeline.Window sig grid1 :=
  Pipeline.Window.ofSpec (Memref.whole main_arg0) S256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1024x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v12) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v19) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7) S128x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v15) S1x1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v9) S1024x4096.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v16) S1x4096.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v11) S4096x1024.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v17) S1x1024.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v20) S256x1024.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S8192x1024 : Shape := ⟨2, ![8192, 1024]⟩
abbrev S128x1024 : Shape := ⟨2, ![128, 1024]⟩
abbrev S128 : Shape := ⟨1, ![128]⟩
abbrev S1024x128 : Shape := ⟨2, ![1024, 128]⟩
abbrev S1024 : Shape := ⟨1, ![1024]⟩
abbrev S4096x1024 : Shape := ⟨2, ![4096, 1024]⟩
abbrev S4096 : Shape := ⟨1, ![4096]⟩
abbrev S1024x4096 : Shape := ⟨2, ![1024, 4096]⟩
abbrev S8192x128 : Shape := ⟨2, ![8192, 128]⟩
abbrev S1x128 : Shape := ⟨2, ![1, 128]⟩
abbrev S128x8192 : Shape := ⟨2, ![128, 8192]⟩
abbrev S8192x8192 : Shape := ⟨2, ![8192, 8192]⟩
abbrev S1x1024 : Shape := ⟨2, ![1, 1024]⟩
abbrev S8192x4096 : Shape := ⟨2, ![8192, 4096]⟩
abbrev S1x4096 : Shape := ⟨2, ![1, 4096]⟩
abbrev S_ : Shape := ⟨0, ![]⟩

abbrev nBuf : Space → Nat
  | .hbm => 51
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S128x1024, .f32⟩
  | .hbm, ⟨2, _⟩ => ⟨S128, .f32⟩
  | .hbm, ⟨3, _⟩ => ⟨S128x1024, .f32⟩
  | .hbm, ⟨4, _⟩ => ⟨S128, .f32⟩
  | .hbm, ⟨5, _⟩ => ⟨S128x1024, .f32⟩
  | .hbm, ⟨6, _⟩ => ⟨S128, .f32⟩
  | .hbm, ⟨7, _⟩ => ⟨S1024x128, .f32⟩
  | .hbm, ⟨8, _⟩ => ⟨S1024, .f32⟩
  | .hbm, ⟨9, _⟩ => ⟨S4096x1024, .f32⟩
  | .hbm, ⟨10, _⟩ => ⟨S4096, .f32⟩
  | .hbm, ⟨11, _⟩ => ⟨S1024x4096, .f32⟩
  | .hbm, ⟨12, _⟩ => ⟨S1024, .f32⟩
  | .hbm, ⟨13, _⟩ => ⟨S1024x128, .f32⟩
  | .hbm, ⟨14, _⟩ => ⟨S8192x128, .f32⟩
  | .hbm, ⟨15, _⟩ => ⟨S1x128, .f32⟩
  | .hbm, ⟨16, _⟩ => ⟨S8192x128, .f32⟩
  | .hbm, ⟨17, _⟩ => ⟨S8192x128, .f32⟩
  | .hbm, ⟨18, _⟩ => ⟨S1024x128, .f32⟩
  | .hbm, ⟨19, _⟩ => ⟨S8192x128, .f32⟩
  | .hbm, ⟨20, _⟩ => ⟨S1x128, .f32⟩
  | .hbm, ⟨21, _⟩ => ⟨S8192x128, .f32⟩
  | .hbm, ⟨22, _⟩ => ⟨S8192x128, .f32⟩
  | .hbm, ⟨23, _⟩ => ⟨S1024x128, .f32⟩
  | .hbm, ⟨24, _⟩ => ⟨S8192x128, .f32⟩
  | .hbm, ⟨25, _⟩ => ⟨S1x128, .f32⟩
  | .hbm, ⟨26, _⟩ => ⟨S8192x128, .f32⟩
  | .hbm, ⟨27, _⟩ => ⟨S8192x128, .f32⟩
  | .hbm, ⟨28, _⟩ => ⟨S128x8192, .f32⟩
  | .hbm, ⟨29, _⟩ => ⟨S8192x8192, .f32⟩
  | .hbm, ⟨30, _⟩ => ⟨S8192x128, .f32⟩
  | .hbm, ⟨31, _⟩ => ⟨S128x1024, .f32⟩
  | .hbm, ⟨32, _⟩ => ⟨S8192x1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S1024x4096, .f32⟩
  | .hbm, ⟨38, _⟩ => ⟨S8192x4096, .f32⟩
  | .hbm, ⟨39, _⟩ => ⟨S1x4096, .f32⟩
  | .hbm, ⟨40, _⟩ => ⟨S8192x4096, .f32⟩
  | .hbm, ⟨41, _⟩ => ⟨S8192x4096, .f32⟩
  | .hbm, ⟨42, _⟩ => ⟨S_, .f32⟩
  | .hbm, ⟨43, _⟩ => ⟨S8192x4096, .f32⟩
  | .hbm, ⟨44, _⟩ => ⟨S8192x4096, .f32⟩
  | .hbm, ⟨45, _⟩ => ⟨S4096x1024, .f32⟩
  | .hbm, ⟨46, _⟩ => ⟨S8192x1024, .f32⟩
  | .hbm, ⟨47, _⟩ => ⟨S1x1024, .f32⟩
  | .hbm, ⟨48, _⟩ => ⟨S8192x1024, .f32⟩
  | .hbm, ⟨49, _⟩ => ⟨S8192x1024, .f32⟩
  | .hbm, ⟨50, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_call0_cst : Ref sig .tc := ⟨.hbm, 42, rfl⟩
abbrev main_call0_v0 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩

abbrev nD : Nat := 1
abbrev τ : Topo := Topo.v7x

variable {F : FTy → Type} [FloatOps F]

class Facts₀ : Prop where
  transposes_S128x1024_S1024x128_1_0 : S128x1024.Transposes [1, 0] S1024x128
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  transposes_S8192x128_S128x8192_1_0 : S8192x128.Transposes [1, 0] S128x8192
  transposes_S1024x128_S128x1024_1_0 : S1024x128.Transposes [1, 0] S128x1024
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  transposes_S4096x1024_S1024x4096_1_0 : S4096x1024.Transposes [1, 0] S1024x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  transposes_S1024x4096_S4096x1024_1_0 : S1024x4096.Transposes [1, 0] S4096x1024
  dot_S8192x1024_S1024x128_S8192x128_1_0_0_1_n_n_wf : DotDims.WF S8192x1024 S1024x128 S8192x128 [1] [0] [0] [1] [] []
  dot_S8192x128_S128x8192_S8192x8192_1_0_0_1_n_n_wf : DotDims.WF S8192x128 S128x8192 S8192x8192 [1] [0] [0] [1] [] []
  dot_S8192x8192_S8192x128_S8192x128_1_0_0_1_n_n_wf : DotDims.WF S8192x8192 S8192x128 S8192x128 [1] [0] [0] [1] [] []
  dot_S8192x128_S128x1024_S8192x1024_1_0_0_1_n_n_wf : DotDims.WF S8192x128 S128x1024 S8192x1024 [1] [0] [0] [1] [] []
  dot_S8192x1024_S1024x4096_S8192x4096_1_0_0_1_n_n_wf : DotDims.WF S8192x1024 S1024x4096 S8192x4096 [1] [0] [0] [1] [] []
  dot_S8192x4096_S4096x1024_S8192x1024_1_0_0_1_n_n_wf : DotDims.WF S8192x4096 S4096x1024 S8192x1024 [1] [0] [0] [1] [] []

variable [Facts₀]

def dot_S8192x1024_S1024x128_S8192x128_1_0_0_1_n_n : DotDims S8192x1024 S1024x128 S8192x128 where
  lhsContracting := [1]
  rhsContracting := [0]
  lhsNonContracting := [0]
  rhsNonContracting := [1]
  lhsBatch := []
  rhsBatch := []
  wf := dot_S8192x1024_S1024x128_S8192x128_1_0_0_1_n_n_wf
def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf
def dot_S8192x128_S128x1024_S8192x1024_1_0_0_1_n_n : DotDims S8192x128 S128x1024 S8192x1024 where
  lhsContracting := [1]
  rhsContracting := [0]
  lhsNonContracting := [0]
  rhsNonContracting := [1]
  lhsBatch := []
  rhsBatch := []
  wf := dot_S8192x128_S128x1024_S8192x1024_1_0_0_1_n_n_wf
def dot_S8192x1024_S1024x4096_S8192x4096_1_0_0_1_n_n : DotDims S8192x1024 S1024x4096 S8192x4096 where
  lhsContracting := [1]
  rhsContracting := [0]
  lhsNonContracting := [0]
  rhsNonContracting := [1]
  lhsBatch := []
  rhsBatch := []
  wf := dot_S8192x1024_S1024x4096_S8192x4096_1_0_0_1_n_n_wf
def dot_S8192x4096_S4096x1024_S8192x1024_1_0_0_1_n_n : DotDims S8192x4096 S4096x1024 S8192x1024 where
  lhsContracting := [1]
  rhsContracting := [0]
  lhsNonContracting := [0]
  rhsNonContracting := [1]
  lhsBatch := []
  rhsBatch := []
  wf := dot_S8192x4096_S4096x1024_S8192x1024_1_0_0_1_n_n_wf

class Facts : Prop extends Facts₀ where

variable [Facts]
-- ==== Proof.KB.Body0.lean ====
/-
  The first launch's body, run once at a grid point.

  The body keeps a 128 × 128 table in a buffer of its own between grid points. At the first point it sets the
  table to zero; at every point it adds the point's share (the product of the two projected slabs) to the table;
  at the last point it copies the table into the output block. Three runs, one per kind of point.
-/
import proofs.«180284_j56100862820442_1_alg».proof.Proof.Gen.Kernel.Launch
import proofs.«180284_j56100862820442_1_alg».proof.Proof.Gen.Kernel.Skeleton
import proofs.«180284_j56100862820442_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The buffer the body keeps its running table in. -/
abbrev scM0 : Memref sig .tc .vmem S128x128 .f32 := Memref.whole cc0_scratch0

/-! ## The two branch conditions, over the grid

The body branches twice on the grid coordinate: is it the first point (the table is reset), and is it the last (the
table is copied out). Both are decided over the eight points in closed form. -/

/-- The first branch's condition, from the grid coordinate. -/
private abbrev condFirst (i : grid0.Coords) : Prop :=
  (Scalar.cmpi .ne (Scalar.extui (Scalar.cmpi .eq (BitVec.ofNat 32 (i 0).val) 0#32)) 0#32) = 1#1
/-- It holds at point 0 only. -/
private theorem hcondFirst : ∀ t : Fin cfg0.N, condFirst (grid0.coords t) ↔ t.val = 0 :=
  (by decide +kernel : ∀ t : Fin grid0.N, condFirst (grid0.coords t) ↔ t.val = 0)
/-- The second branch's condition. -/
private abbrev condLast (i : grid0.Coords) : Prop := k0_cond2 i = 1#1
/-- It holds at point 7 only. -/
private theorem hcondLast : ∀ t : Fin cfg0.N, condLast (grid0.coords t) ↔ t.val = 7 :=
  (by decide +kernel : ∀ t : Fin grid0.N, condLast (grid0.coords t) ↔ t.val = 7)

/-! ## The body on any whole memrefs, one run per kind of point

Every access of the body is through the whole-buffer rectangle at zero offsets: a load reads the buffer's contents,
a store leaves its payload as the buffer's contents, and a load after such a store reads that payload back. -/

/-- The zero offsets of a rank-two access, spelt as a constant function. -/
private theorem off00 : (![0, 0] : Fin 2 → ℕ) = fun _ => 0 := by
  funext a; fin_cases a <;> rfl

set_option maxHeartbeats 1000000 in
/-- The body at a point that is neither first nor last, on any whole memrefs: the table at `s` ends at the
    payload of the inputs and `s` (one store over the whole table, its loads reading the buffers whole). -/
private theorem kernel_mid (c : Dev nD) (i : grid0.Coords)
    (arg1 : Memref sig .tc .vmem S1024x1024 .f32) (harg1 : arg1.IsWhole) (arg2 : Memref sig .tc .vmem S1024x128 .bf16) (harg2 : arg2.IsWhole)
    (arg3 : Memref sig .tc .vmem S1x128 .f32) (harg3 : arg3.IsWhole) (arg4 : Memref sig .tc .vmem S1024x128 .bf16) (harg4 : arg4.IsWhole)
    (arg5 : Memref sig .tc .vmem S1x128 .f32) (harg5 : arg5.IsWhole) (arg6 : Memref sig .tc .vmem S128x128 .f32) (harg6 : arg6.IsWhole)
    (arg7 : Memref sig .tc .vmem S128x128 .f32) (harg7 : arg7.IsWhole)
    (hc0 : ¬condFirst i) (hc1 : ¬condLast i)
    (x : Vec F S1024x1024 .f32) (wk : Vec F S1024x128 .bf16) (bk : Vec F S1x128 .f32) (wv : Vec F S1024x128 .bf16) (bv : Vec F S1x128 .f32)
    (s : Vec F S128x128 .f32) (K : PUnit → sProp 𝕄) :
    iprop(owns (c : Thread nD τ) arg1 fullShare x ∗ owns (c : Thread nD τ) arg2 fullShare wk ∗ owns (c : Thread nD τ) arg3 fullShare bk
        ∗ owns (c : Thread nD τ) arg4 fullShare wv ∗ owns (c : Thread nD τ) arg5 fullShare bv
        ∗ (∃ d, owns (c : Thread nD τ) arg6 fullShare d) ∗ owns (c : Thread nD τ) arg7 fullShare s
        ∗ (iprop(owns (c : Thread nD τ) arg1 fullShare x ∗ owns (c : Thread nD τ) arg2 fullShare wk ∗ owns (c : Thread nD τ) arg3 fullShare bk
        ∗ owns (c : Thread nD τ) arg4 fullShare wv ∗ owns (c : Thread nD τ) arg5 fullShare bv
            ∗ (∃ d, owns (c : Thread nD τ) arg6 fullShare d)
            ∗ owns (c : Thread nD τ) arg7 fullShare (k0_pay2 x wk bk wv bv s)) -∗ K ⟨⟩))
      ⊢ wp frame (wpE (defs₀ (F := F)) Variants.none c none) Set.univ (cc0__kv_kernel i arg1 harg1 arg2 harg2 arg3 harg3 arg4 harg4 arg5 harg5 arg6 harg6 arg7 harg7) K := by
  simp only [cc0__kv_kernel_eq_skeleton]; unfold cc0__kv_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
  subst hf1 hf2 hf3 hf4 hf5 hf7
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; iexists f6; isplitr; · ipureintro; rfl
    iexact H6
  iexists _; isplitr
  swap; · iexact H7
  ipureintro
  sl_unfold_run_names
  rw [View.read_writes_eq_canon _ _ _ (fun y => ⟨_, List.Mem.head _, View.mem_set_unit_zero off00 inb_S128x128_S128x128_0_0 y⟩),
    View.canon_unit_zero off00]
  simp only [View.readAt_eq_ld, View.ld_unit_zero (S := S1024x1024) off00, View.ld_unit_zero (S := S1024x128) off00,
    View.ld_unit_zero (S := S1x128) off00, View.ld_unit_zero (S := S128x128) off00]

set_option maxHeartbeats 1000000 in
/-- The body at the first point, on any whole memrefs: the zero table is stored over the whole buffer, read back
    whole, and the payload of the inputs and the zero table stored over it. -/
private theorem kernel_first (c : Dev nD) (i : grid0.Coords)
    (arg1 : Memref sig .tc .vmem S1024x1024 .f32) (harg1 : arg1.IsWhole) (arg2 : Memref sig .tc .vmem S1024x128 .bf16) (harg2 : arg2.IsWhole)
    (arg3 : Memref sig .tc .vmem S1x128 .f32) (harg3 : arg3.IsWhole) (arg4 : Memref sig .tc .vmem S1024x128 .bf16) (harg4 : arg4.IsWhole)
    (arg5 : Memref sig .tc .vmem S1x128 .f32) (harg5 : arg5.IsWhole) (arg6 : Memref sig .tc .vmem S128x128 .f32) (harg6 : arg6.IsWhole)
    (arg7 : Memref sig .tc .vmem S128x128 .f32) (harg7 : arg7.IsWhole)
    (hc0 : condFirst i) (hc1 : ¬condLast i)
    (x : Vec F S1024x1024 .f32) (wk : Vec F S1024x128 .bf16) (bk : Vec F S1x128 .f32) (wv : Vec F S1024x128 .bf16) (bv : Vec F S1x128 .f32)
    (K : PUnit → sProp 𝕄) :
    iprop(owns (c : Thread nD τ) arg1 fullShare x ∗ owns (c : Thread nD τ) arg2 fullShare wk ∗ owns (c : Thread nD τ) arg3 fullShare bk
        ∗ owns (c : Thread nD τ) arg4 fullShare wv ∗ owns (c : Thread nD τ) arg5 fullShare bv
        ∗ (∃ d, owns (c : Thread nD τ) arg6 fullShare d) ∗ (∃ d, owns (c : Thread nD τ) arg7 fullShare d)
        ∗ (iprop(owns (c : Thread nD τ) arg1 fullShare x ∗ owns (c : Thread nD τ) arg2 fullShare wk ∗ owns (c : Thread nD τ) arg3 fullShare bk
        ∗ owns (c : Thread nD τ) arg4 fullShare wv ∗ owns (c : Thread nD τ) arg5 fullShare bv
            ∗ (∃ d, owns (c : Thread nD τ) arg6 fullShare d)
            ∗ owns (c : Thread nD τ) arg7 fullShare (k0_pay2 x wk bk wv bv (k0_pay1 (F := F)))) -∗ K ⟨⟩))
      ⊢ wp frame (wpE (defs₀ (F := F)) Variants.none c none) Set.univ (cc0__kv_kernel i arg1 harg1 arg2 harg2 arg3 harg3 arg4 harg4 arg5 harg5 arg6 harg6 arg7 harg7) K := by
  simp only [cc0__kv_kernel_eq_skeleton]; unfold cc0__kv_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf1 hf2 hf3 hf4 hf5
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; iexists f6; isplitr; · ipureintro; rfl
    iexact H6
  iexists _; isplitr
  swap; · iexact H7
  ipureintro
  sl_unfold_run_names
  rw [View.read_writes_eq_canon _ _ _ (fun y => ⟨_, List.Mem.head _, View.mem_set_unit_zero off00 inb_S128x128_S128x128_0_0 y⟩),
    View.canon_cons_unit_zero off00]
  simp only [View.readAt_eq_ld, View.ld_unit_zero (S := S1024x1024) off00, View.ld_unit_zero (S := S1024x128) off00,
    View.ld_unit_zero (S := S1x128) off00, View.ld_unit_zero (S := S128x128) off00, View.readCov_unit_zero (S := S128x128) _ off00]

set_option maxHeartbeats 1000000 in
/-- The body at the last point, on any whole memrefs: as at a middle point, and then the table is read back whole
    and stored over the whole output block. -/
private theorem kernel_last (c : Dev nD) (i : grid0.Coords)
    (arg1 : Memref sig .tc .vmem S1024x1024 .f32) (harg1 : arg1.IsWhole) (arg2 : Memref sig .tc .vmem S1024x128 .bf16) (harg2 : arg2.IsWhole)
    (arg3 : Memref sig .tc .vmem S1x128 .f32) (harg3 : arg3.IsWhole) (arg4 : Memref sig .tc .vmem S1024x128 .bf16) (harg4 : arg4.IsWhole)
    (arg5 : Memref sig .tc .vmem S1x128 .f32) (harg5 : arg5.IsWhole) (arg6 : Memref sig .tc .vmem S128x128 .f32) (harg6 : arg6.IsWhole)
    (arg7 : Memref sig .tc .vmem S128x128 .f32) (harg7 : arg7.IsWhole)
    (hc0 : ¬condFirst i) (hc1 : condLast i)
    (x : Vec F S1024x1024 .f32) (wk : Vec F S1024x128 .bf16) (bk : Vec F S1x128 .f32) (wv : Vec F S1024x128 .bf16) (bv : Vec F S1x128 .f32)
    (s : Vec F S128x128 .f32) (K : PUnit → sProp 𝕄) :
    iprop(owns (c : Thread nD τ) arg1 fullShare x ∗ owns (c : Thread nD τ) arg2 fullShare wk ∗ owns (c : Thread nD τ) arg3 fullShare bk
        ∗ owns (c : Thread nD τ) arg4 fullShare wv ∗ owns (c : Thread nD τ) arg5 fullShare bv
        ∗ (∃ d, owns (c : Thread nD τ) arg6 fullShare d) ∗ owns (c : Thread nD τ) arg7 fullShare s
        ∗ (iprop(owns (c : Thread nD τ) arg1 fullShare x ∗ owns (c : Thread nD τ) arg2 fullShare wk ∗ owns (c : Thread nD τ) arg3 fullShare bk
        ∗ owns (c : Thread nD τ) arg4 fullShare wv ∗ owns (c : Thread nD τ) arg5 fullShare bv
            ∗ owns (c : Thread nD τ) arg6 fullShare (k0_pay2 x wk bk wv bv s)
            ∗ owns (c : Thread nD τ) arg7 fullShare (k0_pay2 x wk bk wv bv s)) -∗ K ⟨⟩))
      ⊢ wp frame (wpE (defs₀ (F := F)) Variants.none c none) Set.univ (cc0__kv_kernel i arg1 harg1 arg2 harg2 arg3 harg3 arg4 harg4 arg5 harg5 arg6 harg6 arg7 harg7) K := by
  simp only [cc0__kv_kernel_eq_skeleton]; unfold cc0__kv_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
  subst hf1 hf2 hf3 hf4 hf5 hf7
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_run_names
    rw [View.read_writes_eq_canon _ _ _ (fun y => ⟨_, List.Mem.head _, View.mem_set_unit_zero off00 inb_S128x128_S128x128_0_0 y⟩),
      View.canon_unit_zero off00]
    simp only [View.readAt_eq_ld, View.ld_unit_zero (S := S1024x1024) off00, View.ld_unit_zero (S := S1024x128) off00,
    View.ld_unit_zero (S := S1x128) off00, View.ld_unit_zero (S := S128x128) off00, View.readCov_unit_zero (S := S128x128) _ off00]
  iexists _; isplitr
  swap; · iexact H7
  ipureintro
  sl_unfold_run_names
  rw [View.read_writes_eq_canon _ _ _ (fun y => ⟨_, List.Mem.head _, View.mem_set_unit_zero off00 inb_S128x128_S128x128_0_0 y⟩),
    View.canon_unit_zero off00]
  simp only [View.readAt_eq_ld, View.ld_unit_zero (S := S1024x1024) off00, View.ld_unit_zero (S := S1024x128) off00,
    View.ld_unit_zero (S := S1x128) off00, View.ld_unit_zero (S := S128x128) off00]

/-! ## The three runs at a grid point -/

/-- The first point: the table, whatever it held, ends at zero plus the point's share; the output block is left alone. -/
theorem run0_first (c : Dev nD) (t : Fin cfg0.N) (ht : t.val = 0)
    (x : Vec F S1024x1024 .f32) (wk : Vec F S1024x128 .bf16) (bk : Vec F S1x128 .f32) (wv : Vec F S1024x128 .bf16) (bv : Vec F S1x128 .f32)
    (K : PUnit → sProp 𝕄) :
    iprop(owns (c : Thread nD τ) (st0_0 t) fullShare x ∗ owns (c : Thread nD τ) (st0_1 t) fullShare wk ∗ owns (c : Thread nD τ) (st0_2 t) fullShare bk
        ∗ owns (c : Thread nD τ) (st0_3 t) fullShare wv ∗ owns (c : Thread nD τ) (st0_4 t) fullShare bv
        ∗ (∃ d, owns (c : Thread nD τ) (st0_5 t) fullShare d) ∗ (∃ d, owns (c : Thread nD τ) scM0 fullShare d)
        ∗ (iprop(owns (c : Thread nD τ) (st0_0 t) fullShare x ∗ owns (c : Thread nD τ) (st0_1 t) fullShare wk ∗ owns (c : Thread nD τ) (st0_2 t) fullShare bk
            ∗ owns (c : Thread nD τ) (st0_3 t) fullShare wv ∗ owns (c : Thread nD τ) (st0_4 t) fullShare bv
            ∗ (∃ d, owns (c : Thread nD τ) (st0_5 t) fullShare d)
            ∗ owns (c : Thread nD τ) scM0 fullShare (k0_pay2 x wk bk wv bv (k0_pay1 (F := F)))) -∗ K ⟨⟩))
      ⊢ wp frame (wpE (defs₀ (F := F)) Variants.none c none) Set.univ (bodyAt0 (F := F) t) K := by
  have hc0 : condFirst (grid0.coords t) := (hcondFirst t).2 ht
  have hc1 : ¬condLast (grid0.coords t) := fun h => absurd ((hcondLast t).1 h) (by omega)
  exact kernel_first c (grid0.coords t) _ _ _ _ _ _ _ _ _ _ _ _ _ _ hc0 hc1 x wk bk wv bv K

/-- A point that is neither first nor last: the table at `s` ends at `s` plus the point's share; the output block is left alone. -/
theorem run0_mid (c : Dev nD) (t : Fin cfg0.N) (ht : t.val ≠ 0) (ht' : t.val ≠ 7)
    (x : Vec F S1024x1024 .f32) (wk : Vec F S1024x128 .bf16) (bk : Vec F S1x128 .f32) (wv : Vec F S1024x128 .bf16) (bv : Vec F S1x128 .f32)
    (s : Vec F S128x128 .f32) (K : PUnit → sProp 𝕄) :
    iprop(owns (c : Thread nD τ) (st0_0 t) fullShare x ∗ owns (c : Thread nD τ) (st0_1 t) fullShare wk ∗ owns (c : Thread nD τ) (st0_2 t) fullShare bk
        ∗ owns (c : Thread nD τ) (st0_3 t) fullShare wv ∗ owns (c : Thread nD τ) (st0_4 t) fullShare bv
        ∗ (∃ d, owns (c : Thread nD τ) (st0_5 t) fullShare d) ∗ owns (c : Thread nD τ) scM0 fullShare s
        ∗ (iprop(owns (c : Thread nD τ) (st0_0 t) fullShare x ∗ owns (c : Thread nD τ) (st0_1 t) fullShare wk ∗ owns (c : Thread nD τ) (st0_2 t) fullShare bk
            ∗ owns (c : Thread nD τ) (st0_3 t) fullShare wv ∗ owns (c : Thread nD τ) (st0_4 t) fullShare bv
            ∗ (∃ d, owns (c : Thread nD τ) (st0_5 t) fullShare d)
            ∗ owns (c : Thread nD τ) scM0 fullShare (k0_pay2 x wk bk wv bv s)) -∗ K ⟨⟩))
      ⊢ wp frame (wpE (defs₀ (F := F)) Variants.none c none) Set.univ (bodyAt0 (F := F) t) K := by
  have hc0 : ¬condFirst (grid0.coords t) := fun h => ht ((hcondFirst t).1 h)
  have hc1 : ¬condLast (grid0.coords t) := fun h => ht' ((hcondLast t).1 h)
  exact kernel_mid c (grid0.coords t) _ _ _ _ _ _ _ _ _ _ _ _ _ _ hc0 hc1 x wk bk wv bv s K

/-- The last point: the table at `s` ends at `s` plus the point's share, and the output block holds that same table. -/
theorem run0_last (c : Dev nD) (t : Fin cfg0.N) (ht : t.val = 7)
    (x : Vec F S1024x1024 .f32) (wk : Vec F S1024x128 .bf16) (bk : Vec F S1x128 .f32) (wv : Vec F S1024x128 .bf16) (bv : Vec F S1x128 .f32)
    (s : Vec F S128x128 .f32) (K : PUnit → sProp 𝕄) :
    iprop(owns (c : Thread nD τ) (st0_0 t) fullShare x ∗ owns (c : Thread nD τ) (st0_1 t) fullShare wk ∗ owns (c : Thread nD τ) (st0_2 t) fullShare bk
        ∗ owns (c : Thread nD τ) (st0_3 t) fullShare wv ∗ owns (c : Thread nD τ) (st0_4 t) fullShare bv
        ∗ (∃ d, owns (c : Thread nD τ) (st0_5 t) fullShare d) ∗ owns (c : Thread nD τ) scM0 fullShare s
        ∗ (iprop(owns (c : Thread nD τ) (st0_0 t) fullShare x ∗ owns (c : Thread nD τ) (st0_1 t) fullShare wk ∗ owns (c : Thread nD τ) (st0_2 t) fullShare bk
            ∗ owns (c : Thread nD τ) (st0_3 t) fullShare wv ∗ owns (c : Thread nD τ) (st0_4 t) fullShare bv
            ∗ owns (c : Thread nD τ) (st0_5 t) fullShare (k0_pay2 x wk bk wv bv s)
            ∗ owns (c : Thread nD τ) scM0 fullShare (k0_pay2 x wk bk wv bv s)) -∗ K ⟨⟩))
      ⊢ wp frame (wpE (defs₀ (F := F)) Variants.none c none) Set.univ (bodyAt0 (F := F) t) K := by
  have hc0 : ¬condFirst (grid0.coords t) := fun h => absurd ((hcondFirst t).1 h) (by omega)
  have hc1 : condLast (grid0.coords t) := (hcondLast t).2 ht
  exact kernel_last c (grid0.coords t) _ _ _ _ _ _ _ _ _ _ _ _ _ _ hc0 hc1 x wk bk wv bv s K

end Cert.Kernel.Hand

end
-- ==== Proof.KB.Data0.lean ====
/-
  The first launch's proof data: what each window's staging buffer holds after the body at each grid point,
  and the invariant that carries the body's running 128 × 128 table from one point to the next.

  The five input windows hold their blocks. The table after point n is the body's update applied to the table
  after point n − 1 (to the zero table at point 0) and the point's blocks; the output window holds that table
  at the last point, the only one where it is written back.
-/
import proofs.«180284_j56100862820442_1_alg».proof.Proof.Gen.Kernel.Launch
import proofs.«180284_j56100862820442_1_alg».proof.Proof.Gen.Kernel.Skeleton
import proofs.«180284_j56100862820442_1_alg».proof.Proof.Gen.Kernel.Points
import proofs.«180284_j56100862820442_1_alg».proof.Proof.KB.Body0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array at the region's entry contents `V`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The running table after point `n`. -/
def scr0 (c : Dev nD) : (n : ℕ) → n < cfg0.N → Vec F S128x128 .f32
  | 0, hn => k0_pay2 (iblk0 V c 0 ⟨0, hn⟩) (iblk0 V c 1 ⟨0, hn⟩) (iblk0 V c 2 ⟨0, hn⟩) (iblk0 V c 3 ⟨0, hn⟩) (iblk0 V c 4 ⟨0, hn⟩) (k0_pay1 (F := F))
  | n + 1, hn => k0_pay2 (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩)
      (scr0 c n (Nat.lt_of_succ_lt hn))

theorem scr0_zero (c : Dev nD) (hn : 0 < cfg0.N) :
    scr0 V c 0 hn = k0_pay2 (iblk0 V c 0 ⟨0, hn⟩) (iblk0 V c 1 ⟨0, hn⟩) (iblk0 V c 2 ⟨0, hn⟩) (iblk0 V c 3 ⟨0, hn⟩) (iblk0 V c 4 ⟨0, hn⟩) (k0_pay1 (F := F)) := rfl

theorem scr0_succ (c : Dev nD) (n : ℕ) (hn : n + 1 < cfg0.N) :
    scr0 V c (n + 1) hn = k0_pay2 (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩)
      (scr0 V c n (Nat.lt_of_succ_lt hn)) := rfl

/-- The core's other scoped buffers (the second launch's staging buffers), each whole at some contents. -/
def others0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg5_0), ((c : Thread nD τ).loc cc1_stg5_0) ↦{fullShare} f)
    ∗ (∃ f : Buf (Elt F) ((c : Thread nD τ).loc cc1_stg6_0), ((c : Thread nD τ).loc cc1_stg6_0) ↦{fullShare} f)
    ∗ (∃ f : Buf (Elt F) ((c : Thread nD τ).loc cc1_stg7_0), ((c : Thread nD τ).loc cc1_stg7_0) ↦{fullShare} f)
    ∗ (∃ f : Buf (Elt F) ((c : Thread nD τ).loc cc1_stg8_0), ((c : Thread nD τ).loc cc1_stg8_0) ↦{fullShare} f)
    ∗ (∃ f : Buf (Elt F) ((c : Thread nD τ).loc cc1_stg9_0), ((c : Thread nD τ).loc cc1_stg9_0) ↦{fullShare} f)
    ∗ (∃ f : Buf (Elt F) ((c : Thread nD τ).loc cc1_stg10_0), ((c : Thread nD τ).loc cc1_stg10_0) ↦{fullShare} f)
    ∗ (∃ f : Buf (Elt F) ((c : Thread nD τ).loc cc1_stg10_1), ((c : Thread nD τ).loc cc1_stg10_1) ↦{fullShare} f))

/-- The class invariant with the body's own buffer set apart. -/
theorem PhiA0_eq (c : Dev nD) :
    (Pipeline.ΦA spec0 c : sProp 𝕄)
      = iprop(((∃ d, owns (c : Thread nD τ) scM0 fullShare d) ∗ others0 (F := F) c) ∗ (∃ r, prngReg c r)) := by
  unfold Pipeline.ΦA others0
  rw [scopedRest0_eq]
  simp only [scM0, owns_whole]
  rfl

/-- The region invariant before position `n`: before the first point every scoped buffer at anything; afterwards the
    body's own buffer at the table the point before left. -/
def PhiS0 (c : Dev nD) : (n : ℕ) → n ≤ cfg0.N → sProp 𝕄
  | 0, _ => Pipeline.ΦA spec0 c
  | n + 1, hn => iprop((owns (c : Thread nD τ) scM0 fullShare (scr0 V c n hn) ∗ others0 (F := F) c) ∗ (∃ r, prngReg c r))

/-! ## The invariant, position by position -/

theorem PhiS0_zero (c : Dev nD) (n : ℕ) (h : n ≤ cfg0.N) (hz : n = 0) : PhiS0 V c n h = Pipeline.ΦA spec0 c := by
  subst hz; rfl

/-- After point `n`: the table at that point's contents. -/
theorem PhiS0_succ (c : Dev nD) (n : ℕ) (hn : n < cfg0.N) :
    PhiS0 V c (n + 1) hn
      = iprop((owns (c : Thread nD τ) scM0 fullShare (scr0 V c n hn) ∗ others0 (F := F) c) ∗ (∃ r, prngReg c r)) := rfl

/-- Before a point that is not the first: the table at what the point before left. -/
theorem PhiS0_pos (c : Dev nD) (n : ℕ) (h : n ≤ cfg0.N) (hz : n ≠ 0) :
    PhiS0 V c n h
      = iprop((owns (c : Thread nD τ) scM0 fullShare (scr0 V c (n - 1) (by omega)) ∗ others0 (F := F) c) ∗ (∃ r, prngReg c r)) := by
  cases n with
  | zero => exact absurd rfl hz
  | succ n => rfl

/-- The proof data of the first pipeline on core `c`, at the entry contents `V`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => scr0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = scr0 V c t.val t.isLt := by dsimp only [dat0]

/-- The invariant at a point's start, restated at the point's position. -/
theorem PhiS0_castSucc (c : Dev nD) (t : Fin cfg0.N) :
    (dat0 V c).Φ t.castSucc = PhiS0 V c t.val (Nat.le_of_lt t.isLt) := by
  dsimp only [dat0]; simp only [Fin.coe_castSucc]

/-! ## The table at a point, by the point's kind -/

theorem scr0_first (c : Dev nD) (t : Fin cfg0.N) (ht : t.val = 0) :
    scr0 V c t.val t.isLt
      = k0_pay2 (iblk0 V c 0 t) (iblk0 V c 1 t) (iblk0 V c 2 t) (iblk0 V c 3 t) (iblk0 V c 4 t) (k0_pay1 (F := F)) := by
  obtain ⟨n, hn⟩ := t
  simp only at ht; subst ht; rfl

theorem scr0_later (c : Dev nD) (t : Fin cfg0.N) (ht : t.val ≠ 0) :
    scr0 V c t.val t.isLt
      = k0_pay2 (iblk0 V c 0 t) (iblk0 V c 1 t) (iblk0 V c 2 t) (iblk0 V c 3 t) (iblk0 V c 4 t)
          (scr0 V c (t.val - 1) (Nat.lt_of_le_of_lt (Nat.sub_le _ _) t.isLt)) := by
  obtain ⟨n, hn⟩ := t
  cases n with
  | zero => exact absurd rfl ht
  | succ n => rfl

/-! ## What the body finds in each window's buffer -/

/-- The body leaves every input's block where it found it: what the proof data say the buffer holds after the
    body is the block the array holds there. -/
theorem keeps0_0 (c : Dev nD) (t : Fin cfg0.N) :
    (cfg0.win 0).cut (cfg0.grid.coords t) ((dat0 V c).after 0 t) = (dat0 V c).blockOf 0 t := by
  rw [after0_0]; unfold Dat.blockOf iblk0; rw [A_eq0]
theorem keeps0_1 (c : Dev nD) (t : Fin cfg0.N) :
    (cfg0.win 1).cut (cfg0.grid.coords t) ((dat0 V c).after 1 t) = (dat0 V c).blockOf 1 t := by
  rw [after0_1]; unfold Dat.blockOf iblk0; rw [A_eq0]
theorem keeps0_2 (c : Dev nD) (t : Fin cfg0.N) :
    (cfg0.win 2).cut (cfg0.grid.coords t) ((dat0 V c).after 2 t) = (dat0 V c).blockOf 2 t := by
  rw [after0_2]; unfold Dat.blockOf iblk0; rw [A_eq0]
theorem keeps0_3 (c : Dev nD) (t : Fin cfg0.N) :
    (cfg0.win 3).cut (cfg0.grid.coords t) ((dat0 V c).after 3 t) = (dat0 V c).blockOf 3 t := by
  rw [after0_3]; unfold Dat.blockOf iblk0; rw [A_eq0]
theorem keeps0_4 (c : Dev nD) (t : Fin cfg0.N) :
    (cfg0.win 4).cut (cfg0.grid.coords t) ((dat0 V c).after 4 t) = (dat0 V c).blockOf 4 t := by
  rw [after0_4]; unfold Dat.blockOf iblk0; rw [A_eq0]

/-- A fetch fills an input's whole buffer (the blocks tile the arrays: no block is cut short), so what it leaves
    there is the window's block, whatever the buffer held. -/
theorem fetched0_0 (c : Dev nD) (t : Fin cfg0.N) (d) : (dat0 V c).fetched 0 t d = iblk0 V c 0 t := by
  unfold Dat.fetched Dat.blockOf iblk0; rw [A_eq0]; rfl
theorem fetched0_1 (c : Dev nD) (t : Fin cfg0.N) (d) : (dat0 V c).fetched 1 t d = iblk0 V c 1 t := by
  unfold Dat.fetched Dat.blockOf iblk0; rw [A_eq0]; rfl
theorem fetched0_2 (c : Dev nD) (t : Fin cfg0.N) (d) : (dat0 V c).fetched 2 t d = iblk0 V c 2 t := by
  unfold Dat.fetched Dat.blockOf iblk0; rw [A_eq0]; rfl
theorem fetched0_3 (c : Dev nD) (t : Fin cfg0.N) (d) : (dat0 V c).fetched 3 t d = iblk0 V c 3 t := by
  unfold Dat.fetched Dat.blockOf iblk0; rw [A_eq0]; rfl
theorem fetched0_4 (c : Dev nD) (t : Fin cfg0.N) (d) : (dat0 V c).fetched 4 t d = iblk0 V c 4 t := by
  unfold Dat.fetched Dat.blockOf iblk0; rw [A_eq0]; rfl

/-- So an input's buffer holds the window's block at every point, whether the pipeline fetched it there or not:
    where it did not, the block index has not moved since the last fetch, and the body left the block in place. -/
theorem before0_0 (c : Dev nD) (t : Fin cfg0.N) (d) : (dat0 V c).before 0 t d = iblk0 V c 0 t := by
  rw [(dat0 V c).before_in_eq_fetched 0 rfl (fun _ => rfl) (fun _ _ _ => rfl) (keeps0_0 V c) t d, fetched0_0]
theorem before0_1 (c : Dev nD) (t : Fin cfg0.N) (d) : (dat0 V c).before 1 t d = iblk0 V c 1 t := by
  rw [(dat0 V c).before_in_eq_fetched 1 rfl (fun _ => rfl) (fun _ _ _ => rfl) (keeps0_1 V c) t d, fetched0_1]
theorem before0_2 (c : Dev nD) (t : Fin cfg0.N) (d) : (dat0 V c).before 2 t d = iblk0 V c 2 t := by
  rw [(dat0 V c).before_in_eq_fetched 2 rfl (fun _ => rfl) (fun _ _ _ => rfl) (keeps0_2 V c) t d, fetched0_2]
theorem before0_3 (c : Dev nD) (t : Fin cfg0.N) (d) : (dat0 V c).before 3 t d = iblk0 V c 3 t := by
  rw [(dat0 V c).before_in_eq_fetched 3 rfl (fun _ => rfl) (fun _ _ _ => rfl) (keeps0_3 V c) t d, fetched0_3]
theorem before0_4 (c : Dev nD) (t : Fin cfg0.N) (d) : (dat0 V c).before 4 t d = iblk0 V c 4 t := by
  rw [(dat0 V c).before_in_eq_fetched 4 rfl (fun _ => rfl) (fun _ _ _ => rfl) (keeps0_4 V c) t d, fetched0_4]

/-- The inputs are never idle. -/
theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
theorem live0_3 : ∀ t : Fin cfg0.N, cfg0.idle 3 (grid0.coords t) = false := by decide +kernel
theorem live0_4 : ∀ t : Fin cfg0.N, cfg0.idle 4 (grid0.coords t) = false := by decide +kernel
/-- The output window is idle at every point but the last, where the body stores into it. -/
theorem idle0_5 : ∀ t : Fin cfg0.N, t.val ≠ 7 → cfg0.idle 5 (grid0.coords t) = true := by decide +kernel
theorem live0_5 : ∀ t : Fin cfg0.N, t.val = 7 → cfg0.idle 5 (grid0.coords t) = false := by decide +kernel
/-- And it is written back at the last point only. -/
theorem noflush0_5 (t : Fin cfg0.N) (ht : t.val ≠ 7) : (cfg0.win 5).flush t = false := by
  have hN : t.val < 8 := lt_of_lt_of_eq t.isLt (show cfg0.N = 8 from N_0)
  cases h : (cfg0.win 5).flush t
  · rfl
  · exact absurd ((flush0_5 t).mp h) (by omega)

/-- The output window's buffer is never fetched into, and no point before the last stores into it or writes it
    back: at every point it holds what it held when the region began. By induction on the point. -/
theorem before0_5_aux (c : Dev nD) : ∀ (n : ℕ) (t : Fin cfg0.N), t.val = n → ∀ d, (dat0 V c).before 5 t d = d
  | 0, t, ht, d => by
    unfold Dat.before
    rw [if_neg (by rw [(cfg0.win 5).fetch_out rfl]; exact Bool.false_ne_true), if_pos ht]
  | n + 1, t, ht, d => by
    have hN : t.val < 8 := lt_of_lt_of_eq t.isLt (show cfg0.N = 8 from N_0)
    rw [(dat0 V c).before_of_pos 5 t (by omega) ((cfg0.win 5).fetch_out rfl t) d,
      if_neg (by rw [noflush0_5 _ (by simp only; omega)]; exact Bool.false_ne_true)]
    unfold Dat.left
    rw [idle0_5 _ (by simp only; omega)]
    dsimp only
    exact before0_5_aux c n _ (by simp only; omega) d

theorem before0_5 (c : Dev nD) (t : Fin cfg0.N) (d) : (dat0 V c).before 5 t d = d :=
  before0_5_aux V c t.val t rfl d

/-! ## What the body leaves in each window's buffer -/

theorem leaves0_0 (c : Dev nD) (t : Fin cfg0.N) :
    (dat0 V c).leavesExact 0 t = owns (c : Thread nD τ) (st0_0 t) fullShare (iblk0 V c 0 t) := by
  unfold Dat.leavesExact; rw [live0_0 t, after0_0]
theorem leaves0_1 (c : Dev nD) (t : Fin cfg0.N) :
    (dat0 V c).leavesExact 1 t = owns (c : Thread nD τ) (st0_1 t) fullShare (iblk0 V c 1 t) := by
  unfold Dat.leavesExact; rw [live0_1 t, after0_1]
theorem leaves0_2 (c : Dev nD) (t : Fin cfg0.N) :
    (dat0 V c).leavesExact 2 t = owns (c : Thread nD τ) (st0_2 t) fullShare (iblk0 V c 2 t) := by
  unfold Dat.leavesExact; rw [live0_2 t, after0_2]
theorem leaves0_3 (c : Dev nD) (t : Fin cfg0.N) :
    (dat0 V c).leavesExact 3 t = owns (c : Thread nD τ) (st0_3 t) fullShare (iblk0 V c 3 t) := by
  unfold Dat.leavesExact; rw [live0_3 t, after0_3]
theorem leaves0_4 (c : Dev nD) (t : Fin cfg0.N) :
    (dat0 V c).leavesExact 4 t = owns (c : Thread nD τ) (st0_4 t) fullShare (iblk0 V c 4 t) := by
  unfold Dat.leavesExact; rw [live0_4 t, after0_4]

/-- At a point before the last the output window's buffer is handed back as it was found. -/
theorem leaves0_5_idle (c : Dev nD) (t : Fin cfg0.N) (ht : t.val ≠ 7) :
    (dat0 V c).leavesExact 5 t = iprop(∃ d, owns (c : Thread nD τ) (st0_5 t) fullShare d) := by
  rw [Dat.leavesExact_idle (dat0 V c) 5 t (idle0_5 t ht) (noflush0_5 t ht)]
  simp only [before0_5]

/-- At the last point it holds the table. -/
theorem leaves0_5_last (c : Dev nD) (t : Fin cfg0.N) (ht : t.val = 7) :
    (dat0 V c).leavesExact 5 t = owns (c : Thread nD τ) (st0_5 t) fullShare (scr0 V c t.val t.isLt) := by
  unfold Dat.leavesExact; rw [live0_5 t ht, after0_5]

/-! ## The body obligation, at a generic point -/

/-- The body's precondition at point `t`: the invariant, what the core owes, and each window's current buffer at what
    the pipeline has put or left there. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- The body's postcondition at point `t`: the invariant at the next position, what the core owes (unchanged), and
    each window's current buffer at what the proof data say the body leaves. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 1600000 in
/-- The body at any point. The inputs' buffers hold their blocks; the output's holds anything. By the point's kind:
    at the first point the invariant hands the body its own buffer at anything and the body leaves the zero table
    plus the point's share; at a later point the invariant hands it the table the point before left and the body
    leaves that table plus the point's share; at the last point the output's buffer holds that same table. The other
    scoped buffers, the generator register and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0
  simp only [before0_0, before0_1, before0_2, before0_3, before0_4, before0_5]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2, leaves0_3, leaves0_4, PhiS0_castSucc]
  have hN : t.val < 8 := lt_of_lt_of_eq t.isLt (show cfg0.N = 8 from N_0)
  by_cases h0 : t.val = 0
  · rw [leaves0_5_idle V c t (by omega), PhiS0_zero V c _ _ h0, PhiA0_eq, scr0_first V c t h0]
    iintro ⟨⟨⟨HS, Hoth⟩, Hg⟩, Ho, ⟨%d0, H0⟩, ⟨%d1, H1⟩, ⟨%d2, H2⟩, ⟨%d3, H3⟩, ⟨%d4, H4⟩, H5⟩
    iapply (run0_first c t h0 (iblk0 V c 0 t) (iblk0 V c 1 t) (iblk0 V c 2 t) (iblk0 V c 3 t) (iblk0 V c 4 t) _)
    isplitl [H0]; · iexact H0
    isplitl [H1]; · iexact H1
    isplitl [H2]; · iexact H2
    isplitl [H3]; · iexact H3
    isplitl [H4]; · iexact H4
    isplitl [H5]; · iexact H5
    isplitl [HS]; · iexact HS
    iintro ⟨H0, H1, H2, H3, H4, H5, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [PhiS0_pos V c _ _ h0, scr0_later V c t h0]
    by_cases h7 : t.val = 7
    · rw [leaves0_5_last V c t h7, scr0_later V c t h0]
      iintro ⟨⟨⟨HS, Hoth⟩, Hg⟩, Ho, ⟨%d0, H0⟩, ⟨%d1, H1⟩, ⟨%d2, H2⟩, ⟨%d3, H3⟩, ⟨%d4, H4⟩, H5⟩
      iapply (run0_last c t h7 (iblk0 V c 0 t) (iblk0 V c 1 t) (iblk0 V c 2 t) (iblk0 V c 3 t) (iblk0 V c 4 t) _ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [leaves0_5_idle V c t h7]
      iintro ⟨⟨⟨HS, Hoth⟩, Hg⟩, Ho, ⟨%d0, H0⟩, ⟨%d1, H1⟩, ⟨%d2, H2⟩, ⟨%d3, H3⟩, ⟨%d4, H4⟩, H5⟩
      iapply (run0_mid c t h0 h7 (iblk0 V c 0 t) (iblk0 V c 1 t) (iblk0 V c 2 t) (iblk0 V c 3 t) (iblk0 V c 4 t) _ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      isplitl [H4]; · iexact H4
      iexact H5

/-- The body obligation of the first pipeline, at every point. -/
theorem body_obligation0 (c : Dev nD) : BodyObligation (dat0 (F := F) V c) (defs₀ (F := F)) Variants.none () Set.univ := by
  intro t
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]

/-- After the last point the invariant gives the class invariant back: the table's contents are forgotten. -/
theorem hout0 (c : Dev nD) : (dat0 V c).Φ (Fin.last cfg0.N) ⊢ Pipeline.ΦA spec0 c := by
  have hN : cfg0.N = 8 := N_0
  rw [show (dat0 V c).Φ (Fin.last cfg0.N) = PhiS0 V c (Fin.last cfg0.N).val (Nat.le_of_lt_succ (Fin.last cfg0.N).isLt) from rfl,
    PhiS0_pos V c _ _ (by rw [Fin.val_last]; omega), PhiA0_eq]
  iintro ⟨⟨HS, Hoth⟩, Hg⟩
  isplitl [HS Hoth]
  · isplitl [HS]
    · iexists _; iexact HS
    iexact Hoth
  iexact Hg

end

end Cert.Kernel.Hand

end
-- ==== Proof.KB.Body1.lean ====
/-
  The second launch's body, run once at a grid point: from a block of 256 rows of x, the weights and the 128 × 128
  table, it computes the block's rows of the result and stores them over the whole output block.
-/
import proofs.«180284_j56100862820442_1_alg».proof.Proof.Gen.Kernel.Launch
import proofs.«180284_j56100862820442_1_alg».proof.Proof.Gen.Kernel.Skeleton
import proofs.«180284_j56100862820442_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- What the body stores: the last payload over the earlier ones. -/
def out1 (x : Vec F S256x1024 .f32) (wq : Vec F S1024x128 .bf16) (bq : Vec F S1x128 .f32) (kv : Vec F S128x128 .bf16)
    (wo : Vec F S128x1024 .bf16) (bp : Vec F S1x1024 .f32) (w1 : Vec F S1024x4096 .bf16) (b1 : Vec F S1x4096 .f32)
    (w2 : Vec F S4096x1024 .bf16) (b2 : Vec F S1x1024 .f32) : Vec F S256x1024 .f32 :=
  k1_pay1 (k1_pay2 x wq bq kv wo bp) (k1_pay3 x wq bq kv wo bp w1 b1) (k1_pay4 w2) (constant S256x1024 .f32 0x00000000#32) b2

/-- The zero offsets of a rank-2 block, as the constant function. -/
private theorem run1_zeros : (![0, 0] : Fin 2 → ℕ) = fun _ => 0 := funext fun a => by fin_cases a <;> rfl

/-- The body on any eleven whole blocks. Every load is through the rectangle that is the whole block at zero offsets,
    so it reads the block's contents; the one store is through the whole output block, so it covers it and what the
    block then reads is the stored value, whatever it held before (the value loaded from it just before the store is
    not used). The stored value is the last payload at the first part's four results, the fourth of which is the zero
    constant the final product accumulates onto. -/
private theorem run1_whole (c : Dev nD) (E : Set ℕ) (i : grid1.Coords)
    (a1 : Memref sig .tc .vmem S256x1024 .f32) (h1 : a1.IsWhole) (a2 : Memref sig .tc .vmem S1024x128 .bf16) (h2 : a2.IsWhole)
    (a3 : Memref sig .tc .vmem S1x128 .f32) (h3 : a3.IsWhole) (a4 : Memref sig .tc .vmem S128x128 .bf16) (h4 : a4.IsWhole)
    (a5 : Memref sig .tc .vmem S128x1024 .bf16) (h5 : a5.IsWhole) (a6 : Memref sig .tc .vmem S1x1024 .f32) (h6 : a6.IsWhole)
    (a7 : Memref sig .tc .vmem S1024x4096 .bf16) (h7 : a7.IsWhole) (a8 : Memref sig .tc .vmem S1x4096 .f32) (h8 : a8.IsWhole)
    (a9 : Memref sig .tc .vmem S4096x1024 .bf16) (h9 : a9.IsWhole) (a10 : Memref sig .tc .vmem S1x1024 .f32) (h10 : a10.IsWhole)
    (a11 : Memref sig .tc .vmem S256x1024 .f32) (h11 : a11.IsWhole)
    (x : Vec F S256x1024 .f32) (wq : Vec F S1024x128 .bf16) (bq : Vec F S1x128 .f32) (kv : Vec F S128x128 .bf16)
    (wo : Vec F S128x1024 .bf16) (bp : Vec F S1x1024 .f32) (w1 : Vec F S1024x4096 .bf16) (b1 : Vec F S1x4096 .f32)
    (w2 : Vec F S4096x1024 .bf16) (b2 : Vec F S1x1024 .f32) (K : PUnit → sProp 𝕄) :
    iprop(owns (c : Thread nD τ) a1 fullShare x ∗ owns (c : Thread nD τ) a2 fullShare wq ∗ owns (c : Thread nD τ) a3 fullShare bq
        ∗ owns (c : Thread nD τ) a4 fullShare kv ∗ owns (c : Thread nD τ) a5 fullShare wo ∗ owns (c : Thread nD τ) a6 fullShare bp
        ∗ owns (c : Thread nD τ) a7 fullShare w1 ∗ owns (c : Thread nD τ) a8 fullShare b1 ∗ owns (c : Thread nD τ) a9 fullShare w2
        ∗ owns (c : Thread nD τ) a10 fullShare b2 ∗ (∃ d, owns (c : Thread nD τ) a11 fullShare d)
        ∗ (iprop(owns (c : Thread nD τ) a1 fullShare x ∗ owns (c : Thread nD τ) a2 fullShare wq ∗ owns (c : Thread nD τ) a3 fullShare bq
            ∗ owns (c : Thread nD τ) a4 fullShare kv ∗ owns (c : Thread nD τ) a5 fullShare wo ∗ owns (c : Thread nD τ) a6 fullShare bp
            ∗ owns (c : Thread nD τ) a7 fullShare w1 ∗ owns (c : Thread nD τ) a8 fullShare b1 ∗ owns (c : Thread nD τ) a9 fullShare w2
            ∗ owns (c : Thread nD τ) a10 fullShare b2
            ∗ owns (c : Thread nD τ) a11 fullShare (out1 x wq bq kv wo bp w1 b1 w2 b2)) -∗ K ⟨⟩))
      ⊢ wp frame (wpE (defs₀ (F := F)) Variants.none c none) E
          (cc1__main_kernel i a1 h1 a2 h2 a3 h3 a4 h4 a5 h5 a6 h6 a7 h7 a8 h8 a9 h9 a10 h10 a11 h11) K := by
  simp only [cc1__main_kernel_eq_skeleton]; unfold cc1__main_kernel_skel
  simp only [k1_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%f9, %hf9, H9⟩, ⟨%f10, %hf10, H10⟩, ⟨%d11, %f11, -, H11⟩, Hk⟩
  subst hf1 hf2 hf3 hf4 hf5 hf6 hf7 hf8 hf9 hf10
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  -- the one store covers the block: what is read back is its payload
  rw [View.read_writes_eq_canon _ _ _ (fun y => ⟨_, List.mem_singleton_self _,
      View.mem_set_unit_zero run1_zeros inb_S256x1024_S256x1024_0_0 y⟩),
    View.canon_unit_zero run1_zeros]
  sl_unfold_run_names
  unfold out1
  -- each whole-block load reads the block's contents
  simp only [View.readAt_eq_ld, View.ld_unit_zero (S := S256x1024) run1_zeros,
    View.ld_unit_zero (S := S1024x128) run1_zeros,
    View.ld_unit_zero (S := S1x128) run1_zeros,
    View.ld_unit_zero (S := S128x128) run1_zeros,
    View.ld_unit_zero (S := S128x1024) run1_zeros,
    View.ld_unit_zero (S := S1x1024) run1_zeros,
    View.ld_unit_zero (S := S1024x4096) run1_zeros,
    View.ld_unit_zero (S := S1x4096) run1_zeros,
    View.ld_unit_zero (S := S4096x1024) run1_zeros]

/-- The body at any point: the ten input blocks stay, the output block ends at `out1` of them. -/
theorem run1 (c : Dev nD) (t : Fin cfg1.N)
    (x : Vec F S256x1024 .f32) (wq : Vec F S1024x128 .bf16) (bq : Vec F S1x128 .f32) (kv : Vec F S128x128 .bf16)
    (wo : Vec F S128x1024 .bf16) (bp : Vec F S1x1024 .f32) (w1 : Vec F S1024x4096 .bf16) (b1 : Vec F S1x4096 .f32)
    (w2 : Vec F S4096x1024 .bf16) (b2 : Vec F S1x1024 .f32) (K : PUnit → sProp 𝕄) :
    iprop(owns (c : Thread nD τ) (st1_0 t) fullShare x ∗ owns (c : Thread nD τ) (st1_1 t) fullShare wq ∗ owns (c : Thread nD τ) (st1_2 t) fullShare bq
        ∗ owns (c : Thread nD τ) (st1_3 t) fullShare kv ∗ owns (c : Thread nD τ) (st1_4 t) fullShare wo ∗ owns (c : Thread nD τ) (st1_5 t) fullShare bp
        ∗ owns (c : Thread nD τ) (st1_6 t) fullShare w1 ∗ owns (c : Thread nD τ) (st1_7 t) fullShare b1 ∗ owns (c : Thread nD τ) (st1_8 t) fullShare w2
        ∗ owns (c : Thread nD τ) (st1_9 t) fullShare b2 ∗ (∃ d, owns (c : Thread nD τ) (st1_10 t) fullShare d)
        ∗ (iprop(owns (c : Thread nD τ) (st1_0 t) fullShare x ∗ owns (c : Thread nD τ) (st1_1 t) fullShare wq ∗ owns (c : Thread nD τ) (st1_2 t) fullShare bq
            ∗ owns (c : Thread nD τ) (st1_3 t) fullShare kv ∗ owns (c : Thread nD τ) (st1_4 t) fullShare wo ∗ owns (c : Thread nD τ) (st1_5 t) fullShare bp
            ∗ owns (c : Thread nD τ) (st1_6 t) fullShare w1 ∗ owns (c : Thread nD τ) (st1_7 t) fullShare b1 ∗ owns (c : Thread nD τ) (st1_8 t) fullShare w2
            ∗ owns (c : Thread nD τ) (st1_9 t) fullShare b2
            ∗ owns (c : Thread nD τ) (st1_10 t) fullShare (out1 x wq bq kv wo bp w1 b1 w2 b2)) -∗ K ⟨⟩))
      ⊢ wp frame (wpE (defs₀ (F := F)) Variants.none c none) Set.univ (bodyAt1 (F := F) t) K := by
  exact run1_whole c Set.univ (grid1.coords t) (st1_0 t) _ (st1_1 t) _ (st1_2 t) _ (st1_3 t) _ (st1_4 t) _ (st1_5 t) _
    (st1_6 t) _ (st1_7 t) _ (st1_8 t) _ (st1_9 t) _ (st1_10 t) _ x wq bq kv wo bp w1 b1 w2 b2 K

end Cert.Kernel.Hand

end
-- ==== Proof.KB.Data1.lean ====
/-
  The second launch's proof data: the ten input windows hold their blocks, the output window what the body
  stores from them; the body keeps nothing between points.
-/
import proofs.«180284_j56100862820442_1_alg».proof.Proof.Gen.Kernel.Launch
import proofs.«180284_j56100862820442_1_alg».proof.Proof.Gen.Kernel.Skeleton
import proofs.«180284_j56100862820442_1_alg».proof.Proof.Gen.Kernel.Points
import proofs.«180284_j56100862820442_1_alg».proof.Proof.KB.Body1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array at the region's entry contents `V`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data of the second pipeline on core `c`, at the entry contents `V`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => out1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) :
    (dat1 V c).after 10 t = out1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) := by
  dsimp only [dat1]

/-! ## What the body finds in the input windows

None of the ten input windows is cut or ever idle, and the body leaves each one's block where it found it. So each one's
current staging buffer holds its block at every point: where the pipeline fetched it, the fetch put it there; where it did
not, the block index has not moved since the point before, whose block is therefore this point's. -/

/-- What a fetch of window 0 reads at a point is its block off the entry contents. -/
theorem blockOf1_0 (c : Dev nD) (s : Fin cfg1.N) : (dat1 V c).blockOf 0 s = iblk1 V c 0 s := by
  unfold Dat.blockOf iblk1; rw [A_eq1]

/-- Window 0's current staging buffer holds its block at every point, fetched there or not. -/
theorem before1_0 (c : Dev nD) (t : Fin cfg1.N) (d) : (dat1 V c).before 0 t d = iblk1 V c 0 t := by
  calc (dat1 V c).before 0 t d
      = (dat1 V c).fetched 0 t d :=
        (dat1 V c).before_in_eq_fetched 0 rfl (fun _ => rfl) (fun _ _ _ => rfl)
          (fun s => by rw [after1_0, blockOf1_0]) t d
    _ = (dat1 V c).blockOf 0 t := rfl
    _ = iblk1 V c 0 t := blockOf1_0 V c t

/-- What a fetch of window 1 reads at a point is its block off the entry contents. -/
theorem blockOf1_1 (c : Dev nD) (s : Fin cfg1.N) : (dat1 V c).blockOf 1 s = iblk1 V c 1 s := by
  unfold Dat.blockOf iblk1; rw [A_eq1]

/-- Window 1's current staging buffer holds its block at every point, fetched there or not. -/
theorem before1_1 (c : Dev nD) (t : Fin cfg1.N) (d) : (dat1 V c).before 1 t d = iblk1 V c 1 t := by
  calc (dat1 V c).before 1 t d
      = (dat1 V c).fetched 1 t d :=
        (dat1 V c).before_in_eq_fetched 1 rfl (fun _ => rfl) (fun _ _ _ => rfl)
          (fun s => by rw [after1_1, blockOf1_1]) t d
    _ = (dat1 V c).blockOf 1 t := rfl
    _ = iblk1 V c 1 t := blockOf1_1 V c t

/-- What a fetch of window 2 reads at a point is its block off the entry contents. -/
theorem blockOf1_2 (c : Dev nD) (s : Fin cfg1.N) : (dat1 V c).blockOf 2 s = iblk1 V c 2 s := by
  unfold Dat.blockOf iblk1; rw [A_eq1]

/-- Window 2's current staging buffer holds its block at every point, fetched there or not. -/
theorem before1_2 (c : Dev nD) (t : Fin cfg1.N) (d) : (dat1 V c).before 2 t d = iblk1 V c 2 t := by
  calc (dat1 V c).before 2 t d
      = (dat1 V c).fetched 2 t d :=
        (dat1 V c).before_in_eq_fetched 2 rfl (fun _ => rfl) (fun _ _ _ => rfl)
          (fun s => by rw [after1_2, blockOf1_2]) t d
    _ = (dat1 V c).blockOf 2 t := rfl
    _ = iblk1 V c 2 t := blockOf1_2 V c t

/-- What a fetch of window 3 reads at a point is its block off the entry contents. -/
theorem blockOf1_3 (c : Dev nD) (s : Fin cfg1.N) : (dat1 V c).blockOf 3 s = iblk1 V c 3 s := by
  unfold Dat.blockOf iblk1; rw [A_eq1]

/-- Window 3's current staging buffer holds its block at every point, fetched there or not. -/
theorem before1_3 (c : Dev nD) (t : Fin cfg1.N) (d) : (dat1 V c).before 3 t d = iblk1 V c 3 t := by
  calc (dat1 V c).before 3 t d
      = (dat1 V c).fetched 3 t d :=
        (dat1 V c).before_in_eq_fetched 3 rfl (fun _ => rfl) (fun _ _ _ => rfl)
          (fun s => by rw [after1_3, blockOf1_3]) t d
    _ = (dat1 V c).blockOf 3 t := rfl
    _ = iblk1 V c 3 t := blockOf1_3 V c t

/-- What a fetch of window 4 reads at a point is its block off the entry contents. -/
theorem blockOf1_4 (c : Dev nD) (s : Fin cfg1.N) : (dat1 V c).blockOf 4 s = iblk1 V c 4 s := by
  unfold Dat.blockOf iblk1; rw [A_eq1]

/-- Window 4's current staging buffer holds its block at every point, fetched there or not. -/
theorem before1_4 (c : Dev nD) (t : Fin cfg1.N) (d) : (dat1 V c).before 4 t d = iblk1 V c 4 t := by
  calc (dat1 V c).before 4 t d
      = (dat1 V c).fetched 4 t d :=
        (dat1 V c).before_in_eq_fetched 4 rfl (fun _ => rfl) (fun _ _ _ => rfl)
          (fun s => by rw [after1_4, blockOf1_4]) t d
    _ = (dat1 V c).blockOf 4 t := rfl
    _ = iblk1 V c 4 t := blockOf1_4 V c t

/-- What a fetch of window 5 reads at a point is its block off the entry contents. -/
theorem blockOf1_5 (c : Dev nD) (s : Fin cfg1.N) : (dat1 V c).blockOf 5 s = iblk1 V c 5 s := by
  unfold Dat.blockOf iblk1; rw [A_eq1]

/-- Window 5's current staging buffer holds its block at every point, fetched there or not. -/
theorem before1_5 (c : Dev nD) (t : Fin cfg1.N) (d) : (dat1 V c).before 5 t d = iblk1 V c 5 t := by
  calc (dat1 V c).before 5 t d
      = (dat1 V c).fetched 5 t d :=
        (dat1 V c).before_in_eq_fetched 5 rfl (fun _ => rfl) (fun _ _ _ => rfl)
          (fun s => by rw [after1_5, blockOf1_5]) t d
    _ = (dat1 V c).blockOf 5 t := rfl
    _ = iblk1 V c 5 t := blockOf1_5 V c t

/-- What a fetch of window 6 reads at a point is its block off the entry contents. -/
theorem blockOf1_6 (c : Dev nD) (s : Fin cfg1.N) : (dat1 V c).blockOf 6 s = iblk1 V c 6 s := by
  unfold Dat.blockOf iblk1; rw [A_eq1]

/-- Window 6's current staging buffer holds its block at every point, fetched there or not. -/
theorem before1_6 (c : Dev nD) (t : Fin cfg1.N) (d) : (dat1 V c).before 6 t d = iblk1 V c 6 t := by
  calc (dat1 V c).before 6 t d
      = (dat1 V c).fetched 6 t d :=
        (dat1 V c).before_in_eq_fetched 6 rfl (fun _ => rfl) (fun _ _ _ => rfl)
          (fun s => by rw [after1_6, blockOf1_6]) t d
    _ = (dat1 V c).blockOf 6 t := rfl
    _ = iblk1 V c 6 t := blockOf1_6 V c t

/-- What a fetch of window 7 reads at a point is its block off the entry contents. -/
theorem blockOf1_7 (c : Dev nD) (s : Fin cfg1.N) : (dat1 V c).blockOf 7 s = iblk1 V c 7 s := by
  unfold Dat.blockOf iblk1; rw [A_eq1]

/-- Window 7's current staging buffer holds its block at every point, fetched there or not. -/
theorem before1_7 (c : Dev nD) (t : Fin cfg1.N) (d) : (dat1 V c).before 7 t d = iblk1 V c 7 t := by
  calc (dat1 V c).before 7 t d
      = (dat1 V c).fetched 7 t d :=
        (dat1 V c).before_in_eq_fetched 7 rfl (fun _ => rfl) (fun _ _ _ => rfl)
          (fun s => by rw [after1_7, blockOf1_7]) t d
    _ = (dat1 V c).blockOf 7 t := rfl
    _ = iblk1 V c 7 t := blockOf1_7 V c t

/-- What a fetch of window 8 reads at a point is its block off the entry contents. -/
theorem blockOf1_8 (c : Dev nD) (s : Fin cfg1.N) : (dat1 V c).blockOf 8 s = iblk1 V c 8 s := by
  unfold Dat.blockOf iblk1; rw [A_eq1]

/-- Window 8's current staging buffer holds its block at every point, fetched there or not. -/
theorem before1_8 (c : Dev nD) (t : Fin cfg1.N) (d) : (dat1 V c).before 8 t d = iblk1 V c 8 t := by
  calc (dat1 V c).before 8 t d
      = (dat1 V c).fetched 8 t d :=
        (dat1 V c).before_in_eq_fetched 8 rfl (fun _ => rfl) (fun _ _ _ => rfl)
          (fun s => by rw [after1_8, blockOf1_8]) t d
    _ = (dat1 V c).blockOf 8 t := rfl
    _ = iblk1 V c 8 t := blockOf1_8 V c t

/-- What a fetch of window 9 reads at a point is its block off the entry contents. -/
theorem blockOf1_9 (c : Dev nD) (s : Fin cfg1.N) : (dat1 V c).blockOf 9 s = iblk1 V c 9 s := by
  unfold Dat.blockOf iblk1; rw [A_eq1]

/-- Window 9's current staging buffer holds its block at every point, fetched there or not. -/
theorem before1_9 (c : Dev nD) (t : Fin cfg1.N) (d) : (dat1 V c).before 9 t d = iblk1 V c 9 t := by
  calc (dat1 V c).before 9 t d
      = (dat1 V c).fetched 9 t d :=
        (dat1 V c).before_in_eq_fetched 9 rfl (fun _ => rfl) (fun _ _ _ => rfl)
          (fun s => by rw [after1_9, blockOf1_9]) t d
    _ = (dat1 V c).blockOf 9 t := rfl
    _ = iblk1 V c 9 t := blockOf1_9 V c t

/-! ## The invariant and the debts do not depend on the point -/

theorem Phi1_eq (c : Dev nD) (i : Fin (cfg1.N + 1)) : (dat1 V c).Φ i = Pipeline.ΦA spec1 c := by
  dsimp only [dat1]

theorem owesAt1_eq (c : Dev nD) (i j : Fin (cfg1.N + 1)) : (dat1 V c).owesAt () i = (dat1 V c).owesAt () j := rfl

/-! ## One point of the grid -/

/-- What the pipeline hands the body at point `t`: the invariant, the core's debts, and each window's current staging
    buffer at what it then holds. -/
def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d)))

/-- What the body hands back: the invariant and the debts of the next point, and each buffer at what the body leaves. -/
def post1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t))

/-- The body at point `t`. The ten inputs' buffers hold their blocks, the output's buffer holds something; the body's
    triple then leaves the inputs as they were and the output at `out1` of them, which is what the proof data says the
    body leaves. The invariant and the debts are not touched. -/
theorem point1 (c : Dev nD) (t : Fin cfg1.N) :
    pre1 V c t ⊢ wp frame (wpE (defs₀ (F := F)) Variants.none c none) Set.univ (bodyAt1 t) (fun _ => post1 V c t) := by
  unfold pre1 post1
  simp only [before1_0, before1_1, before1_2, before1_3, before1_4, before1_5, before1_6, before1_7, before1_8, before1_9]
  rw [after1_0, after1_1, after1_2, after1_3, after1_4, after1_5, after1_6, after1_7, after1_8, after1_9, after1_10,
    Phi1_eq V c t.succ, Phi1_eq V c t.castSucc, owesAt1_eq V c t.succ t.castSucc]
  iintro ⟨HI, HD, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (run1 c t (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HI]; · iexact HI
  isplitl [HD]; · iexact HD
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body obligation of the second pipeline, at every point. -/
theorem body_obligation1 (c : Dev nD) : BodyObligation (dat1 (F := F) V c) (defs₀ (F := F)) Variants.none () Set.univ := by
  intro t
  rw [bigSep_W1, bigSep_W1]
  exact point1 V c t

end

end Cert.Kernel.Hand

end
-- ==== Proof.KB.Run.lean ====
/-
  The whole program's run: two stretches of host operations and the two launches, in @main's order.

  The contents of the core's unscoped buffers are followed from the launch to the return: after the first
  stretch of host operations (the weights transposed, the biases laid out as rows), after the first launch
  (its output array holds what the pipeline's write-backs make of it, everything else as before), after the
  second stretch (one change of format), after the second launch. Every weakly fair execution terminates
  with every unscoped buffer at the last of these contents; the thirteen arguments are written by no host
  operation and by no launch, so they end as they began, and the result array holds the second launch's output.
-/
import proofs.«180284_j56100862820442_1_alg».proof.Proof.Gen.Kernel.Launch
import proofs.«180284_j56100862820442_1_alg».proof.Proof.Gen.Kernel.Skeleton
import proofs.«180284_j56100862820442_1_alg».proof.Proof.Gen.Kernel.Points
import proofs.«180284_j56100862820442_1_alg».proof.Proof.KB.Data0
import proofs.«180284_j56100862820442_1_alg».proof.Proof.KB.Data1
import proofs.«180284_j56100862820442_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the five boundaries -/

/-- At launch. -/
abbrev B0 : Dev nD → Valuation τ sig (Elt F) := fun c b => m (c, b)
/-- After the first stretch of host operations: the first launch's entry. -/
abbrev B1 : Dev nD → Valuation τ sig (Elt F) := fun c => StableHlo.after hostOps0 (B0 m c)
abbrev E1 : (c : Dev nD) → (b : Ref sig .tc) → Buf (Elt F) ((c : Thread nD τ).loc b) := fun c b => B1 m c b
/-- After the first launch: its arrays at what the write-backs leave, every other buffer as entered. -/
def B2 (c : Dev nD) : Valuation τ sig (Elt F) :=
  Pipeline.withArrays spec0 c (B1 m c) fun w => (dat0 (E1 m) c).arrAt w cfg0.N
abbrev E2 : (c : Dev nD) → (b : Ref sig .tc) → Buf (Elt F) ((c : Thread nD τ).loc b) := fun c b => B2 m c b
/-- After the second stretch: the second launch's entry. -/
abbrev B3 : Dev nD → Valuation τ sig (Elt F) := fun c => StableHlo.after hostOps1 (B2 m c)
abbrev E3 : (c : Dev nD) → (b : Ref sig .tc) → Buf (Elt F) ((c : Thread nD τ).loc b) := fun c b => B3 m c b
/-- After the second launch. -/
def B4 (c : Dev nD) : Valuation τ sig (Elt F) :=
  Pipeline.withArrays spec1 c (B3 m c) fun w => (dat1 (E3 m) c).arrAt w cfg1.N
abbrev E4 : (c : Dev nD) → (b : Ref sig .tc) → Buf (Elt F) ((c : Thread nD τ).loc b) := fun c b => B4 m c b

theorem B2_arr (c : Dev nD) (w : Fin cfg0.W) :
    B2 m c (Proc.devRef .tc (Pipeline.arrRef spec0 w)) = (dat0 (E1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
theorem B4_arr (c : Dev nD) (w : Fin cfg1.W) :
    B4 m c (Proc.devRef .tc (Pipeline.arrRef spec1 w)) = (dat1 (E3 m) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m c (Proc.devRef .tc b) = B3 m c (Proc.devRef .tc b) := by
  unfold B4; exact Pipeline.withArrays_of_ne spec1 c _ _ b hb

theorem hF0 (c : Dev nD) (w : Fin cfg0.W) : (dat0 (E1 m) c).arrAt w cfg0.N = E2 m c (Pipeline.arrRef spec0 w) := (B2_arr m c w).symm
theorem hrest0 (c : Dev nD) : ∀ b, b ∉ Finset.univ.image (Pipeline.arrRef spec0) → E2 m c b = E1 m c b :=
  fun b hb => B2_of_ne m c b fun w e => hb (Finset.mem_image.mpr ⟨w, Finset.mem_univ _, e⟩)
theorem hF1 (c : Dev nD) (w : Fin cfg1.W) : (dat1 (E3 m) c).arrAt w cfg1.N = E4 m c (Pipeline.arrRef spec1 w) := (B4_arr m c w).symm
theorem hrest1 (c : Dev nD) : ∀ b, b ∉ Finset.univ.image (Pipeline.arrRef spec1) → E4 m c b = E3 m c b :=
  fun b hb => B4_of_ne m c b fun w e => hb (Finset.mem_image.mpr ⟨w, Finset.mem_univ _, e⟩)

/-! ## The arguments end as launched -/

/-- A buffer that no host operation writes and that is no window's array of either launch keeps its launch contents. -/
theorem B4_keep (c : Dev nD) (b : Ref sig .tc) (h0 : b ∉ (hostOps0_W : List (Ref sig .tc))) (h1 : b ∉ (hostOps1_W : List (Ref sig .tc)))
    (hs0 : ∀ w, Pipeline.arrRef spec0 w ≠ b) (hs1 : ∀ w, Pipeline.arrRef spec1 w ≠ b) :
    B4 m c (Proc.devRef .tc b) = m ((c : Thread nD τ).loc b) :=
  (B4_of_ne m c b hs1).trans <| (StableHlo.after_of_writes_sub hostOps1 _ hostOps1_writes h1).trans <|
    (B2_of_ne m c b hs0).trans <| (StableHlo.after_of_writes_sub hostOps0 _ hostOps0_writes h0).trans rfl

/-- The first argument is an input window's array of both launches: neither writes it. -/
theorem B4_main_arg0 (c : Dev nD) : B4 m c (Proc.devRef .tc main_arg0) = m ((c : Thread nD τ).loc main_arg0) :=
  calc B4 m c (Proc.devRef .tc main_arg0)
    _ = B3 m c (Proc.devRef .tc main_arg0) := (B4_arr m c 0).trans (((dat1 (E3 m) c).arrAt_in 0 rfl _).trans (A_eq1 (E3 m) c 0))
    _ = B2 m c (Proc.devRef .tc main_arg0) := StableHlo.after_of_writes_sub hostOps1 _ hostOps1_writes (by decide)
    _ = B1 m c (Proc.devRef .tc main_arg0) := (B2_arr m c 0).trans (((dat0 (E1 m) c).arrAt_in 0 rfl _).trans (A_eq0 (E1 m) c 0))
    _ = B0 m c (Proc.devRef .tc main_arg0) := StableHlo.after_of_writes_sub hostOps0 _ hostOps0_writes (by decide)
    _ = m ((c : Thread nD τ).loc main_arg0) := rfl

/-! ## The proof data family and the thread state -/

/-- Both pipelines' proof data, each at its launch's entry contents. -/
def pdats : (p : Fin 2) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E3 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (B4 m c) ∗ ∃ r, prngReg c r)

/-! ## The two launches as segments -/

set_option backward.isDefEq.respectTransparency.types false in
/-- The first launch: entered from every unscoped buffer at `B1`, left at `B2`. Its arrays are split out of the unscoped
    buffers and put back at the exit contents; the generator register goes into the invariant and comes out; the body's own
    buffer is named inside the invariant only between the first point and the last. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (B1 m c) ∗ R c)
  post c := iprop(StableHlo.held (c : Thread nD τ) (Pipeline.ucRefs τ sig) (B2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : iprop((∃ r, prngReg c r) ∗ Pipeline.prefHeld (pcfgs (F := F) 0).pre c (fun _ => fullShare) (adm (F := F) 0).1
          ∗ Pipeline.scopedRest (Pipeline.pin (pcfgs (F := F)) adm 0).spec c) ⊢ (Pipeline.ΦA spec0 c : sProp 𝕄) := by
      unfold Pipeline.ΦA
      iintro ⟨Hp, -, Hr⟩
      isplitl [Hr]; · iexact Hr
      iexact Hp
    exact h1.trans (hin0 (E1 m) c)
  hout c := by
    rw [Pipeline.ownSems0_none]
    have h1 : (Pipeline.ΦA spec0 c : sProp 𝕄) ⊢ iprop((∃ r, prngReg c r) ∗ BI.emp
          ∗ Pipeline.scopedRest (Pipeline.pin (pcfgs (F := F)) adm 0).spec c) := by
      unfold Pipeline.ΦA
      iintro ⟨Hr, Hp⟩
      isplitl [Hp]; · iexact Hp
      isplitr; · iempintro
      iexact Hr
    exact (hout0 (E1 m) c).trans h1
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second launch: entered from every unscoped buffer at `B3`, left at `B4`; it keeps nothing between points. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (B3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (E4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (B0 m)),
    .region (reg0 m),
    .host (hseg hostOps1 hostOps1_sub hostOps1_fresh (B2 m)),
    .region (reg1 m) ]

theorem main_run (c : Dev nD) : main (F := F) c = Pipeline.Seg.run (segs m) := (main_chain c).trans (by chain_rfl)

set_option backward.isDefEq.respectTransparency.types false in
/-- Every weakly fair execution of @main from memory `m` with zero counters terminates, and every final memory holds each
    unscoped buffer of each core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m c b)
    (hfin := fun c s' => by
      iintro ⟨⟨Hh, -⟩, HSI⟩
      unfold StableHlo.held
      imodintro
      iapply (pointsTo_read_all (Pipeline.ucRefs τ sig) (fun b => (((c : Thread nD τ)).1, b)) (B4 m c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_arg0 (by decide))).trans (B4_main_arg0 m c),
     (h c _ (mem_uc main_arg1 (by decide))).trans (B4_keep m c main_arg1 (by decide) (by decide) (by decide) (by decide)),
     (h c _ (mem_uc main_arg2 (by decide))).trans (B4_keep m c main_arg2 (by decide) (by decide) (by decide) (by decide)),
     (h c _ (mem_uc main_arg3 (by decide))).trans (B4_keep m c main_arg3 (by decide) (by decide) (by decide) (by decide)),
     (h c _ (mem_uc main_arg4 (by decide))).trans (B4_keep m c main_arg4 (by decide) (by decide) (by decide) (by decide)),
     (h c _ (mem_uc main_arg5 (by decide))).trans (B4_keep m c main_arg5 (by decide) (by decide) (by decide) (by decide)),
     (h c _ (mem_uc main_arg6 (by decide))).trans (B4_keep m c main_arg6 (by decide) (by decide) (by decide) (by decide)),
     (h c _ (mem_uc main_arg7 (by decide))).trans (B4_keep m c main_arg7 (by decide) (by decide) (by decide) (by decide)),
     (h c _ (mem_uc main_arg8 (by decide))).trans (B4_keep m c main_arg8 (by decide) (by decide) (by decide) (by decide)),
     (h c _ (mem_uc main_arg9 (by decide))).trans (B4_keep m c main_arg9 (by decide) (by decide) (by decide) (by decide)),
     (h c _ (mem_uc main_arg10 (by decide))).trans (B4_keep m c main_arg10 (by decide) (by decide) (by decide) (by decide)),
     (h c _ (mem_uc main_arg11 (by decide))).trans (B4_keep m c main_arg11 (by decide) (by decide) (by decide) (by decide)),
     (h c _ (mem_uc main_arg12 (by decide))).trans (B4_keep m c main_arg12 (by decide) (by decide) (by decide) (by decide))⟩)
    (run_all m ρ)

/-- The run with the result named: the result array ends at what the second launch's write-backs make of it, and every
    argument array as launched. -/
theorem run_value : θ_run defs (onTc (τ := τ) (main (F := F))) ⟨m, fun _ => 0, ρ⟩ (fun r => ∀ c : Dev nD,
      r.2.mem ((c.tc : Thread nD τ).loc main_v20) = (dat1 (E3 m) c).arrAt 10 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_v20 (by decide))).trans (B4_arr m c 10),
     (h c _ (mem_uc main_arg0 (by decide))).trans (B4_main_arg0 m c),
     (h c _ (mem_uc main_arg1 (by decide))).trans (B4_keep m c main_arg1 (by decide) (by decide) (by decide) (by decide)),
     (h c _ (mem_uc main_arg2 (by decide))).trans (B4_keep m c main_arg2 (by decide) (by decide) (by decide) (by decide)),
     (h c _ (mem_uc main_arg3 (by decide))).trans (B4_keep m c main_arg3 (by decide) (by decide) (by decide) (by decide)),
     (h c _ (mem_uc main_arg4 (by decide))).trans (B4_keep m c main_arg4 (by decide) (by decide) (by decide) (by decide)),
     (h c _ (mem_uc main_arg5 (by decide))).trans (B4_keep m c main_arg5 (by decide) (by decide) (by decide) (by decide)),
     (h c _ (mem_uc main_arg6 (by decide))).trans (B4_keep m c main_arg6 (by decide) (by decide) (by decide) (by decide)),
     (h c _ (mem_uc main_arg7 (by decide))).trans (B4_keep m c main_arg7 (by decide) (by decide) (by decide) (by decide)),
     (h c _ (mem_uc main_arg8 (by decide))).trans (B4_keep m c main_arg8 (by decide) (by decide) (by decide) (by decide)),
     (h c _ (mem_uc main_arg9 (by decide))).trans (B4_keep m c main_arg9 (by decide) (by decide) (by decide) (by decide)),
     (h c _ (mem_uc main_arg10 (by decide))).trans (B4_keep m c main_arg10 (by decide) (by decide) (by decide) (by decide)),
     (h c _ (mem_uc main_arg11 (by decide))).trans (B4_keep m c main_arg11 (by decide) (by decide) (by decide) (by decide)),
     (h c _ (mem_uc main_arg12 (by decide))).trans (B4_keep m c main_arg12 (by decide) (by decide) (by decide) (by decide))⟩)
    (run_all m ρ)

end Cert.Kernel.Hand

end
-- ==== Proof.KI.Body0.lean ====
/-
  The first launch's body, run once at a grid point.

  The body keeps a 128 × 128 table in a buffer of its own between grid points. At the first point it sets the
  table to zero; at every point it adds the point's share (the product of the two projected slabs) to the table;
  at the last point it copies the table into the output block. Three runs, one per kind of point.
-/
import proofs.«180284_j56100862820442_1_alg».proof.Proof.Gen.KernelIdeal.Launch
import proofs.«180284_j56100862820442_1_alg».proof.Proof.Gen.KernelIdeal.Skeleton
import proofs.«180284_j56100862820442_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The buffer the body keeps its running table in. -/
abbrev scM0 : Memref sig .tc .vmem S128x128 .f32 := Memref.whole cc0_scratch0

/-! ## The two branch conditions, over the grid

The body branches twice on the grid coordinate: is it the first point (the table is reset), and is it the last (the
table is copied out). Both are decided over the eight points in closed form. -/

/-- The first branch's condition, from the grid coordinate. -/
private abbrev condFirst (i : grid0.Coords) : Prop :=
  (Scalar.cmpi .ne (Scalar.extui (Scalar.cmpi .eq (BitVec.ofNat 32 (i 0).val) 0#32)) 0#32) = 1#1
/-- It holds at point 0 only. -/
private theorem hcondFirst : ∀ t : Fin cfg0.N, condFirst (grid0.coords t) ↔ t.val = 0 :=
  (by decide +kernel : ∀ t : Fin grid0.N, condFirst (grid0.coords t) ↔ t.val = 0)
/-- The second branch's condition. -/
private abbrev condLast (i : grid0.Coords) : Prop := k0_cond2 i = 1#1
/-- It holds at point 7 only. -/
private theorem hcondLast : ∀ t : Fin cfg0.N, condLast (grid0.coords t) ↔ t.val = 7 :=
  (by decide +kernel : ∀ t : Fin grid0.N, condLast (grid0.coords t) ↔ t.val = 7)

/-! ## The body on any whole memrefs, one run per kind of point

Every access of the body is through the whole-buffer rectangle at zero offsets: a load reads the buffer's contents,
a store leaves its payload as the buffer's contents, and a load after such a store reads that payload back. -/

/-- The zero offsets of a rank-two access, spelt as a constant function. -/
private theorem off00 : (![0, 0] : Fin 2 → ℕ) = fun _ => 0 := by
  funext a; fin_cases a <;> rfl

set_option maxHeartbeats 1000000 in
/-- The body at a point that is neither first nor last, on any whole memrefs: the table at `s` ends at the
    payload of the inputs and `s` (one store over the whole table, its loads reading the buffers whole). -/
private theorem kernel_mid (c : Dev nD) (i : grid0.Coords)
    (arg1 : Memref sig .tc .vmem S1024x1024 .f32) (harg1 : arg1.IsWhole) (arg2 : Memref sig .tc .vmem S1024x128 .bf16) (harg2 : arg2.IsWhole)
    (arg3 : Memref sig .tc .vmem S1x128 .f32) (harg3 : arg3.IsWhole) (arg4 : Memref sig .tc .vmem S1024x128 .bf16) (harg4 : arg4.IsWhole)
    (arg5 : Memref sig .tc .vmem S1x128 .f32) (harg5 : arg5.IsWhole) (arg6 : Memref sig .tc .vmem S128x128 .f32) (harg6 : arg6.IsWhole)
    (arg7 : Memref sig .tc .vmem S128x128 .f32) (harg7 : arg7.IsWhole)
    (hc0 : ¬condFirst i) (hc1 : ¬condLast i)
    (x : Vec F S1024x1024 .f32) (wk : Vec F S1024x128 .bf16) (bk : Vec F S1x128 .f32) (wv : Vec F S1024x128 .bf16) (bv : Vec F S1x128 .f32)
    (s : Vec F S128x128 .f32) (K : PUnit → sProp 𝕄) :
    iprop(owns (c : Thread nD τ) arg1 fullShare x ∗ owns (c : Thread nD τ) arg2 fullShare wk ∗ owns (c : Thread nD τ) arg3 fullShare bk
        ∗ owns (c : Thread nD τ) arg4 fullShare wv ∗ owns (c : Thread nD τ) arg5 fullShare bv
        ∗ (∃ d, owns (c : Thread nD τ) arg6 fullShare d) ∗ owns (c : Thread nD τ) arg7 fullShare s
        ∗ (iprop(owns (c : Thread nD τ) arg1 fullShare x ∗ owns (c : Thread nD τ) arg2 fullShare wk ∗ owns (c : Thread nD τ) arg3 fullShare bk
        ∗ owns (c : Thread nD τ) arg4 fullShare wv ∗ owns (c : Thread nD τ) arg5 fullShare bv
            ∗ (∃ d, owns (c : Thread nD τ) arg6 fullShare d)
            ∗ owns (c : Thread nD τ) arg7 fullShare (k0_pay2 x wk bk wv bv s)) -∗ K ⟨⟩))
      ⊢ wp frame (wpE (defs₀ (F := F)) Variants.none c none) Set.univ (cc0__kv_kernel i arg1 harg1 arg2 harg2 arg3 harg3 arg4 harg4 arg5 harg5 arg6 harg6 arg7 harg7) K := by
  simp only [cc0__kv_kernel_eq_skeleton]; unfold cc0__kv_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
  subst hf1 hf2 hf3 hf4 hf5 hf7
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; iexists f6; isplitr; · ipureintro; rfl
    iexact H6
  iexists _; isplitr
  swap; · iexact H7
  ipureintro
  sl_unfold_run_names
  rw [View.read_writes_eq_canon _ _ _ (fun y => ⟨_, List.Mem.head _, View.mem_set_unit_zero off00 inb_S128x128_S128x128_0_0 y⟩),
    View.canon_unit_zero off00]
  simp only [View.readAt_eq_ld, View.ld_unit_zero (S := S1024x1024) off00, View.ld_unit_zero (S := S1024x128) off00,
    View.ld_unit_zero (S := S1x128) off00, View.ld_unit_zero (S := S128x128) off00]

set_option maxHeartbeats 1000000 in
/-- The body at the first point, on any whole memrefs: the zero table is stored over the whole buffer, read back
    whole, and the payload of the inputs and the zero table stored over it. -/
private theorem kernel_first (c : Dev nD) (i : grid0.Coords)
    (arg1 : Memref sig .tc .vmem S1024x1024 .f32) (harg1 : arg1.IsWhole) (arg2 : Memref sig .tc .vmem S1024x128 .bf16) (harg2 : arg2.IsWhole)
    (arg3 : Memref sig .tc .vmem S1x128 .f32) (harg3 : arg3.IsWhole) (arg4 : Memref sig .tc .vmem S1024x128 .bf16) (harg4 : arg4.IsWhole)
    (arg5 : Memref sig .tc .vmem S1x128 .f32) (harg5 : arg5.IsWhole) (arg6 : Memref sig .tc .vmem S128x128 .f32) (harg6 : arg6.IsWhole)
    (arg7 : Memref sig .tc .vmem S128x128 .f32) (harg7 : arg7.IsWhole)
    (hc0 : condFirst i) (hc1 : ¬condLast i)
    (x : Vec F S1024x1024 .f32) (wk : Vec F S1024x128 .bf16) (bk : Vec F S1x128 .f32) (wv : Vec F S1024x128 .bf16) (bv : Vec F S1x128 .f32)
    (K : PUnit → sProp 𝕄) :
    iprop(owns (c : Thread nD τ) arg1 fullShare x ∗ owns (c : Thread nD τ) arg2 fullShare wk ∗ owns (c : Thread nD τ) arg3 fullShare bk
        ∗ owns (c : Thread nD τ) arg4 fullShare wv ∗ owns (c : Thread nD τ) arg5 fullShare bv
        ∗ (∃ d, owns (c : Thread nD τ) arg6 fullShare d) ∗ (∃ d, owns (c : Thread nD τ) arg7 fullShare d)
        ∗ (iprop(owns (c : Thread nD τ) arg1 fullShare x ∗ owns (c : Thread nD τ) arg2 fullShare wk ∗ owns (c : Thread nD τ) arg3 fullShare bk
        ∗ owns (c : Thread nD τ) arg4 fullShare wv ∗ owns (c : Thread nD τ) arg5 fullShare bv
            ∗ (∃ d, owns (c : Thread nD τ) arg6 fullShare d)
            ∗ owns (c : Thread nD τ) arg7 fullShare (k0_pay2 x wk bk wv bv (k0_pay1 (F := F)))) -∗ K ⟨⟩))
      ⊢ wp frame (wpE (defs₀ (F := F)) Variants.none c none) Set.univ (cc0__kv_kernel i arg1 harg1 arg2 harg2 arg3 harg3 arg4 harg4 arg5 harg5 arg6 harg6 arg7 harg7) K := by
  simp only [cc0__kv_kernel_eq_skeleton]; unfold cc0__kv_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf1 hf2 hf3 hf4 hf5
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; iexists f6; isplitr; · ipureintro; rfl
    iexact H6
  iexists _; isplitr
  swap; · iexact H7
  ipureintro
  sl_unfold_run_names
  rw [View.read_writes_eq_canon _ _ _ (fun y => ⟨_, List.Mem.head _, View.mem_set_unit_zero off00 inb_S128x128_S128x128_0_0 y⟩),
    View.canon_cons_unit_zero off00]
  simp only [View.readAt_eq_ld, View.ld_unit_zero (S := S1024x1024) off00, View.ld_unit_zero (S := S1024x128) off00,
    View.ld_unit_zero (S := S1x128) off00, View.ld_unit_zero (S := S128x128) off00, View.readCov_unit_zero (S := S128x128) _ off00]

set_option maxHeartbeats 1000000 in
/-- The body at the last point, on any whole memrefs: as at a middle point, and then the table is read back whole
    and stored over the whole output block. -/
private theorem kernel_last (c : Dev nD) (i : grid0.Coords)
    (arg1 : Memref sig .tc .vmem S1024x1024 .f32) (harg1 : arg1.IsWhole) (arg2 : Memref sig .tc .vmem S1024x128 .bf16) (harg2 : arg2.IsWhole)
    (arg3 : Memref sig .tc .vmem S1x128 .f32) (harg3 : arg3.IsWhole) (arg4 : Memref sig .tc .vmem S1024x128 .bf16) (harg4 : arg4.IsWhole)
    (arg5 : Memref sig .tc .vmem S1x128 .f32) (harg5 : arg5.IsWhole) (arg6 : Memref sig .tc .vmem S128x128 .f32) (harg6 : arg6.IsWhole)
    (arg7 : Memref sig .tc .vmem S128x128 .f32) (harg7 : arg7.IsWhole)
    (hc0 : ¬condFirst i) (hc1 : condLast i)
    (x : Vec F S1024x1024 .f32) (wk : Vec F S1024x128 .bf16) (bk : Vec F S1x128 .f32) (wv : Vec F S1024x128 .bf16) (bv : Vec F S1x128 .f32)
    (s : Vec F S128x128 .f32) (K : PUnit → sProp 𝕄) :
    iprop(owns (c : Thread nD τ) arg1 fullShare x ∗ owns (c : Thread nD τ) arg2 fullShare wk ∗ owns (c : Thread nD τ) arg3 fullShare bk
        ∗ owns (c : Thread nD τ) arg4 fullShare wv ∗ owns (c : Thread nD τ) arg5 fullShare bv
        ∗ (∃ d, owns (c : Thread nD τ) arg6 fullShare d) ∗ owns (c : Thread nD τ) arg7 fullShare s
        ∗ (iprop(owns (c : Thread nD τ) arg1 fullShare x ∗ owns (c : Thread nD τ) arg2 fullShare wk ∗ owns (c : Thread nD τ) arg3 fullShare bk
        ∗ owns (c : Thread nD τ) arg4 fullShare wv ∗ owns (c : Thread nD τ) arg5 fullShare bv
            ∗ owns (c : Thread nD τ) arg6 fullShare (k0_pay2 x wk bk wv bv s)
            ∗ owns (c : Thread nD τ) arg7 fullShare (k0_pay2 x wk bk wv bv s)) -∗ K ⟨⟩))
      ⊢ wp frame (wpE (defs₀ (F := F)) Variants.none c none) Set.univ (cc0__kv_kernel i arg1 harg1 arg2 harg2 arg3 harg3 arg4 harg4 arg5 harg5 arg6 harg6 arg7 harg7) K := by
  simp only [cc0__kv_kernel_eq_skeleton]; unfold cc0__kv_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
  subst hf1 hf2 hf3 hf4 hf5 hf7
  sl_exec (disch := first | exact hc0 | exact hc1)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_run_names
    rw [View.read_writes_eq_canon _ _ _ (fun y => ⟨_, List.Mem.head _, View.mem_set_unit_zero off00 inb_S128x128_S128x128_0_0 y⟩),
      View.canon_unit_zero off00]
    simp only [View.readAt_eq_ld, View.ld_unit_zero (S := S1024x1024) off00, View.ld_unit_zero (S := S1024x128) off00,
    View.ld_unit_zero (S := S1x128) off00, View.ld_unit_zero (S := S128x128) off00, View.readCov_unit_zero (S := S128x128) _ off00]
  iexists _; isplitr
  swap; · iexact H7
  ipureintro
  sl_unfold_run_names
  rw [View.read_writes_eq_canon _ _ _ (fun y => ⟨_, List.Mem.head _, View.mem_set_unit_zero off00 inb_S128x128_S128x128_0_0 y⟩),
    View.canon_unit_zero off00]
  simp only [View.readAt_eq_ld, View.ld_unit_zero (S := S1024x1024) off00, View.ld_unit_zero (S := S1024x128) off00,
    View.ld_unit_zero (S := S1x128) off00, View.ld_unit_zero (S := S128x128) off00]

/-! ## The three runs at a grid point -/

/-- The first point: the table, whatever it held, ends at zero plus the point's share; the output block is left alone. -/
theorem run0_first (c : Dev nD) (t : Fin cfg0.N) (ht : t.val = 0)
    (x : Vec F S1024x1024 .f32) (wk : Vec F S1024x128 .bf16) (bk : Vec F S1x128 .f32) (wv : Vec F S1024x128 .bf16) (bv : Vec F S1x128 .f32)
    (K : PUnit → sProp 𝕄) :
    iprop(owns (c : Thread nD τ) (st0_0 t) fullShare x ∗ owns (c : Thread nD τ) (st0_1 t) fullShare wk ∗ owns (c : Thread nD τ) (st0_2 t) fullShare bk
        ∗ owns (c : Thread nD τ) (st0_3 t) fullShare wv ∗ owns (c : Thread nD τ) (st0_4 t) fullShare bv
        ∗ (∃ d, owns (c : Thread nD τ) (st0_5 t) fullShare d) ∗ (∃ d, owns (c : Thread nD τ) scM0 fullShare d)
        ∗ (iprop(owns (c : Thread nD τ) (st0_0 t) fullShare x ∗ owns (c : Thread nD τ) (st0_1 t) fullShare wk ∗ owns (c : Thread nD τ) (st0_2 t) fullShare bk
            ∗ owns (c : Thread nD τ) (st0_3 t) fullShare wv ∗ owns (c : Thread nD τ) (st0_4 t) fullShare bv
            ∗ (∃ d, owns (c : Thread nD τ) (st0_5 t) fullShare d)
            ∗ owns (c : Thread nD τ) scM0 fullShare (k0_pay2 x wk bk wv bv (k0_pay1 (F := F)))) -∗ K ⟨⟩))
      ⊢ wp frame (wpE (defs₀ (F := F)) Variants.none c none) Set.univ (bodyAt0 (F := F) t) K := by
  have hc0 : condFirst (grid0.coords t) := (hcondFirst t).2 ht
  have hc1 : ¬condLast (grid0.coords t) := fun h => absurd ((hcondLast t).1 h) (by omega)
  exact kernel_first c (grid0.coords t) _ _ _ _ _ _ _ _ _ _ _ _ _ _ hc0 hc1 x wk bk wv bv K

/-- A point that is neither first nor last: the table at `s` ends at `s` plus the point's share; the output block is left alone. -/
theorem run0_mid (c : Dev nD) (t : Fin cfg0.N) (ht : t.val ≠ 0) (ht' : t.val ≠ 7)
    (x : Vec F S1024x1024 .f32) (wk : Vec F S1024x128 .bf16) (bk : Vec F S1x128 .f32) (wv : Vec F S1024x128 .bf16) (bv : Vec F S1x128 .f32)
    (s : Vec F S128x128 .f32) (K : PUnit → sProp 𝕄) :
    iprop(owns (c : Thread nD τ) (st0_0 t) fullShare x ∗ owns (c : Thread nD τ) (st0_1 t) fullShare wk ∗ owns (c : Thread nD τ) (st0_2 t) fullShare bk
        ∗ owns (c : Thread nD τ) (st0_3 t) fullShare wv ∗ owns (c : Thread nD τ) (st0_4 t) fullShare bv
        ∗ (∃ d, owns (c : Thread nD τ) (st0_5 t) fullShare d) ∗ owns (c : Thread nD τ) scM0 fullShare s
        ∗ (iprop(owns (c : Thread nD τ) (st0_0 t) fullShare x ∗ owns (c : Thread nD τ) (st0_1 t) fullShare wk ∗ owns (c : Thread nD τ) (st0_2 t) fullShare bk
            ∗ owns (c : Thread nD τ) (st0_3 t) fullShare wv ∗ owns (c : Thread nD τ) (st0_4 t) fullShare bv
            ∗ (∃ d, owns (c : Thread nD τ) (st0_5 t) fullShare d)
            ∗ owns (c : Thread nD τ) scM0 fullShare (k0_pay2 x wk bk wv bv s)) -∗ K ⟨⟩))
      ⊢ wp frame (wpE (defs₀ (F := F)) Variants.none c none) Set.univ (bodyAt0 (F := F) t) K := by
  have hc0 : ¬condFirst (grid0.coords t) := fun h => ht ((hcondFirst t).1 h)
  have hc1 : ¬condLast (grid0.coords t) := fun h => ht' ((hcondLast t).1 h)
  exact kernel_mid c (grid0.coords t) _ _ _ _ _ _ _ _ _ _ _ _ _ _ hc0 hc1 x wk bk wv bv s K

/-- The last point: the table at `s` ends at `s` plus the point's share, and the output block holds that same table. -/
theorem run0_last (c : Dev nD) (t : Fin cfg0.N) (ht : t.val = 7)
    (x : Vec F S1024x1024 .f32) (wk : Vec F S1024x128 .bf16) (bk : Vec F S1x128 .f32) (wv : Vec F S1024x128 .bf16) (bv : Vec F S1x128 .f32)
    (s : Vec F S128x128 .f32) (K : PUnit → sProp 𝕄) :
    iprop(owns (c : Thread nD τ) (st0_0 t) fullShare x ∗ owns (c : Thread nD τ) (st0_1 t) fullShare wk ∗ owns (c : Thread nD τ) (st0_2 t) fullShare bk
        ∗ owns (c : Thread nD τ) (st0_3 t) fullShare wv ∗ owns (c : Thread nD τ) (st0_4 t) fullShare bv
        ∗ (∃ d, owns (c : Thread nD τ) (st0_5 t) fullShare d) ∗ owns (c : Thread nD τ) scM0 fullShare s
        ∗ (iprop(owns (c : Thread nD τ) (st0_0 t) fullShare x ∗ owns (c : Thread nD τ) (st0_1 t) fullShare wk ∗ owns (c : Thread nD τ) (st0_2 t) fullShare bk
            ∗ owns (c : Thread nD τ) (st0_3 t) fullShare wv ∗ owns (c : Thread nD τ) (st0_4 t) fullShare bv
            ∗ owns (c : Thread nD τ) (st0_5 t) fullShare (k0_pay2 x wk bk wv bv s)
            ∗ owns (c : Thread nD τ) scM0 fullShare (k0_pay2 x wk bk wv bv s)) -∗ K ⟨⟩))
      ⊢ wp frame (wpE (defs₀ (F := F)) Variants.none c none) Set.univ (bodyAt0 (F := F) t) K := by
  have hc0 : ¬condFirst (grid0.coords t) := fun h => absurd ((hcondFirst t).1 h) (by omega)
  have hc1 : condLast (grid0.coords t) := (hcondLast t).2 ht
  exact kernel_last c (grid0.coords t) _ _ _ _ _ _ _ _ _ _ _ _ _ _ hc0 hc1 x wk bk wv bv s K

end Cert.KernelIdeal.Hand

end
-- ==== Proof.KI.Data0.lean ====
/-
  The first launch's proof data: what each window's staging buffer holds after the body at each grid point,
  and the invariant that carries the body's running 128 × 128 table from one point to the next.

  The five input windows hold their blocks. The table after point n is the body's update applied to the table
  after point n − 1 (to the zero table at point 0) and the point's blocks; the output window holds that table
  at the last point, the only one where it is written back.
-/
import proofs.«180284_j56100862820442_1_alg».proof.Proof.Gen.KernelIdeal.Launch
import proofs.«180284_j56100862820442_1_alg».proof.Proof.Gen.KernelIdeal.Skeleton
import proofs.«180284_j56100862820442_1_alg».proof.Proof.Gen.KernelIdeal.Points
import proofs.«180284_j56100862820442_1_alg».proof.Proof.KI.Body0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array at the region's entry contents `V`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The running table after point `n`. -/
def scr0 (c : Dev nD) : (n : ℕ) → n < cfg0.N → Vec F S128x128 .f32
  | 0, hn => k0_pay2 (iblk0 V c 0 ⟨0, hn⟩) (iblk0 V c 1 ⟨0, hn⟩) (iblk0 V c 2 ⟨0, hn⟩) (iblk0 V c 3 ⟨0, hn⟩) (iblk0 V c 4 ⟨0, hn⟩) (k0_pay1 (F := F))
  | n + 1, hn => k0_pay2 (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩)
      (scr0 c n (Nat.lt_of_succ_lt hn))

theorem scr0_zero (c : Dev nD) (hn : 0 < cfg0.N) :
    scr0 V c 0 hn = k0_pay2 (iblk0 V c 0 ⟨0, hn⟩) (iblk0 V c 1 ⟨0, hn⟩) (iblk0 V c 2 ⟨0, hn⟩) (iblk0 V c 3 ⟨0, hn⟩) (iblk0 V c 4 ⟨0, hn⟩) (k0_pay1 (F := F)) := rfl

theorem scr0_succ (c : Dev nD) (n : ℕ) (hn : n + 1 < cfg0.N) :
    scr0 V c (n + 1) hn = k0_pay2 (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩)
      (scr0 V c n (Nat.lt_of_succ_lt hn)) := rfl

/-- The core's other scoped buffers (the second launch's staging buffers), each whole at some contents. -/
def others0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg5_0), ((c : Thread nD τ).loc cc1_stg5_0) ↦{fullShare} f)
    ∗ (∃ f : Buf (Elt F) ((c : Thread nD τ).loc cc1_stg6_0), ((c : Thread nD τ).loc cc1_stg6_0) ↦{fullShare} f)
    ∗ (∃ f : Buf (Elt F) ((c : Thread nD τ).loc cc1_stg7_0), ((c : Thread nD τ).loc cc1_stg7_0) ↦{fullShare} f)
    ∗ (∃ f : Buf (Elt F) ((c : Thread nD τ).loc cc1_stg8_0), ((c : Thread nD τ).loc cc1_stg8_0) ↦{fullShare} f)
    ∗ (∃ f : Buf (Elt F) ((c : Thread nD τ).loc cc1_stg9_0), ((c : Thread nD τ).loc cc1_stg9_0) ↦{fullShare} f)
    ∗ (∃ f : Buf (Elt F) ((c : Thread nD τ).loc cc1_stg10_0), ((c : Thread nD τ).loc cc1_stg10_0) ↦{fullShare} f)
    ∗ (∃ f : Buf (Elt F) ((c : Thread nD τ).loc cc1_stg10_1), ((c : Thread nD τ).loc cc1_stg10_1) ↦{fullShare} f))

/-- The class invariant with the body's own buffer set apart. -/
theorem PhiA0_eq (c : Dev nD) :
    (Pipeline.ΦA spec0 c : sProp 𝕄)
      = iprop(((∃ d, owns (c : Thread nD τ) scM0 fullShare d) ∗ others0 (F := F) c) ∗ (∃ r, prngReg c r)) := by
  unfold Pipeline.ΦA others0
  rw [scopedRest0_eq]
  simp only [scM0, owns_whole]
  rfl

/-- The region invariant before position `n`: before the first point every scoped buffer at anything; afterwards the
    body's own buffer at the table the point before left. -/
def PhiS0 (c : Dev nD) : (n : ℕ) → n ≤ cfg0.N → sProp 𝕄
  | 0, _ => Pipeline.ΦA spec0 c
  | n + 1, hn => iprop((owns (c : Thread nD τ) scM0 fullShare (scr0 V c n hn) ∗ others0 (F := F) c) ∗ (∃ r, prngReg c r))

/-! ## The invariant, position by position -/

theorem PhiS0_zero (c : Dev nD) (n : ℕ) (h : n ≤ cfg0.N) (hz : n = 0) : PhiS0 V c n h = Pipeline.ΦA spec0 c := by
  subst hz; rfl

/-- After point `n`: the table at that point's contents. -/
theorem PhiS0_succ (c : Dev nD) (n : ℕ) (hn : n < cfg0.N) :
    PhiS0 V c (n + 1) hn
      = iprop((owns (c : Thread nD τ) scM0 fullShare (scr0 V c n hn) ∗ others0 (F := F) c) ∗ (∃ r, prngReg c r)) := rfl

/-- Before a point that is not the first: the table at what the point before left. -/
theorem PhiS0_pos (c : Dev nD) (n : ℕ) (h : n ≤ cfg0.N) (hz : n ≠ 0) :
    PhiS0 V c n h
      = iprop((owns (c : Thread nD τ) scM0 fullShare (scr0 V c (n - 1) (by omega)) ∗ others0 (F := F) c) ∗ (∃ r, prngReg c r)) := by
  cases n with
  | zero => exact absurd rfl hz
  | succ n => rfl

/-- The proof data of the first pipeline on core `c`, at the entry contents `V`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => scr0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = scr0 V c t.val t.isLt := by dsimp only [dat0]

/-- The invariant at a point's start, restated at the point's position. -/
theorem PhiS0_castSucc (c : Dev nD) (t : Fin cfg0.N) :
    (dat0 V c).Φ t.castSucc = PhiS0 V c t.val (Nat.le_of_lt t.isLt) := by
  dsimp only [dat0]; simp only [Fin.coe_castSucc]

/-! ## The table at a point, by the point's kind -/

theorem scr0_first (c : Dev nD) (t : Fin cfg0.N) (ht : t.val = 0) :
    scr0 V c t.val t.isLt
      = k0_pay2 (iblk0 V c 0 t) (iblk0 V c 1 t) (iblk0 V c 2 t) (iblk0 V c 3 t) (iblk0 V c 4 t) (k0_pay1 (F := F)) := by
  obtain ⟨n, hn⟩ := t
  simp only at ht; subst ht; rfl

theorem scr0_later (c : Dev nD) (t : Fin cfg0.N) (ht : t.val ≠ 0) :
    scr0 V c t.val t.isLt
      = k0_pay2 (iblk0 V c 0 t) (iblk0 V c 1 t) (iblk0 V c 2 t) (iblk0 V c 3 t) (iblk0 V c 4 t)
          (scr0 V c (t.val - 1) (Nat.lt_of_le_of_lt (Nat.sub_le _ _) t.isLt)) := by
  obtain ⟨n, hn⟩ := t
  cases n with
  | zero => exact absurd rfl ht
  | succ n => rfl

/-! ## What the body finds in each window's buffer -/

/-- The body leaves every input's block where it found it: what the proof data say the buffer holds after the
    body is the block the array holds there. -/
theorem keeps0_0 (c : Dev nD) (t : Fin cfg0.N) :
    (cfg0.win 0).cut (cfg0.grid.coords t) ((dat0 V c).after 0 t) = (dat0 V c).blockOf 0 t := by
  rw [after0_0]; unfold Dat.blockOf iblk0; rw [A_eq0]
theorem keeps0_1 (c : Dev nD) (t : Fin cfg0.N) :
    (cfg0.win 1).cut (cfg0.grid.coords t) ((dat0 V c).after 1 t) = (dat0 V c).blockOf 1 t := by
  rw [after0_1]; unfold Dat.blockOf iblk0; rw [A_eq0]
theorem keeps0_2 (c : Dev nD) (t : Fin cfg0.N) :
    (cfg0.win 2).cut (cfg0.grid.coords t) ((dat0 V c).after 2 t) = (dat0 V c).blockOf 2 t := by
  rw [after0_2]; unfold Dat.blockOf iblk0; rw [A_eq0]
theorem keeps0_3 (c : Dev nD) (t : Fin cfg0.N) :
    (cfg0.win 3).cut (cfg0.grid.coords t) ((dat0 V c).after 3 t) = (dat0 V c).blockOf 3 t := by
  rw [after0_3]; unfold Dat.blockOf iblk0; rw [A_eq0]
theorem keeps0_4 (c : Dev nD) (t : Fin cfg0.N) :
    (cfg0.win 4).cut (cfg0.grid.coords t) ((dat0 V c).after 4 t) = (dat0 V c).blockOf 4 t := by
  rw [after0_4]; unfold Dat.blockOf iblk0; rw [A_eq0]

/-- A fetch fills an input's whole buffer (the blocks tile the arrays: no block is cut short), so what it leaves
    there is the window's block, whatever the buffer held. -/
theorem fetched0_0 (c : Dev nD) (t : Fin cfg0.N) (d) : (dat0 V c).fetched 0 t d = iblk0 V c 0 t := by
  unfold Dat.fetched Dat.blockOf iblk0; rw [A_eq0]; rfl
theorem fetched0_1 (c : Dev nD) (t : Fin cfg0.N) (d) : (dat0 V c).fetched 1 t d = iblk0 V c 1 t := by
  unfold Dat.fetched Dat.blockOf iblk0; rw [A_eq0]; rfl
theorem fetched0_2 (c : Dev nD) (t : Fin cfg0.N) (d) : (dat0 V c).fetched 2 t d = iblk0 V c 2 t := by
  unfold Dat.fetched Dat.blockOf iblk0; rw [A_eq0]; rfl
theorem fetched0_3 (c : Dev nD) (t : Fin cfg0.N) (d) : (dat0 V c).fetched 3 t d = iblk0 V c 3 t := by
  unfold Dat.fetched Dat.blockOf iblk0; rw [A_eq0]; rfl
theorem fetched0_4 (c : Dev nD) (t : Fin cfg0.N) (d) : (dat0 V c).fetched 4 t d = iblk0 V c 4 t := by
  unfold Dat.fetched Dat.blockOf iblk0; rw [A_eq0]; rfl

/-- So an input's buffer holds the window's block at every point, whether the pipeline fetched it there or not:
    where it did not, the block index has not moved since the last fetch, and the body left the block in place. -/
theorem before0_0 (c : Dev nD) (t : Fin cfg0.N) (d) : (dat0 V c).before 0 t d = iblk0 V c 0 t := by
  rw [(dat0 V c).before_in_eq_fetched 0 rfl (fun _ => rfl) (fun _ _ _ => rfl) (keeps0_0 V c) t d, fetched0_0]
theorem before0_1 (c : Dev nD) (t : Fin cfg0.N) (d) : (dat0 V c).before 1 t d = iblk0 V c 1 t := by
  rw [(dat0 V c).before_in_eq_fetched 1 rfl (fun _ => rfl) (fun _ _ _ => rfl) (keeps0_1 V c) t d, fetched0_1]
theorem before0_2 (c : Dev nD) (t : Fin cfg0.N) (d) : (dat0 V c).before 2 t d = iblk0 V c 2 t := by
  rw [(dat0 V c).before_in_eq_fetched 2 rfl (fun _ => rfl) (fun _ _ _ => rfl) (keeps0_2 V c) t d, fetched0_2]
theorem before0_3 (c : Dev nD) (t : Fin cfg0.N) (d) : (dat0 V c).before 3 t d = iblk0 V c 3 t := by
  rw [(dat0 V c).before_in_eq_fetched 3 rfl (fun _ => rfl) (fun _ _ _ => rfl) (keeps0_3 V c) t d, fetched0_3]
theorem before0_4 (c : Dev nD) (t : Fin cfg0.N) (d) : (dat0 V c).before 4 t d = iblk0 V c 4 t := by
  rw [(dat0 V c).before_in_eq_fetched 4 rfl (fun _ => rfl) (fun _ _ _ => rfl) (keeps0_4 V c) t d, fetched0_4]

/-- The inputs are never idle. -/
theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
theorem live0_3 : ∀ t : Fin cfg0.N, cfg0.idle 3 (grid0.coords t) = false := by decide +kernel
theorem live0_4 : ∀ t : Fin cfg0.N, cfg0.idle 4 (grid0.coords t) = false := by decide +kernel
/-- The output window is idle at every point but the last, where the body stores into it. -/
theorem idle0_5 : ∀ t : Fin cfg0.N, t.val ≠ 7 → cfg0.idle 5 (grid0.coords t) = true := by decide +kernel
theorem live0_5 : ∀ t : Fin cfg0.N, t.val = 7 → cfg0.idle 5 (grid0.coords t) = false := by decide +kernel
/-- And it is written back at the last point only. -/
theorem noflush0_5 (t : Fin cfg0.N) (ht : t.val ≠ 7) : (cfg0.win 5).flush t = false := by
  have hN : t.val < 8 := lt_of_lt_of_eq t.isLt (show cfg0.N = 8 from N_0)
  cases h : (cfg0.win 5).flush t
  · rfl
  · exact absurd ((flush0_5 t).mp h) (by omega)

/-- The output window's buffer is never fetched into, and no point before the last stores into it or writes it
    back: at every point it holds what it held when the region began. By induction on the point. -/
theorem before0_5_aux (c : Dev nD) : ∀ (n : ℕ) (t : Fin cfg0.N), t.val = n → ∀ d, (dat0 V c).before 5 t d = d
  | 0, t, ht, d => by
    unfold Dat.before
    rw [if_neg (by rw [(cfg0.win 5).fetch_out rfl]; exact Bool.false_ne_true), if_pos ht]
  | n + 1, t, ht, d => by
    have hN : t.val < 8 := lt_of_lt_of_eq t.isLt (show cfg0.N = 8 from N_0)
    rw [(dat0 V c).before_of_pos 5 t (by omega) ((cfg0.win 5).fetch_out rfl t) d,
      if_neg (by rw [noflush0_5 _ (by simp only; omega)]; exact Bool.false_ne_true)]
    unfold Dat.left
    rw [idle0_5 _ (by simp only; omega)]
    dsimp only
    exact before0_5_aux c n _ (by simp only; omega) d

theorem before0_5 (c : Dev nD) (t : Fin cfg0.N) (d) : (dat0 V c).before 5 t d = d :=
  before0_5_aux V c t.val t rfl d

/-! ## What the body leaves in each window's buffer -/

theorem leaves0_0 (c : Dev nD) (t : Fin cfg0.N) :
    (dat0 V c).leavesExact 0 t = owns (c : Thread nD τ) (st0_0 t) fullShare (iblk0 V c 0 t) := by
  unfold Dat.leavesExact; rw [live0_0 t, after0_0]
theorem leaves0_1 (c : Dev nD) (t : Fin cfg0.N) :
    (dat0 V c).leavesExact 1 t = owns (c : Thread nD τ) (st0_1 t) fullShare (iblk0 V c 1 t) := by
  unfold Dat.leavesExact; rw [live0_1 t, after0_1]
theorem leaves0_2 (c : Dev nD) (t : Fin cfg0.N) :
    (dat0 V c).leavesExact 2 t = owns (c : Thread nD τ) (st0_2 t) fullShare (iblk0 V c 2 t) := by
  unfold Dat.leavesExact; rw [live0_2 t, after0_2]
theorem leaves0_3 (c : Dev nD) (t : Fin cfg0.N) :
    (dat0 V c).leavesExact 3 t = owns (c : Thread nD τ) (st0_3 t) fullShare (iblk0 V c 3 t) := by
  unfold Dat.leavesExact; rw [live0_3 t, after0_3]
theorem leaves0_4 (c : Dev nD) (t : Fin cfg0.N) :
    (dat0 V c).leavesExact 4 t = owns (c : Thread nD τ) (st0_4 t) fullShare (iblk0 V c 4 t) := by
  unfold Dat.leavesExact; rw [live0_4 t, after0_4]

/-- At a point before the last the output window's buffer is handed back as it was found. -/
theorem leaves0_5_idle (c : Dev nD) (t : Fin cfg0.N) (ht : t.val ≠ 7) :
    (dat0 V c).leavesExact 5 t = iprop(∃ d, owns (c : Thread nD τ) (st0_5 t) fullShare d) := by
  rw [Dat.leavesExact_idle (dat0 V c) 5 t (idle0_5 t ht) (noflush0_5 t ht)]
  simp only [before0_5]

/-- At the last point it holds the table. -/
theorem leaves0_5_last (c : Dev nD) (t : Fin cfg0.N) (ht : t.val = 7) :
    (dat0 V c).leavesExact 5 t = owns (c : Thread nD τ) (st0_5 t) fullShare (scr0 V c t.val t.isLt) := by
  unfold Dat.leavesExact; rw [live0_5 t ht, after0_5]

/-! ## The body obligation, at a generic point -/

/-- The body's precondition at point `t`: the invariant, what the core owes, and each window's current buffer at what
    the pipeline has put or left there. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- The body's postcondition at point `t`: the invariant at the next position, what the core owes (unchanged), and
    each window's current buffer at what the proof data say the body leaves. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 1600000 in
/-- The body at any point. The inputs' buffers hold their blocks; the output's holds anything. By the point's kind:
    at the first point the invariant hands the body its own buffer at anything and the body leaves the zero table
    plus the point's share; at a later point the invariant hands it the table the point before left and the body
    leaves that table plus the point's share; at the last point the output's buffer holds that same table. The other
    scoped buffers, the generator register and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0
  simp only [before0_0, before0_1, before0_2, before0_3, before0_4, before0_5]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2, leaves0_3, leaves0_4, PhiS0_castSucc]
  have hN : t.val < 8 := lt_of_lt_of_eq t.isLt (show cfg0.N = 8 from N_0)
  by_cases h0 : t.val = 0
  · rw [leaves0_5_idle V c t (by omega), PhiS0_zero V c _ _ h0, PhiA0_eq, scr0_first V c t h0]
    iintro ⟨⟨⟨HS, Hoth⟩, Hg⟩, Ho, ⟨%d0, H0⟩, ⟨%d1, H1⟩, ⟨%d2, H2⟩, ⟨%d3, H3⟩, ⟨%d4, H4⟩, H5⟩
    iapply (run0_first c t h0 (iblk0 V c 0 t) (iblk0 V c 1 t) (iblk0 V c 2 t) (iblk0 V c 3 t) (iblk0 V c 4 t) _)
    isplitl [H0]; · iexact H0
    isplitl [H1]; · iexact H1
    isplitl [H2]; · iexact H2
    isplitl [H3]; · iexact H3
    isplitl [H4]; · iexact H4
    isplitl [H5]; · iexact H5
    isplitl [HS]; · iexact HS
    iintro ⟨H0, H1, H2, H3, H4, H5, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [PhiS0_pos V c _ _ h0, scr0_later V c t h0]
    by_cases h7 : t.val = 7
    · rw [leaves0_5_last V c t h7, scr0_later V c t h0]
      iintro ⟨⟨⟨HS, Hoth⟩, Hg⟩, Ho, ⟨%d0, H0⟩, ⟨%d1, H1⟩, ⟨%d2, H2⟩, ⟨%d3, H3⟩, ⟨%d4, H4⟩, H5⟩
      iapply (run0_last c t h7 (iblk0 V c 0 t) (iblk0 V c 1 t) (iblk0 V c 2 t) (iblk0 V c 3 t) (iblk0 V c 4 t) _ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [leaves0_5_idle V c t h7]
      iintro ⟨⟨⟨HS, Hoth⟩, Hg⟩, Ho, ⟨%d0, H0⟩, ⟨%d1, H1⟩, ⟨%d2, H2⟩, ⟨%d3, H3⟩, ⟨%d4, H4⟩, H5⟩
      iapply (run0_mid c t h0 h7 (iblk0 V c 0 t) (iblk0 V c 1 t) (iblk0 V c 2 t) (iblk0 V c 3 t) (iblk0 V c 4 t) _ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      isplitl [H4]; · iexact H4
      iexact H5

/-- The body obligation of the first pipeline, at every point. -/
theorem body_obligation0 (c : Dev nD) : BodyObligation (dat0 (F := F) V c) (defs₀ (F := F)) Variants.none () Set.univ := by
  intro t
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]

/-- After the last point the invariant gives the class invariant back: the table's contents are forgotten. -/
theorem hout0 (c : Dev nD) : (dat0 V c).Φ (Fin.last cfg0.N) ⊢ Pipeline.ΦA spec0 c := by
  have hN : cfg0.N = 8 := N_0
  rw [show (dat0 V c).Φ (Fin.last cfg0.N) = PhiS0 V c (Fin.last cfg0.N).val (Nat.le_of_lt_succ (Fin.last cfg0.N).isLt) from rfl,
    PhiS0_pos V c _ _ (by rw [Fin.val_last]; omega), PhiA0_eq]
  iintro ⟨⟨HS, Hoth⟩, Hg⟩
  isplitl [HS Hoth]
  · isplitl [HS]
    · iexists _; iexact HS
    iexact Hoth
  iexact Hg

end

end Cert.KernelIdeal.Hand

end
-- ==== Proof.KI.Body1.lean ====
/-
  The second launch's body, run once at a grid point: from a block of 256 rows of x, the weights and the 128 × 128
  table, it computes the block's rows of the result and stores them over the whole output block.
-/
import proofs.«180284_j56100862820442_1_alg».proof.Proof.Gen.KernelIdeal.Launch
import proofs.«180284_j56100862820442_1_alg».proof.Proof.Gen.KernelIdeal.Skeleton
import proofs.«180284_j56100862820442_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- What the body stores: the last payload over the earlier ones. -/
def out1 (x : Vec F S256x1024 .f32) (wq : Vec F S1024x128 .bf16) (bq : Vec F S1x128 .f32) (kv : Vec F S128x128 .bf16)
    (wo : Vec F S128x1024 .bf16) (bp : Vec F S1x1024 .f32) (w1 : Vec F S1024x4096 .bf16) (b1 : Vec F S1x4096 .f32)
    (w2 : Vec F S4096x1024 .bf16) (b2 : Vec F S1x1024 .f32) : Vec F S256x1024 .f32 :=
  k1_pay1 (k1_pay2 x wq bq kv wo bp) (k1_pay3 x wq bq kv wo bp w1 b1) (k1_pay4 w2) (constant S256x1024 .f32 0x00000000#32) b2

/-- The zero offsets of a rank-2 block, as the constant function. -/
private theorem run1_zeros : (![0, 0] : Fin 2 → ℕ) = fun _ => 0 := funext fun a => by fin_cases a <;> rfl

/-- The body on any eleven whole blocks. Every load is through the rectangle that is the whole block at zero offsets,
    so it reads the block's contents; the one store is through the whole output block, so it covers it and what the
    block then reads is the stored value, whatever it held before (the value loaded from it just before the store is
    not used). The stored value is the last payload at the first part's four results, the fourth of which is the zero
    constant the final product accumulates onto. -/
private theorem run1_whole (c : Dev nD) (E : Set ℕ) (i : grid1.Coords)
    (a1 : Memref sig .tc .vmem S256x1024 .f32) (h1 : a1.IsWhole) (a2 : Memref sig .tc .vmem S1024x128 .bf16) (h2 : a2.IsWhole)
    (a3 : Memref sig .tc .vmem S1x128 .f32) (h3 : a3.IsWhole) (a4 : Memref sig .tc .vmem S128x128 .bf16) (h4 : a4.IsWhole)
    (a5 : Memref sig .tc .vmem S128x1024 .bf16) (h5 : a5.IsWhole) (a6 : Memref sig .tc .vmem S1x1024 .f32) (h6 : a6.IsWhole)
    (a7 : Memref sig .tc .vmem S1024x4096 .bf16) (h7 : a7.IsWhole) (a8 : Memref sig .tc .vmem S1x4096 .f32) (h8 : a8.IsWhole)
    (a9 : Memref sig .tc .vmem S4096x1024 .bf16) (h9 : a9.IsWhole) (a10 : Memref sig .tc .vmem S1x1024 .f32) (h10 : a10.IsWhole)
    (a11 : Memref sig .tc .vmem S256x1024 .f32) (h11 : a11.IsWhole)
    (x : Vec F S256x1024 .f32) (wq : Vec F S1024x128 .bf16) (bq : Vec F S1x128 .f32) (kv : Vec F S128x128 .bf16)
    (wo : Vec F S128x1024 .bf16) (bp : Vec F S1x1024 .f32) (w1 : Vec F S1024x4096 .bf16) (b1 : Vec F S1x4096 .f32)
    (w2 : Vec F S4096x1024 .bf16) (b2 : Vec F S1x1024 .f32) (K : PUnit → sProp 𝕄) :
    iprop(owns (c : Thread nD τ) a1 fullShare x ∗ owns (c : Thread nD τ) a2 fullShare wq ∗ owns (c : Thread nD τ) a3 fullShare bq
        ∗ owns (c : Thread nD τ) a4 fullShare kv ∗ owns (c : Thread nD τ) a5 fullShare wo ∗ owns (c : Thread nD τ) a6 fullShare bp
        ∗ owns (c : Thread nD τ) a7 fullShare w1 ∗ owns (c : Thread nD τ) a8 fullShare b1 ∗ owns (c : Thread nD τ) a9 fullShare w2
        ∗ owns (c : Thread nD τ) a10 fullShare b2 ∗ (∃ d, owns (c : Thread nD τ) a11 fullShare d)
        ∗ (iprop(owns (c : Thread nD τ) a1 fullShare x ∗ owns (c : Thread nD τ) a2 fullShare wq ∗ owns (c : Thread nD τ) a3 fullShare bq
            ∗ owns (c : Thread nD τ) a4 fullShare kv ∗ owns (c : Thread nD τ) a5 fullShare wo ∗ owns (c : Thread nD τ) a6 fullShare bp
            ∗ owns (c : Thread nD τ) a7 fullShare w1 ∗ owns (c : Thread nD τ) a8 fullShare b1 ∗ owns (c : Thread nD τ) a9 fullShare w2
            ∗ owns (c : Thread nD τ) a10 fullShare b2
            ∗ owns (c : Thread nD τ) a11 fullShare (out1 x wq bq kv wo bp w1 b1 w2 b2)) -∗ K ⟨⟩))
      ⊢ wp frame (wpE (defs₀ (F := F)) Variants.none c none) E
          (cc1__main_kernel i a1 h1 a2 h2 a3 h3 a4 h4 a5 h5 a6 h6 a7 h7 a8 h8 a9 h9 a10 h10 a11 h11) K := by
  simp only [cc1__main_kernel_eq_skeleton]; unfold cc1__main_kernel_skel
  simp only [k1_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩,
    ⟨%f7, %hf7, H7⟩, ⟨%f8, %hf8, H8⟩, ⟨%f9, %hf9, H9⟩, ⟨%f10, %hf10, H10⟩, ⟨%d11, %f11, -, H11⟩, Hk⟩
  subst hf1 hf2 hf3 hf4 hf5 hf6 hf7 hf8 hf9 hf10
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  -- the one store covers the block: what is read back is its payload
  rw [View.read_writes_eq_canon _ _ _ (fun y => ⟨_, List.mem_singleton_self _,
      View.mem_set_unit_zero run1_zeros inb_S256x1024_S256x1024_0_0 y⟩),
    View.canon_unit_zero run1_zeros]
  sl_unfold_run_names
  unfold out1
  -- each whole-block load reads the block's contents
  simp only [View.readAt_eq_ld, View.ld_unit_zero (S := S256x1024) run1_zeros,
    View.ld_unit_zero (S := S1024x128) run1_zeros,
    View.ld_unit_zero (S := S1x128) run1_zeros,
    View.ld_unit_zero (S := S128x128) run1_zeros,
    View.ld_unit_zero (S := S128x1024) run1_zeros,
    View.ld_unit_zero (S := S1x1024) run1_zeros,
    View.ld_unit_zero (S := S1024x4096) run1_zeros,
    View.ld_unit_zero (S := S1x4096) run1_zeros,
    View.ld_unit_zero (S := S4096x1024) run1_zeros]

/-- The body at any point: the ten input blocks stay, the output block ends at `out1` of them. -/
theorem run1 (c : Dev nD) (t : Fin cfg1.N)
    (x : Vec F S256x1024 .f32) (wq : Vec F S1024x128 .bf16) (bq : Vec F S1x128 .f32) (kv : Vec F S128x128 .bf16)
    (wo : Vec F S128x1024 .bf16) (bp : Vec F S1x1024 .f32) (w1 : Vec F S1024x4096 .bf16) (b1 : Vec F S1x4096 .f32)
    (w2 : Vec F S4096x1024 .bf16) (b2 : Vec F S1x1024 .f32) (K : PUnit → sProp 𝕄) :
    iprop(owns (c : Thread nD τ) (st1_0 t) fullShare x ∗ owns (c : Thread nD τ) (st1_1 t) fullShare wq ∗ owns (c : Thread nD τ) (st1_2 t) fullShare bq
        ∗ owns (c : Thread nD τ) (st1_3 t) fullShare kv ∗ owns (c : Thread nD τ) (st1_4 t) fullShare wo ∗ owns (c : Thread nD τ) (st1_5 t) fullShare bp
        ∗ owns (c : Thread nD τ) (st1_6 t) fullShare w1 ∗ owns (c : Thread nD τ) (st1_7 t) fullShare b1 ∗ owns (c : Thread nD τ) (st1_8 t) fullShare w2
        ∗ owns (c : Thread nD τ) (st1_9 t) fullShare b2 ∗ (∃ d, owns (c : Thread nD τ) (st1_10 t) fullShare d)
        ∗ (iprop(owns (c : Thread nD τ) (st1_0 t) fullShare x ∗ owns (c : Thread nD τ) (st1_1 t) fullShare wq ∗ owns (c : Thread nD τ) (st1_2 t) fullShare bq
            ∗ owns (c : Thread nD τ) (st1_3 t) fullShare kv ∗ owns (c : Thread nD τ) (st1_4 t) fullShare wo ∗ owns (c : Thread nD τ) (st1_5 t) fullShare bp
            ∗ owns (c : Thread nD τ) (st1_6 t) fullShare w1 ∗ owns (c : Thread nD τ) (st1_7 t) fullShare b1 ∗ owns (c : Thread nD τ) (st1_8 t) fullShare w2
            ∗ owns (c : Thread nD τ) (st1_9 t) fullShare b2
            ∗ owns (c : Thread nD τ) (st1_10 t) fullShare (out1 x wq bq kv wo bp w1 b1 w2 b2)) -∗ K ⟨⟩))
      ⊢ wp frame (wpE (defs₀ (F := F)) Variants.none c none) Set.univ (bodyAt1 (F := F) t) K := by
  exact run1_whole c Set.univ (grid1.coords t) (st1_0 t) _ (st1_1 t) _ (st1_2 t) _ (st1_3 t) _ (st1_4 t) _ (st1_5 t) _
    (st1_6 t) _ (st1_7 t) _ (st1_8 t) _ (st1_9 t) _ (st1_10 t) _ x wq bq kv wo bp w1 b1 w2 b2 K

end Cert.KernelIdeal.Hand

end
-- ==== Proof.KI.Data1.lean ====
/-
  The second launch's proof data: the ten input windows hold their blocks, the output window what the body
  stores from them; the body keeps nothing between points.
-/
import proofs.«180284_j56100862820442_1_alg».proof.Proof.Gen.KernelIdeal.Launch
import proofs.«180284_j56100862820442_1_alg».proof.Proof.Gen.KernelIdeal.Skeleton
import proofs.«180284_j56100862820442_1_alg».proof.Proof.Gen.KernelIdeal.Points
import proofs.«180284_j56100862820442_1_alg».proof.Proof.KI.Body1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array at the region's entry contents `V`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data of the second pipeline on core `c`, at the entry contents `V`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => out1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) :
    (dat1 V c).after 10 t = out1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) := by
  dsimp only [dat1]

/-! ## What the body finds in the input windows

None of the ten input windows is cut or ever idle, and the body leaves each one's block where it found it. So each one's
current staging buffer holds its block at every point: where the pipeline fetched it, the fetch put it there; where it did
not, the block index has not moved since the point before, whose block is therefore this point's. -/

/-- What a fetch of window 0 reads at a point is its block off the entry contents. -/
theorem blockOf1_0 (c : Dev nD) (s : Fin cfg1.N) : (dat1 V c).blockOf 0 s = iblk1 V c 0 s := by
  unfold Dat.blockOf iblk1; rw [A_eq1]

/-- Window 0's current staging buffer holds its block at every point, fetched there or not. -/
theorem before1_0 (c : Dev nD) (t : Fin cfg1.N) (d) : (dat1 V c).before 0 t d = iblk1 V c 0 t := by
  calc (dat1 V c).before 0 t d
      = (dat1 V c).fetched 0 t d :=
        (dat1 V c).before_in_eq_fetched 0 rfl (fun _ => rfl) (fun _ _ _ => rfl)
          (fun s => by rw [after1_0, blockOf1_0]) t d
    _ = (dat1 V c).blockOf 0 t := rfl
    _ = iblk1 V c 0 t := blockOf1_0 V c t

/-- What a fetch of window 1 reads at a point is its block off the entry contents. -/
theorem blockOf1_1 (c : Dev nD) (s : Fin cfg1.N) : (dat1 V c).blockOf 1 s = iblk1 V c 1 s := by
  unfold Dat.blockOf iblk1; rw [A_eq1]

/-- Window 1's current staging buffer holds its block at every point, fetched there or not. -/
theorem before1_1 (c : Dev nD) (t : Fin cfg1.N) (d) : (dat1 V c).before 1 t d = iblk1 V c 1 t := by
  calc (dat1 V c).before 1 t d
      = (dat1 V c).fetched 1 t d :=
        (dat1 V c).before_in_eq_fetched 1 rfl (fun _ => rfl) (fun _ _ _ => rfl)
          (fun s => by rw [after1_1, blockOf1_1]) t d
    _ = (dat1 V c).blockOf 1 t := rfl
    _ = iblk1 V c 1 t := blockOf1_1 V c t

/-- What a fetch of window 2 reads at a point is its block off the entry contents. -/
theorem blockOf1_2 (c : Dev nD) (s : Fin cfg1.N) : (dat1 V c).blockOf 2 s = iblk1 V c 2 s := by
  unfold Dat.blockOf iblk1; rw [A_eq1]

/-- Window 2's current staging buffer holds its block at every point, fetched there or not. -/
theorem before1_2 (c : Dev nD) (t : Fin cfg1.N) (d) : (dat1 V c).before 2 t d = iblk1 V c 2 t := by
  calc (dat1 V c).before 2 t d
      = (dat1 V c).fetched 2 t d :=
        (dat1 V c).before_in_eq_fetched 2 rfl (fun _ => rfl) (fun _ _ _ => rfl)
          (fun s => by rw [after1_2, blockOf1_2]) t d
    _ = (dat1 V c).blockOf 2 t := rfl
    _ = iblk1 V c 2 t := blockOf1_2 V c t

/-- What a fetch of window 3 reads at a point is its block off the entry contents. -/
theorem blockOf1_3 (c : Dev nD) (s : Fin cfg1.N) : (dat1 V c).blockOf 3 s = iblk1 V c 3 s := by
  unfold Dat.blockOf iblk1; rw [A_eq1]

/-- Window 3's current staging buffer holds its block at every point, fetched there or not. -/
theorem before1_3 (c : Dev nD) (t : Fin cfg1.N) (d) : (dat1 V c).before 3 t d = iblk1 V c 3 t := by
  calc (dat1 V c).before 3 t d
      = (dat1 V c).fetched 3 t d :=
        (dat1 V c).before_in_eq_fetched 3 rfl (fun _ => rfl) (fun _ _ _ => rfl)
          (fun s => by rw [after1_3, blockOf1_3]) t d
    _ = (dat1 V c).blockOf 3 t := rfl
    _ = iblk1 V c 3 t := blockOf1_3 V c t

/-- What a fetch of window 4 reads at a point is its block off the entry contents. -/
theorem blockOf1_4 (c : Dev nD) (s : Fin cfg1.N) : (dat1 V c).blockOf 4 s = iblk1 V c 4 s := by
  unfold Dat.blockOf iblk1; rw [A_eq1]

/-- Window 4's current staging buffer holds its block at every point, fetched there or not. -/
theorem before1_4 (c : Dev nD) (t : Fin cfg1.N) (d) : (dat1 V c).before 4 t d = iblk1 V c 4 t := by
  calc (dat1 V c).before 4 t d
      = (dat1 V c).fetched 4 t d :=
        (dat1 V c).before_in_eq_fetched 4 rfl (fun _ => rfl) (fun _ _ _ => rfl)
          (fun s => by rw [after1_4, blockOf1_4]) t d
    _ = (dat1 V c).blockOf 4 t := rfl
    _ = iblk1 V c 4 t := blockOf1_4 V c t

/-- What a fetch of window 5 reads at a point is its block off the entry contents. -/
theorem blockOf1_5 (c : Dev nD) (s : Fin cfg1.N) : (dat1 V c).blockOf 5 s = iblk1 V c 5 s := by
  unfold Dat.blockOf iblk1; rw [A_eq1]

/-- Window 5's current staging buffer holds its block at every point, fetched there or not. -/
theorem before1_5 (c : Dev nD) (t : Fin cfg1.N) (d) : (dat1 V c).before 5 t d = iblk1 V c 5 t := by
  calc (dat1 V c).before 5 t d
      = (dat1 V c).fetched 5 t d :=
        (dat1 V c).before_in_eq_fetched 5 rfl (fun _ => rfl) (fun _ _ _ => rfl)
          (fun s => by rw [after1_5, blockOf1_5]) t d
    _ = (dat1 V c).blockOf 5 t := rfl
    _ = iblk1 V c 5 t := blockOf1_5 V c t

/-- What a fetch of window 6 reads at a point is its block off the entry contents. -/
theorem blockOf1_6 (c : Dev nD) (s : Fin cfg1.N) : (dat1 V c).blockOf 6 s = iblk1 V c 6 s := by
  unfold Dat.blockOf iblk1; rw [A_eq1]

/-- Window 6's current staging buffer holds its block at every point, fetched there or not. -/
theorem before1_6 (c : Dev nD) (t : Fin cfg1.N) (d) : (dat1 V c).before 6 t d = iblk1 V c 6 t := by
  calc (dat1 V c).before 6 t d
      = (dat1 V c).fetched 6 t d :=
        (dat1 V c).before_in_eq_fetched 6 rfl (fun _ => rfl) (fun _ _ _ => rfl)
          (fun s => by rw [after1_6, blockOf1_6]) t d
    _ = (dat1 V c).blockOf 6 t := rfl
    _ = iblk1 V c 6 t := blockOf1_6 V c t

/-- What a fetch of window 7 reads at a point is its block off the entry contents. -/
theorem blockOf1_7 (c : Dev nD) (s : Fin cfg1.N) : (dat1 V c).blockOf 7 s = iblk1 V c 7 s := by
  unfold Dat.blockOf iblk1; rw [A_eq1]

/-- Window 7's current staging buffer holds its block at every point, fetched there or not. -/
theorem before1_7 (c : Dev nD) (t : Fin cfg1.N) (d) : (dat1 V c).before 7 t d = iblk1 V c 7 t := by
  calc (dat1 V c).before 7 t d
      = (dat1 V c).fetched 7 t d :=
        (dat1 V c).before_in_eq_fetched 7 rfl (fun _ => rfl) (fun _ _ _ => rfl)
          (fun s => by rw [after1_7, blockOf1_7]) t d
    _ = (dat1 V c).blockOf 7 t := rfl
    _ = iblk1 V c 7 t := blockOf1_7 V c t

/-- What a fetch of window 8 reads at a point is its block off the entry contents. -/
theorem blockOf1_8 (c : Dev nD) (s : Fin cfg1.N) : (dat1 V c).blockOf 8 s = iblk1 V c 8 s := by
  unfold Dat.blockOf iblk1; rw [A_eq1]

/-- Window 8's current staging buffer holds its block at every point, fetched there or not. -/
theorem before1_8 (c : Dev nD) (t : Fin cfg1.N) (d) : (dat1 V c).before 8 t d = iblk1 V c 8 t := by
  calc (dat1 V c).before 8 t d
      = (dat1 V c).fetched 8 t d :=
        (dat1 V c).before_in_eq_fetched 8 rfl (fun _ => rfl) (fun _ _ _ => rfl)
          (fun s => by rw [after1_8, blockOf1_8]) t d
    _ = (dat1 V c).blockOf 8 t := rfl
    _ = iblk1 V c 8 t := blockOf1_8 V c t

/-- What a fetch of window 9 reads at a point is its block off the entry contents. -/
theorem blockOf1_9 (c : Dev nD) (s : Fin cfg1.N) : (dat1 V c).blockOf 9 s = iblk1 V c 9 s := by
  unfold Dat.blockOf iblk1; rw [A_eq1]

/-- Window 9's current staging buffer holds its block at every point, fetched there or not. -/
theorem before1_9 (c : Dev nD) (t : Fin cfg1.N) (d) : (dat1 V c).before 9 t d = iblk1 V c 9 t := by
  calc (dat1 V c).before 9 t d
      = (dat1 V c).fetched 9 t d :=
        (dat1 V c).before_in_eq_fetched 9 rfl (fun _ => rfl) (fun _ _ _ => rfl)
          (fun s => by rw [after1_9, blockOf1_9]) t d
    _ = (dat1 V c).blockOf 9 t := rfl
    _ = iblk1 V c 9 t := blockOf1_9 V c t

/-! ## The invariant and the debts do not depend on the point -/

theorem Phi1_eq (c : Dev nD) (i : Fin (cfg1.N + 1)) : (dat1 V c).Φ i = Pipeline.ΦA spec1 c := by
  dsimp only [dat1]

theorem owesAt1_eq (c : Dev nD) (i j : Fin (cfg1.N + 1)) : (dat1 V c).owesAt () i = (dat1 V c).owesAt () j := rfl

/-! ## One point of the grid -/

/-- What the pipeline hands the body at point `t`: the invariant, the core's debts, and each window's current staging
    buffer at what it then holds. -/
def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d)))

/-- What the body hands back: the invariant and the debts of the next point, and each buffer at what the body leaves. -/
def post1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t))

/-- The body at point `t`. The ten inputs' buffers hold their blocks, the output's buffer holds something; the body's
    triple then leaves the inputs as they were and the output at `out1` of them, which is what the proof data says the
    body leaves. The invariant and the debts are not touched. -/
theorem point1 (c : Dev nD) (t : Fin cfg1.N) :
    pre1 V c t ⊢ wp frame (wpE (defs₀ (F := F)) Variants.none c none) Set.univ (bodyAt1 t) (fun _ => post1 V c t) := by
  unfold pre1 post1
  simp only [before1_0, before1_1, before1_2, before1_3, before1_4, before1_5, before1_6, before1_7, before1_8, before1_9]
  rw [after1_0, after1_1, after1_2, after1_3, after1_4, after1_5, after1_6, after1_7, after1_8, after1_9, after1_10,
    Phi1_eq V c t.succ, Phi1_eq V c t.castSucc, owesAt1_eq V c t.succ t.castSucc]
  iintro ⟨HI, HD, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (run1 c t (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HI]; · iexact HI
  isplitl [HD]; · iexact HD
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body obligation of the second pipeline, at every point. -/
theorem body_obligation1 (c : Dev nD) : BodyObligation (dat1 (F := F) V c) (defs₀ (F := F)) Variants.none () Set.univ := by
  intro t
  rw [bigSep_W1, bigSep_W1]
  exact point1 V c t

end

end Cert.KernelIdeal.Hand

end
-- ==== Proof.KI.Run.lean ====
/-
  The whole program's run: two stretches of host operations and the two launches, in @main's order.

  The contents of the core's unscoped buffers are followed from the launch to the return: after the first
  stretch of host operations (the weights transposed, the biases laid out as rows), after the first launch
  (its output array holds what the pipeline's write-backs make of it, everything else as before), after the
  second stretch (one change of format), after the second launch. Every weakly fair execution terminates
  with every unscoped buffer at the last of these contents; the thirteen arguments are written by no host
  operation and by no launch, so they end as they began, and the result array holds the second launch's output.
-/
import proofs.«180284_j56100862820442_1_alg».proof.Proof.Gen.KernelIdeal.Launch
import proofs.«180284_j56100862820442_1_alg».proof.Proof.Gen.KernelIdeal.Skeleton
import proofs.«180284_j56100862820442_1_alg».proof.Proof.Gen.KernelIdeal.Points
import proofs.«180284_j56100862820442_1_alg».proof.Proof.KI.Data0
import proofs.«180284_j56100862820442_1_alg».proof.Proof.KI.Data1
import proofs.«180284_j56100862820442_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the five boundaries -/

/-- At launch. -/
abbrev B0 : Dev nD → Valuation τ sig (Elt F) := fun c b => m (c, b)
/-- After the first stretch of host operations: the first launch's entry. -/
abbrev B1 : Dev nD → Valuation τ sig (Elt F) := fun c => StableHlo.after hostOps0 (B0 m c)
abbrev E1 : (c : Dev nD) → (b : Ref sig .tc) → Buf (Elt F) ((c : Thread nD τ).loc b) := fun c b => B1 m c b
/-- After the first launch: its arrays at what the write-backs leave, every other buffer as entered. -/
def B2 (c : Dev nD) : Valuation τ sig (Elt F) :=
  Pipeline.withArrays spec0 c (B1 m c) fun w => (dat0 (E1 m) c).arrAt w cfg0.N
abbrev E2 : (c : Dev nD) → (b : Ref sig .tc) → Buf (Elt F) ((c : Thread nD τ).loc b) := fun c b => B2 m c b
/-- After the second stretch: the second launch's entry. -/
abbrev B3 : Dev nD → Valuation τ sig (Elt F) := fun c => StableHlo.after hostOps1 (B2 m c)
abbrev E3 : (c : Dev nD) → (b : Ref sig .tc) → Buf (Elt F) ((c : Thread nD τ).loc b) := fun c b => B3 m c b
/-- After the second launch. -/
def B4 (c : Dev nD) : Valuation τ sig (Elt F) :=
  Pipeline.withArrays spec1 c (B3 m c) fun w => (dat1 (E3 m) c).arrAt w cfg1.N
abbrev E4 : (c : Dev nD) → (b : Ref sig .tc) → Buf (Elt F) ((c : Thread nD τ).loc b) := fun c b => B4 m c b

theorem B2_arr (c : Dev nD) (w : Fin cfg0.W) :
    B2 m c (Proc.devRef .tc (Pipeline.arrRef spec0 w)) = (dat0 (E1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
theorem B4_arr (c : Dev nD) (w : Fin cfg1.W) :
    B4 m c (Proc.devRef .tc (Pipeline.arrRef spec1 w)) = (dat1 (E3 m) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m c (Proc.devRef .tc b) = B3 m c (Proc.devRef .tc b) := by
  unfold B4; exact Pipeline.withArrays_of_ne spec1 c _ _ b hb

theorem hF0 (c : Dev nD) (w : Fin cfg0.W) : (dat0 (E1 m) c).arrAt w cfg0.N = E2 m c (Pipeline.arrRef spec0 w) := (B2_arr m c w).symm
theorem hrest0 (c : Dev nD) : ∀ b, b ∉ Finset.univ.image (Pipeline.arrRef spec0) → E2 m c b = E1 m c b :=
  fun b hb => B2_of_ne m c b fun w e => hb (Finset.mem_image.mpr ⟨w, Finset.mem_univ _, e⟩)
theorem hF1 (c : Dev nD) (w : Fin cfg1.W) : (dat1 (E3 m) c).arrAt w cfg1.N = E4 m c (Pipeline.arrRef spec1 w) := (B4_arr m c w).symm
theorem hrest1 (c : Dev nD) : ∀ b, b ∉ Finset.univ.image (Pipeline.arrRef spec1) → E4 m c b = E3 m c b :=
  fun b hb => B4_of_ne m c b fun w e => hb (Finset.mem_image.mpr ⟨w, Finset.mem_univ _, e⟩)

/-! ## The arguments end as launched -/

/-- A buffer that no host operation writes and that is no window's array of either launch keeps its launch contents. -/
theorem B4_keep (c : Dev nD) (b : Ref sig .tc) (h0 : b ∉ (hostOps0_W : List (Ref sig .tc))) (h1 : b ∉ (hostOps1_W : List (Ref sig .tc)))
    (hs0 : ∀ w, Pipeline.arrRef spec0 w ≠ b) (hs1 : ∀ w, Pipeline.arrRef spec1 w ≠ b) :
    B4 m c (Proc.devRef .tc b) = m ((c : Thread nD τ).loc b) :=
  (B4_of_ne m c b hs1).trans <| (StableHlo.after_of_writes_sub hostOps1 _ hostOps1_writes h1).trans <|
    (B2_of_ne m c b hs0).trans <| (StableHlo.after_of_writes_sub hostOps0 _ hostOps0_writes h0).trans rfl

/-- The first argument is an input window's array of both launches: neither writes it. -/
theorem B4_main_arg0 (c : Dev nD) : B4 m c (Proc.devRef .tc main_arg0) = m ((c : Thread nD τ).loc main_arg0) :=
  calc B4 m c (Proc.devRef .tc main_arg0)
    _ = B3 m c (Proc.devRef .tc main_arg0) := (B4_arr m c 0).trans (((dat1 (E3 m) c).arrAt_in 0 rfl _).trans (A_eq1 (E3 m) c 0))
    _ = B2 m c (Proc.devRef .tc main_arg0) := StableHlo.after_of_writes_sub hostOps1 _ hostOps1_writes (by decide)
    _ = B1 m c (Proc.devRef .tc main_arg0) := (B2_arr m c 0).trans (((dat0 (E1 m) c).arrAt_in 0 rfl _).trans (A_eq0 (E1 m) c 0))
    _ = B0 m c (Proc.devRef .tc main_arg0) := StableHlo.after_of_writes_sub hostOps0 _ hostOps0_writes (by decide)
    _ = m ((c : Thread nD τ).loc main_arg0) := rfl

/-! ## The proof data family and the thread state -/

/-- Both pipelines' proof data, each at its launch's entry contents. -/
def pdats : (p : Fin 2) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E3 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (B4 m c) ∗ ∃ r, prngReg c r)

/-! ## The two launches as segments -/

set_option backward.isDefEq.respectTransparency.types false in
/-- The first launch: entered from every unscoped buffer at `B1`, left at `B2`. Its arrays are split out of the unscoped
    buffers and put back at the exit contents; the generator register goes into the invariant and comes out; the body's own
    buffer is named inside the invariant only between the first point and the last. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (B1 m c) ∗ R c)
  post c := iprop(StableHlo.held (c : Thread nD τ) (Pipeline.ucRefs τ sig) (B2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : iprop((∃ r, prngReg c r) ∗ Pipeline.prefHeld (pcfgs (F := F) 0).pre c (fun _ => fullShare) (adm (F := F) 0).1
          ∗ Pipeline.scopedRest (Pipeline.pin (pcfgs (F := F)) adm 0).spec c) ⊢ (Pipeline.ΦA spec0 c : sProp 𝕄) := by
      unfold Pipeline.ΦA
      iintro ⟨Hp, -, Hr⟩
      isplitl [Hr]; · iexact Hr
      iexact Hp
    exact h1.trans (hin0 (E1 m) c)
  hout c := by
    rw [Pipeline.ownSems0_none]
    have h1 : (Pipeline.ΦA spec0 c : sProp 𝕄) ⊢ iprop((∃ r, prngReg c r) ∗ BI.emp
          ∗ Pipeline.scopedRest (Pipeline.pin (pcfgs (F := F)) adm 0).spec c) := by
      unfold Pipeline.ΦA
      iintro ⟨Hr, Hp⟩
      isplitl [Hp]; · iexact Hp
      isplitr; · iempintro
      iexact Hr
    exact (hout0 (E1 m) c).trans h1
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second launch: entered from every unscoped buffer at `B3`, left at `B4`; it keeps nothing between points. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (B3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (E4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (B0 m)),
    .region (reg0 m),
    .host (hseg hostOps1 hostOps1_sub hostOps1_fresh (B2 m)),
    .region (reg1 m) ]

theorem main_run (c : Dev nD) : main (F := F) c = Pipeline.Seg.run (segs m) := (main_chain c).trans (by chain_rfl)

set_option backward.isDefEq.respectTransparency.types false in
/-- Every weakly fair execution of @main from memory `m` with zero counters terminates, and every final memory holds each
    unscoped buffer of each core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m c b)
    (hfin := fun c s' => by
      iintro ⟨⟨Hh, -⟩, HSI⟩
      unfold StableHlo.held
      imodintro
      iapply (pointsTo_read_all (Pipeline.ucRefs τ sig) (fun b => (((c : Thread nD τ)).1, b)) (B4 m c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_arg0 (by decide))).trans (B4_main_arg0 m c),
     (h c _ (mem_uc main_arg1 (by decide))).trans (B4_keep m c main_arg1 (by decide) (by decide) (by decide) (by decide)),
     (h c _ (mem_uc main_arg2 (by decide))).trans (B4_keep m c main_arg2 (by decide) (by decide) (by decide) (by decide)),
     (h c _ (mem_uc main_arg3 (by decide))).trans (B4_keep m c main_arg3 (by decide) (by decide) (by decide) (by decide)),
     (h c _ (mem_uc main_arg4 (by decide))).trans (B4_keep m c main_arg4 (by decide) (by decide) (by decide) (by decide)),
     (h c _ (mem_uc main_arg5 (by decide))).trans (B4_keep m c main_arg5 (by decide) (by decide) (by decide) (by decide)),
     (h c _ (mem_uc main_arg6 (by decide))).trans (B4_keep m c main_arg6 (by decide) (by decide) (by decide) (by decide)),
     (h c _ (mem_uc main_arg7 (by decide))).trans (B4_keep m c main_arg7 (by decide) (by decide) (by decide) (by decide)),
     (h c _ (mem_uc main_arg8 (by decide))).trans (B4_keep m c main_arg8 (by decide) (by decide) (by decide) (by decide)),
     (h c _ (mem_uc main_arg9 (by decide))).trans (B4_keep m c main_arg9 (by decide) (by decide) (by decide) (by decide)),
     (h c _ (mem_uc main_arg10 (by decide))).trans (B4_keep m c main_arg10 (by decide) (by decide) (by decide) (by decide)),
     (h c _ (mem_uc main_arg11 (by decide))).trans (B4_keep m c main_arg11 (by decide) (by decide) (by decide) (by decide)),
     (h c _ (mem_uc main_arg12 (by decide))).trans (B4_keep m c main_arg12 (by decide) (by decide) (by decide) (by decide))⟩)
    (run_all m ρ)

/-- The run with the result named: the result array ends at what the second launch's write-backs make of it, and every
    argument array as launched. -/
theorem run_value : θ_run defs (onTc (τ := τ) (main (F := F))) ⟨m, fun _ => 0, ρ⟩ (fun r => ∀ c : Dev nD,
      r.2.mem ((c.tc : Thread nD τ).loc main_v20) = (dat1 (E3 m) c).arrAt 10 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
    ⟨(h c _ (mem_uc main_v20 (by decide))).trans (B4_arr m c 10),
     (h c _ (mem_uc main_arg0 (by decide))).trans (B4_main_arg0 m c),
     (h c _ (mem_uc main_arg1 (by decide))).trans (B4_keep m c main_arg1 (by decide) (by decide) (by decide) (by decide)),
     (h c _ (mem_uc main_arg2 (by decide))).trans (B4_keep m c main_arg2 (by decide) (by decide) (by decide) (by decide)),
     (h c _ (mem_uc main_arg3 (by decide))).trans (B4_keep m c main_arg3 (by decide) (by decide) (by decide) (by decide)),
     (h c _ (mem_uc main_arg4 (by decide))).trans (B4_keep m c main_arg4 (by decide) (by decide) (by decide) (by decide)),
     (h c _ (mem_uc main_arg5 (by decide))).trans (B4_keep m c main_arg5 (by decide) (by decide) (by decide) (by decide)),
     (h c _ (mem_uc main_arg6 (by decide))).trans (B4_keep m c main_arg6 (by decide) (by decide) (by decide) (by decide)),
     (h c _ (mem_uc main_arg7 (by decide))).trans (B4_keep m c main_arg7 (by decide) (by decide) (by decide) (by decide)),
     (h c _ (mem_uc main_arg8 (by decide))).trans (B4_keep m c main_arg8 (by decide) (by decide) (by decide) (by decide)),
     (h c _ (mem_uc main_arg9 (by decide))).trans (B4_keep m c main_arg9 (by decide) (by decide) (by decide) (by decide)),
     (h c _ (mem_uc main_arg10 (by decide))).trans (B4_keep m c main_arg10 (by decide) (by decide) (by decide) (by decide)),
     (h c _ (mem_uc main_arg11 (by decide))).trans (B4_keep m c main_arg11 (by decide) (by decide) (by decide) (by decide)),
     (h c _ (mem_uc main_arg12 (by decide))).trans (B4_keep m c main_arg12 (by decide) (by decide) (by decide) (by decide))⟩)
    (run_all m ρ)

end Cert.KernelIdeal.Hand

end
-- ==== Proof.Spec.lean ====
/-
  The two programs' results as functions of the thirteen argument arrays, over the extended reals.

  Notation: x is the 8192 × 1024 input; Q, K, V are its three projections to 128 columns (a product with
  the transposed weight plus a bias row). The reference forms the 8192 × 8192 table A = Q Kᵀ and then the
  context A V. The kernel forms the 128 × 128 table KᵀV first, adding up eight slabs of 1024 rows one after
  the other from zero, and then the context Q (KᵀV). Both go on alike: the output projection plus its bias,
  the first residual, a projection to 4096 columns plus bias cut off below at zero, the projection back plus
  bias, the second residual (the two programs bracket the last two additions differently).
  The two contexts agree when every entry is a real number: (Q Kᵀ) V = Q (Kᵀ V) is a change of the order
  of two finite sums together with distributivity, which holds for reals.
-/
import Idealize.ShloMosaic.PureOps.Ideal
import Idealize.ShloMosaic.Lib.ValueIdx
import Mathlib.Data.EReal.Basic
import Mathlib.Algebra.BigOperators.Fin
import Mathlib.Logic.Equiv.Fin.Basic
import Mathlib.Tactic.Choose

noncomputable section

namespace Cert.Spec

open Idealize.ShloMosaic Idealize.ShloMosaic.ValueIdx

/-- An n × k table of extended reals. -/
abbrev Tab (n k : Nat) : Type := (⟨2, ![n, k]⟩ : Shape).Idx → EReal
/-- A vector of n extended reals. -/
abbrev Row (n : Nat) : Type := (⟨1, ![n]⟩ : Shape).Idx → EReal

/-! ## The kernel's side, over the arrays its two launches are handed

The weights arrive transposed (`wT (k, d) = W (d, k)`), the biases as one-row tables. -/

/-- x · wT + b at row i, column d: the projection of row i of x. -/
def projT {n k d : Nat} (x : Tab n k) (wT : Tab k d) (b : Tab 1 d) (i : Fin n) (j : Fin d) : EReal :=
  (∑ l : Fin k, x (ix2 i l) * wT (ix2 l j)) + b (ix2 (0 : Fin 1) j)

/-- Row r of slab n of the 8192 rows (slabs of 1024 rows; total in n). -/
def slabRow (n : Nat) (r : Fin 1024) : Fin 8192 := ⟨(1024 * n + r.val) % 8192, Nat.mod_lt _ (by norm_num)⟩

/-- Slab n's share of KᵀV at (d, e): the sum over the slab's rows of K (row, d) · V (row, e). -/
def slabKV (x : Tab 8192 1024) (wkT : Tab 1024 128) (bk : Tab 1 128) (wvT : Tab 1024 128) (bv : Tab 1 128)
    (n : Nat) (d e : Fin 128) : EReal :=
  ∑ r : Fin 1024, projT x wkT bk (slabRow n r) d * projT x wvT bv (slabRow n r) e

/-- The running table after slab n: zero plus slab 0, plus slab 1, …, in this order. -/
def accKV (x : Tab 8192 1024) (wkT : Tab 1024 128) (bk : Tab 1 128) (wvT : Tab 1024 128) (bv : Tab 1 128) :
    Nat → Fin 128 → Fin 128 → EReal
  | 0 => fun d e => 0 + slabKV x wkT bk wvT bv 0 d e
  | n + 1 => fun d e => accKV x wkT bk wvT bv n d e + slabKV x wkT bk wvT bv (n + 1) d e

/-- The first launch's result: the table after the eighth slab, as a 128 × 128 array. -/
def KVk (x : Tab 8192 1024) (wkT : Tab 1024 128) (bk : Tab 1 128) (wvT : Tab 1024 128) (bv : Tab 1 128) : Tab 128 128 :=
  fun j => accKV x wkT bk wvT bv 7 (j 0) (j 1)

/-- The first residual of the kernel at (i, n): x + (Q · kv) · wpT + bp. -/
def x1k (x : Tab 8192 1024) (wqT : Tab 1024 128) (bq : Tab 1 128) (kv : Tab 128 128) (wpT : Tab 128 1024) (bp : Tab 1 1024)
    (i : Fin 8192) (n : Fin 1024) : EReal :=
  x (ix2 i n) + ((∑ e : Fin 128, (∑ d : Fin 128, projT x wqT bq i d * kv (ix2 d e)) * wpT (ix2 e n)) + bp (ix2 (0 : Fin 1) n))

/-- The second launch's result at (i, n). -/
def Yk (x : Tab 8192 1024) (wqT : Tab 1024 128) (bq : Tab 1 128) (kv : Tab 128 128) (wpT : Tab 128 1024) (bp : Tab 1 1024)
    (w1T : Tab 1024 4096) (b1 : Tab 1 4096) (w2T : Tab 4096 1024) (b2 : Tab 1 1024) : Tab 8192 1024 :=
  fun j =>
    (x1k x wqT bq kv wpT bp (j 0) (j 1)
      + ∑ f : Fin 4096, max ((∑ l : Fin 1024, x1k x wqT bq kv wpT bp (j 0) l * w1T (ix2 l f)) + b1 (ix2 (0 : Fin 1) f)) 0 * w2T (ix2 f (j 1)))
    + b2 (ix2 (0 : Fin 1) (j 1))

/-! ## The reference's side, over the argument arrays as given -/

/-- x · Wᵀ + b at row i, column d. -/
def proj {n k d : Nat} (x : Tab n k) (W : Tab d k) (b : Row d) (i : Fin n) (j : Fin d) : EReal :=
  (∑ l : Fin k, x (ix2 i l) * W (ix2 j l)) + b (ix1 j)

/-- The first residual of the reference at (i, n): x + ((Q Kᵀ) V) · Wpᵀ + bp. -/
def x1r (x : Tab 8192 1024) (Wq : Tab 128 1024) (bq : Row 128) (Wk : Tab 128 1024) (bk : Row 128) (Wv : Tab 128 1024) (bv : Row 128)
    (Wp : Tab 1024 128) (bp : Row 1024) (i : Fin 8192) (n : Fin 1024) : EReal :=
  x (ix2 i n) + ((∑ e : Fin 128, (∑ j : Fin 8192, (∑ d : Fin 128, proj x Wq bq i d * proj x Wk bk j d) * proj x Wv bv j e) * Wp (ix2 n e))
    + bp (ix1 n))

/-- The reference's result at (i, n). -/
def Gr (x : Tab 8192 1024) (Wq : Tab 128 1024) (bq : Row 128) (Wk : Tab 128 1024) (bk : Row 128) (Wv : Tab 128 1024) (bv : Row 128)
    (Wp : Tab 1024 128) (bp : Row 1024) (W1 : Tab 4096 1024) (b1 : Row 4096) (W2 : Tab 1024 4096) (b2 : Row 1024) : Tab 8192 1024 :=
  fun j =>
    x1r x Wq bq Wk bk Wv bv Wp bp (j 0) (j 1)
      + ((∑ f : Fin 4096, max ((∑ l : Fin 1024, x1r x Wq bq Wk bk Wv bv Wp bp (j 0) l * W1 (ix2 f l)) + b1 (ix1 f)) 0 * W2 (ix2 (j 1) f))
        + b2 (ix1 (j 1)))

/-! ## The bridge -/

/-- A table transposed. -/
def tr {n k : Nat} (W : Tab n k) : Tab k n := fun j => W (ix2 (j 1) (j 0))
/-- A vector as a one-row table. -/
def asRow {n : Nat} (b : Row n) : Tab 1 n := fun j => b (ix1 (j 1))

/-- Every entry is a real number. -/
def AllReal {S : Shape} (v : S.Idx → EReal) : Prop := ∀ i, ∃ r : ℝ, v i = (r : EReal)

/-- The kernel's result, from the argument arrays as given. -/
def Gk (x : Tab 8192 1024) (Wq : Tab 128 1024) (bq : Row 128) (Wk : Tab 128 1024) (bk : Row 128) (Wv : Tab 128 1024) (bv : Row 128)
    (Wp : Tab 1024 128) (bp : Row 1024) (W1 : Tab 4096 1024) (b1 : Row 4096) (W2 : Tab 1024 4096) (b2 : Row 1024) : Tab 8192 1024 :=
  Yk x (tr Wq) (asRow bq) (KVk x (tr Wk) (asRow bk) (tr Wv) (asRow bv)) (tr Wp) (asRow bp) (tr W1) (asRow b1) (tr W2) (asRow b2)

/-! ## The proof -/

/-- The inclusion of the reals commutes with finite sums. -/
private theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- (Q Kᵀ) V = Q (Kᵀ V) on one row of Q and one column of V, all entries real. -/
private theorem assoc_real {ι κ : Type*} [Fintype ι] [Fintype κ] (Q : ι → ℝ) (K : κ → ι → ℝ) (V : κ → ℝ) :
    ∑ j, (∑ d, (Q d : EReal) * (K j d : EReal)) * (V j : EReal)
      = ∑ d, (Q d : EReal) * ∑ j, (K j d : EReal) * (V j : EReal) := by
  simp only [← EReal.coe_mul, ← coe_sum]
  congr 1
  simp only [Finset.sum_mul, Finset.mul_sum]
  rw [Finset.sum_comm]
  simp only [mul_assoc]

/-- A transposed table at (a, b) is the table at (b, a). -/
private theorem tr_apply {n k : Nat} (W : Tab n k) (a : Fin k) (b : Fin n) : tr W (ix2 a b) = W (ix2 b a) := rfl
/-- A vector as a one-row table at (0, j) is the vector at j. -/
private theorem asRow_apply {n : Nat} (b : Row n) (j : Fin n) : asRow b (ix2 (0 : Fin 1) j) = b (ix1 j) := rfl

/-- The kernel's projection of the transposed weight is the reference's projection. -/
private theorem projT_tr {n k d : Nat} (x : Tab n k) (W : Tab d k) (b : Row d) (i : Fin n) (j : Fin d) :
    projT x (tr W) (asRow b) i j = proj x W b i j := by
  unfold projT proj
  simp only [tr_apply, asRow_apply]

/-- A projection of real tables is real. -/
private theorem proj_real {n k d : Nat} (x : Tab n k) (W : Tab d k) (b : Row d)
    (hx : AllReal x) (hW : AllReal W) (hb : AllReal b) (i : Fin n) (j : Fin d) :
    ∃ r : ℝ, proj x W b i j = (r : EReal) := by
  refine ⟨(∑ l : Fin k, (x (ix2 i l)).toReal * (W (ix2 j l)).toReal) + (b (ix1 j)).toReal, ?_⟩
  rw [EReal.coe_add, coe_sum]
  unfold proj
  congr 1
  · refine Finset.sum_congr rfl fun l _ => ?_
    obtain ⟨r, hr⟩ := hx (ix2 i l)
    obtain ⟨s, hs⟩ := hW (ix2 j l)
    rw [hr, hs, EReal.toReal_coe, EReal.toReal_coe, EReal.coe_mul]
  · obtain ⟨r, hr⟩ := hb (ix1 j)
    rw [hr, EReal.toReal_coe]

/-- The running table after slab n is the sum of the slabs 0, …, n. -/
private theorem accKV_range (x : Tab 8192 1024) (wkT : Tab 1024 128) (bk : Tab 1 128) (wvT : Tab 1024 128) (bv : Tab 1 128)
    (n : Nat) (d e : Fin 128) :
    accKV x wkT bk wvT bv n d e = ∑ m ∈ Finset.range (n + 1), slabKV x wkT bk wvT bv m d e := by
  induction n with
  | zero =>
    show 0 + slabKV x wkT bk wvT bv 0 d e = _
    rw [zero_add, Finset.sum_range_one]
  | succ n ih =>
    show accKV x wkT bk wvT bv n d e + slabKV x wkT bk wvT bv (n + 1) d e = _
    rw [ih, Finset.sum_range_succ _ (n + 1)]

/-- The eight slabs of 1024 rows are all 8192 rows, each once. -/
private theorem sum_slabs {M : Type*} [AddCommMonoid M] (f : Fin 8192 → M) :
    ∑ m ∈ Finset.range 8, ∑ r : Fin 1024, f (slabRow m r) = ∑ j : Fin 8192, f j := by
  rw [← Fin.sum_univ_eq_sum_range (fun m => ∑ r : Fin 1024, f (slabRow m r)) 8, ← Fintype.sum_prod_type']
  refine Fintype.sum_equiv
    ((finProdFinEquiv (m := 8) (n := 1024)).trans (finCongr (by norm_num : 8 * 1024 = 8192))) _ _ fun p => ?_
  congr 1
  apply Fin.ext
  have h1 := p.1.isLt
  have h2 := p.2.isLt
  simp only [slabRow, Equiv.trans_apply, finCongr_apply, Fin.coe_cast, finProdFinEquiv_apply_val]
  omega

/-- The kernel's context Q (KᵀV) is the reference's (Q Kᵀ) V at row i, column e. -/
private theorem ctx_eq (x : Tab 8192 1024) (Wq : Tab 128 1024) (bq : Row 128) (Wk : Tab 128 1024) (bk : Row 128)
    (Wv : Tab 128 1024) (bv : Row 128)
    (hx : AllReal x) (hWq : AllReal Wq) (hbq : AllReal bq) (hWk : AllReal Wk) (hbk : AllReal bk)
    (hWv : AllReal Wv) (hbv : AllReal bv) (i : Fin 8192) (e : Fin 128) :
    ∑ d : Fin 128, projT x (tr Wq) (asRow bq) i d * KVk x (tr Wk) (asRow bk) (tr Wv) (asRow bv) (ix2 d e)
      = ∑ j : Fin 8192, (∑ d : Fin 128, proj x Wq bq i d * proj x Wk bk j d) * proj x Wv bv j e := by
  have hKV : ∀ d : Fin 128, KVk x (tr Wk) (asRow bk) (tr Wv) (asRow bv) (ix2 d e)
      = ∑ j : Fin 8192, proj x Wk bk j d * proj x Wv bv j e := by
    intro d
    show accKV x (tr Wk) (asRow bk) (tr Wv) (asRow bv) 7 d e = _
    rw [accKV_range]
    simp only [slabKV, projT_tr]
    exact sum_slabs fun j => proj x Wk bk j d * proj x Wv bv j e
  choose Qr hQ using fun d => proj_real x Wq bq hx hWq hbq i d
  choose Kr hK using fun j d => proj_real x Wk bk hx hWk hbk j d
  choose Vr hV using fun j => proj_real x Wv bv hx hWv hbv j e
  simp only [projT_tr, hKV, hQ, hK, hV]
  exact (assoc_real Qr Kr Vr).symm

/-- The two first residuals agree. -/
private theorem x1k_eq_x1r (x : Tab 8192 1024) (Wq : Tab 128 1024) (bq : Row 128) (Wk : Tab 128 1024) (bk : Row 128)
    (Wv : Tab 128 1024) (bv : Row 128) (Wp : Tab 1024 128) (bp : Row 1024)
    (hx : AllReal x) (hWq : AllReal Wq) (hbq : AllReal bq) (hWk : AllReal Wk) (hbk : AllReal bk)
    (hWv : AllReal Wv) (hbv : AllReal bv) (i : Fin 8192) (n : Fin 1024) :
    x1k x (tr Wq) (asRow bq) (KVk x (tr Wk) (asRow bk) (tr Wv) (asRow bv)) (tr Wp) (asRow bp) i n
      = x1r x Wq bq Wk bk Wv bv Wp bp i n := by
  unfold x1k x1r
  simp only [ctx_eq x Wq bq Wk bk Wv bv hx hWq hbq hWk hbk hWv hbv i, tr_apply, asRow_apply]

/-- On real arguments the two programs compute the same table. -/
theorem Gk_eq_Gr (x : Tab 8192 1024) (Wq : Tab 128 1024) (bq : Row 128) (Wk : Tab 128 1024) (bk : Row 128) (Wv : Tab 128 1024) (bv : Row 128)
    (Wp : Tab 1024 128) (bp : Row 1024) (W1 : Tab 4096 1024) (b1 : Row 4096) (W2 : Tab 1024 4096) (b2 : Row 1024)
    (hx : AllReal x) (hWq : AllReal Wq) (hbq : AllReal bq) (hWk : AllReal Wk) (hbk : AllReal bk) (hWv : AllReal Wv) (hbv : AllReal bv)
    (hWp : AllReal Wp) (hbp : AllReal bp) (hW1 : AllReal W1) (hb1 : AllReal b1) (hW2 : AllReal W2) (hb2 : AllReal b2) :
    Gk x Wq bq Wk bk Wv bv Wp bp W1 b1 W2 b2 = Gr x Wq bq Wk bk Wv bv Wp bp W1 b1 W2 b2 := by
  funext j
  obtain ⟨a, b, rfl⟩ : ∃ (a : Fin 8192) (b : Fin 1024), j = ix2 a b := ⟨j 0, j 1, eq_ix2 j⟩
  have h1 : ∀ (i : Fin 8192) (n : Fin 1024),
      x1k x (tr Wq) (asRow bq) (KVk x (tr Wk) (asRow bk) (tr Wv) (asRow bv)) (tr Wp) (asRow bp) i n
        = x1r x Wq bq Wk bk Wv bv Wp bp i n :=
    fun i n => x1k_eq_x1r x Wq bq Wk bk Wv bv Wp bp hx hWq hbq hWk hbk hWv hbv i n
  unfold Gk Yk Gr
  simp only [h1, tr_apply, asRow_apply]
  rw [add_assoc]

end Cert.Spec

end
-- ==== Proof.LibPlainDot.lean ====
/-
  A matrix product read at an entry.

  For the dimension numbers of the plain product of an M × K matrix with a K × N matrix (contract the left
  operand's second axis against the right operand's first, no batch axis) the sum over the product's contraction
  index is the familiar sum over `k : Fin K` of `l (a, k) · r (k, b)`. Stated for ANY record with those dimension
  numbers, so one lemma serves every such product of a program whatever the three extents; the forms for a
  `tpu.matmul` into a zero accumulator and for the host's `dot_general` at the ideal values follow.
-/
import Idealize.ShloMosaic.PureOps.Ideal.Laws
import Idealize.ShloMosaic.Lib.ValueIdx

noncomputable section

namespace Cert.LibPlainDot

open Idealize.ShloMosaic Idealize.ShloMosaic.ValueIdx

variable {M K N : Nat}

/-- The plain product's sum over its contraction index is the sum over `k : Fin K` of `l (a, k) * r (k, b)`. -/
theorem dot_sum (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (l : (⟨2, ![M, K]⟩ : Shape).Idx → EReal) (r : (⟨2, ![K, N]⟩ : Shape).Idx → EReal) (a : Fin M) (b : Fin N) :
    ∑ k : d.contr.Idx, l (d.lhsIdx (ix2 a b) k) * r (d.rhsIdx (ix2 a b) k) = ∑ k : Fin K, l (ix2 a k) * r (ix2 k b) := by
  obtain ⟨lc, rc, ln, rn, lb, rb, wf⟩ := d
  dsimp only at hlc hrc hln hrn hlb hrb
  subst hlc hrc hln hrn hlb hrb
  generalize hd : (⟨[1], [0], [0], [1], [], [], wf⟩ : DotDims ⟨2, ![M, K]⟩ ⟨2, ![K, N]⟩ ⟨2, ![M, N]⟩) = d
  have hlc : d.lhsContracting = [1] := by rw [← hd]
  have hrc : d.rhsContracting = [0] := by rw [← hd]
  have hr : d.contr.rank = 1 := by rw [← hd]; rfl
  have hs : d.contr.size ⟨0, by omega⟩ = K := by subst hd; rfl
  have l0 : ∀ q : d.contr.Idx, (d.lhsIdx (ix2 a b) q 0).val = a.val := by
    subst hd; intro q
    unfold DotDims.lhsIdx
    rw [dif_neg (show ¬ (0 : Fin 2) ∈ ([] : List (Fin 2)) from List.not_mem_nil),
      dif_pos (show (0 : Fin 2) ∈ ([0] : List (Fin 2)) from List.mem_singleton.mpr rfl)]
    rfl
  have r1 : ∀ q : d.contr.Idx, (d.rhsIdx (ix2 a b) q 1).val = b.val := by
    subst hd; intro q
    unfold DotDims.rhsIdx
    rw [dif_neg (show ¬ (1 : Fin 2) ∈ ([] : List (Fin 2)) from List.not_mem_nil),
      dif_pos (show (1 : Fin 2) ∈ ([1] : List (Fin 2)) from List.mem_singleton.mpr rfl)]
    rfl
  rw [← Equiv.sum_comp (contrEquiv1 d K hr hs).symm]
  refine Finset.sum_congr rfl fun k _ => ?_
  have hk := contrEquiv1_symm_val d K hr hs k
  have el : d.lhsIdx (ix2 a b) ((contrEquiv1 d K hr hs).symm k) = ix2 a k := funext fun ax => Fin.ext (by
    match ax with
    | ⟨0, _⟩ => exact l0 _
    | ⟨1, _⟩ => exact (d.lhsIdx_val_of_single hlc _ _).trans hk)
  have er : d.rhsIdx (ix2 a b) ((contrEquiv1 d K hr hs).symm k) = ix2 k b := funext fun ax => Fin.ext (by
    match ax with
    | ⟨0, _⟩ => exact (d.rhsIdx_val_of_single hrc _ _).trans hk
    | ⟨1, _⟩ => exact r1 _)
  rw [el, er]

/-- A `tpu.matmul` of the plain dimension numbers into the zero accumulator, at the ideal values, at entry (a, b). -/
theorem matmul_zero_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 a k) * r (ix2 k b) :=
  (Ideal.matmul_constant_zero_apply d prec l r (ix2 a b)).trans (dot_sum d hlc hrc hln hrn hlb hrb l r a b)

/-- The host's `dot_general` of the plain dimension numbers, at the ideal values, at entry (a, b). -/
theorem dotGeneral_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (sched : HostSchedule)
    (l : FVec Ideal ⟨2, ![M, K]⟩ φ₁) (r : FVec Ideal ⟨2, ![K, N]⟩ φ₂) (a : Fin M) (b : Fin N) :
    FloatOps.dotGeneral d prec sched l r (ix2 a b) = ∑ k : Fin K, l (ix2 a k) * r (ix2 k b) :=
  (Ideal.dotGeneral_apply d prec sched l r (ix2 a b)).trans (dot_sum d hlc hrc hln hrn hlb hrb l r a b)

end Cert.LibPlainDot

end
-- ==== Proof.LibTransposedDot.lean ====
/-
  A matrix product whose LEFT operand is contracted along its FIRST axis, read at an entry.

  For the dimension numbers that contract axis 0 of a K × M matrix against axis 0 of a K × N matrix (the product
  of the left operand's transpose with the right operand, no batch axis) the sum over the product's contraction index is
  the sum over `k : Fin K` of `l (k, a) · r (k, b)`. Stated for ANY record with those dimension numbers, whatever the
  three extents; the form for a `tpu.matmul` into a zero accumulator at the ideal values follows.
-/
import Idealize.ShloMosaic.PureOps.Ideal.Laws
import Idealize.ShloMosaic.Lib.ValueIdx

noncomputable section

namespace Cert.LibTransposedDot

open Idealize.ShloMosaic Idealize.ShloMosaic.ValueIdx

variable {M K N : Nat}

/-- The transposed-left product's sum over its contraction index is the sum over `k : Fin K` of `l (k, a) * r (k, b)`. -/
theorem dot_sum (d : DotDims ⟨2, ![K, M]⟩ ⟨2, ![K, N]⟩ ⟨2, ![M, N]⟩)
    (hlc : d.lhsContracting = [0]) (hrc : d.rhsContracting = [0])
    (hln : d.lhsNonContracting = [1]) (hrn : d.rhsNonContracting = [1])
    (hlb : d.lhsBatch = []) (hrb : d.rhsBatch = [])
    (l : (⟨2, ![K, M]⟩ : Shape).Idx → EReal) (r : (⟨2, ![K, N]⟩ : Shape).Idx → EReal) (a : Fin M) (b : Fin N) :
    ∑ k : d.contr.Idx, l (d.lhsIdx (ix2 a b) k) * r (d.rhsIdx (ix2 a b) k) = ∑ k : Fin K, l (ix2 k a) * r (ix2 k b) := by
  obtain ⟨lc, rc, ln, rn, lb, rb, wf⟩ := d
  dsimp only at hlc hrc hln hrn hlb hrb
  subst hlc hrc hln hrn hlb hrb
  generalize hd : (⟨[0], [0], [1], [1], [], [], wf⟩ : DotDims ⟨2, ![K, M]⟩ ⟨2, ![K, N]⟩ ⟨2, ![M, N]⟩) = d
  have hlc : d.lhsContracting = [0] := by rw [← hd]
  have hrc : d.rhsContracting = [0] := by rw [← hd]
  have hr : d.contr.rank = 1 := by rw [← hd]; rfl
  have hs : d.contr.size ⟨0, by omega⟩ = K := by subst hd; rfl
  -- the left operand's kept axis (its second) reads the result's row index
  have l1 : ∀ q : d.contr.Idx, (d.lhsIdx (ix2 a b) q 1).val = a.val := by
    subst hd; intro q
    unfold DotDims.lhsIdx
    rw [dif_neg (show ¬ (1 : Fin 2) ∈ ([] : List (Fin 2)) from List.not_mem_nil),
      dif_pos (show (1 : Fin 2) ∈ ([1] : List (Fin 2)) from List.mem_singleton.mpr rfl)]
    rfl
  -- the right operand's kept axis (its second) reads the result's column index
  have r1 : ∀ q : d.contr.Idx, (d.rhsIdx (ix2 a b) q 1).val = b.val := by
    subst hd; intro q
    unfold DotDims.rhsIdx
    rw [dif_neg (show ¬ (1 : Fin 2) ∈ ([] : List (Fin 2)) from List.not_mem_nil),
      dif_pos (show (1 : Fin 2) ∈ ([1] : List (Fin 2)) from List.mem_singleton.mpr rfl)]
    rfl
  rw [← Equiv.sum_comp (contrEquiv1 d K hr hs).symm]
  refine Finset.sum_congr rfl fun k _ => ?_
  have hk := contrEquiv1_symm_val d K hr hs k
  have el : d.lhsIdx (ix2 a b) ((contrEquiv1 d K hr hs).symm k) = ix2 k a := funext fun ax => Fin.ext (by
    match ax with
    | ⟨0, _⟩ => exact (d.lhsIdx_val_of_single hlc _ _).trans hk
    | ⟨1, _⟩ => exact l1 _)
  have er : d.rhsIdx (ix2 a b) ((contrEquiv1 d K hr hs).symm k) = ix2 k b := funext fun ax => Fin.ext (by
    match ax with
    | ⟨0, _⟩ => exact (d.rhsIdx_val_of_single hrc _ _).trans hk
    | ⟨1, _⟩ => exact r1 _)
  rw [el, er]

/-- A `tpu.matmul` of those dimension numbers into the zero accumulator, at the ideal values, at entry (a, b). -/
theorem matmul_zero_apply {φ₁ φ₂ : FTy} (d : DotDims ⟨2, ![K, M]⟩ ⟨2, ![K, N]⟩ ⟨2, ![M, N]⟩)
    (hlc : d.lhsContracting = [0]) (hrc : d.rhsContracting = [0])
    (hln : d.lhsNonContracting = [1]) (hrn : d.rhsNonContracting = [1])
    (hlb : d.lhsBatch = []) (hrb : d.rhsBatch = [])
    (prec : Option ContractPrecision)
    (l : FVec Ideal ⟨2, ![K, M]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 k a) * r (ix2 k b) :=
  (Ideal.matmul_constant_zero_apply d prec l r (ix2 a b)).trans (dot_sum d hlc hrc hln hrn hlb hrb l r a b)

end Cert.LibTransposedDot

end
-- ==== Proof.LibRowBroadcast.lean ====
/-
  A one-row table repeated down the rows of a taller table, read at an entry.

  Broadcasting a table of one row and c columns to n rows and c columns copies the row into every row: entry (p, k) of
  the result is entry (0, k) of the one-row table, whatever the row p. (The broadcast reads the operand at coordinate 0
  on every axis where the operand has extent one, and at the result's own coordinate elsewhere; when c itself is one the
  column coordinate k is 0 as well.)
-/
import Idealize.ShloMosaic.Lib.Pipeline.Value
import Idealize.ShloMosaic.Lib.ValueIdx

noncomputable section

namespace Idealize.ShloMosaic.RowBroadcast

open Idealize.ShloMosaic Idealize.ShloMosaic.ValueIdx

/-- [1, c] broadcast to [n, c], at entry (p, k): the row's entry (0, k). -/
theorem broadcastTo_row {α : Type} {n c : Nat} (x : (⟨2, ![1, c]⟩ : Shape).Idx → α)
    (h : (⟨2, ![1, c]⟩ : Shape).Broadcasts ⟨2, ![n, c]⟩) (p : Fin n) (k : Fin c) :
    broadcastTo ⟨2, ![n, c]⟩ x h (ix2 p k) = x (ix2 (0 : Fin 1) k) :=
  broadcastTo_apply x h (ix2 p k) (ix2 (0 : Fin 1) k) (fun a => match a with
    | ⟨0, _⟩ => by
        show (0 : Nat) = if (1 : Nat) = 1 then 0 else _
        rw [if_pos rfl]
    | ⟨1, _⟩ => by
        show k.val = if c = 1 then 0 else k.val
        by_cases hc : c = 1
        · rw [if_pos hc]; have hk := k.isLt; omega
        · rw [if_neg hc])

end Idealize.ShloMosaic.RowBroadcast

end
-- ==== Proof.KI.Value0.lean ====
/-
  What the first launch leaves in its output array, at the exact extended-real values: the 128 × 128 table
  KᵀV of the two projected inputs, the eight slabs of 1024 rows added one after the other from zero.

  The output window is written back once, at the last grid point, with the body's running table; the table after
  point n is the table after point n − 1 plus the product of the point's two projected slabs, contracted along the
  slab's 1024 rows. A slab's block of x is rows 1024 n … 1024 n + 1023 of the array; the weight and bias windows
  are the whole arrays at every point.
-/
import proofs.«180284_j56100862820442_1_alg».proof.Proof.Gen.KernelIdeal.Launch
import proofs.«180284_j56100862820442_1_alg».proof.Proof.Gen.KernelIdeal.Skeleton
import proofs.«180284_j56100862820442_1_alg».proof.Proof.Gen.KernelIdeal.Points
import proofs.«180284_j56100862820442_1_alg».proof.Proof.KI.Data0
import proofs.«180284_j56100862820442_1_alg».proof.Proof.Spec
import proofs.«180284_j56100862820442_1_alg».proof.Proof.LibPlainDot
import proofs.«180284_j56100862820442_1_alg».proof.Proof.LibTransposedDot
import proofs.«180284_j56100862820442_1_alg».proof.Proof.LibRowBroadcast
import Idealize.ShloMosaic.PureOps.Ideal.Laws
import Idealize.ShloMosaic.Lib.ValueIdx
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

/-! ## The body's update at an entry -/

/-- The zero table at an entry. -/
private theorem pay1_apply (j : S128x128.Idx) : k0_pay1 (F := Ideal) j = 0 := by
  unfold k0_pay1
  rw [shapeCast_self]
  exact Ideal.ofBits_zero_f32

/-- One projected slab at row r, column d: row r of the slab times column d of the weight, plus the bias row's entry d. -/
private theorem proj_apply (x : FVec Ideal S1024x1024 .f32) (w : FVec Ideal S1024x128 .bf16) (b : FVec Ideal S1x128 .f32)
    (r : Fin 1024) (d : Fin 128) :
    (truncf .bf16 (addf (matmul dot_S1024x1024_S1024x128_S1024x128_1_0_0_1_n_n none (truncf .bf16 x bitsLt_bf16_f32) w
        (constant S1024x128 .f32 0x00000000#32)) (broadcastTo S1024x128 b broadcasts_S1x128_S1024x128)) bitsLt_bf16_f32
      : FVec Ideal S1024x128 .bf16) (ix2 r d)
      = (∑ l : Fin 1024, x (ix2 r l) * w (ix2 l d)) + b (ix2 (0 : Fin 1) d) := by
  show matmul dot_S1024x1024_S1024x128_S1024x128_1_0_0_1_n_n none (truncf .bf16 x bitsLt_bf16_f32) w
        (constant S1024x128 .f32 0x00000000#32) (ix2 r d) + broadcastTo S1024x128 b broadcasts_S1x128_S1024x128 (ix2 r d) = _
  congr 1
  · exact Cert.LibPlainDot.matmul_zero_apply _ rfl rfl rfl rfl rfl rfl none _ _ r d
  · exact RowBroadcast.broadcastTo_row _ _ r d

/-- The update at entry (d, e): the table there plus the sum over the slab's 1024 rows of the two projections' product. -/
private theorem pay2_apply (x : Vec Ideal S1024x1024 .f32) (wk : Vec Ideal S1024x128 .bf16) (bk : Vec Ideal S1x128 .f32)
    (wv : Vec Ideal S1024x128 .bf16) (bv : Vec Ideal S1x128 .f32) (s : Vec Ideal S128x128 .f32) (d e : Fin 128) :
    k0_pay2 x wk bk wv bv s (ix2 d e)
      = s (ix2 d e) + ∑ r : Fin 1024, ((∑ l : Fin 1024, x (ix2 r l) * wk (ix2 l d)) + bk (ix2 (0 : Fin 1) d))
          * ((∑ l : Fin 1024, x (ix2 r l) * wv (ix2 l e)) + bv (ix2 (0 : Fin 1) e)) := by
  unfold k0_pay2
  simp only [shapeCast_self]
  refine (addf_apply _ _ _).trans ?_
  congr 1
  refine (Cert.LibTransposedDot.matmul_zero_apply _ rfl rfl rfl rfl rfl rfl none _ _ d e).trans ?_
  refine Finset.sum_congr rfl fun r _ => ?_
  rw [proj_apply, proj_apply]

/-! ## The blocks at an entry -/

section
variable (V : (c : Dev nD) → (b : Ref sig .tc) → Buf (Elt Ideal) ((c : Thread nD τ).loc b)) (c : Dev nD)

/-- The block indices over the grid: the x window's block at point t is (t, 0); every other window's is (0, 0). -/
private theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

/-- The x block at point t, entry (r, l): row 1024 t + r of x, column l. -/
private theorem iblk_x (t : Fin cfg0.N) (r l : Fin 1024) :
    (iblk0 V c 0 t : Vec Ideal S1024x1024 .f32) (ix2 r l) = (V c main_arg0 : Spec.Tab 8192 1024) (ix2 (Spec.slabRow t.val r) l) := by
  obtain ⟨e0, e1, -⟩ := idx_facts t
  have ht : t.val < 8 := t.isLt
  unfold iblk0
  rw [View.read_apply]
  show V c main_arg0 _ = V c main_arg0 _
  congr 1
  funext a
  apply Fin.ext
  match a with
  | ⟨0, _⟩ =>
    show win0_0.index t (0 : Fin 2) * 1024 + 1 * r.val = (1024 * t.val + r.val) % 8192
    have hr := r.isLt
    omega
  | ⟨1, _⟩ =>
    show win0_0.index t (1 : Fin 2) * 1024 + 1 * l.val = l.val
    omega

/-- The K weight's window at every point is the whole array. -/
private theorem iblk_wk (t : Fin cfg0.N) (l : Fin 1024) (d : Fin 128) :
    (iblk0 V c 1 t : Vec Ideal S1024x128 .bf16) (ix2 l d) = (V c main_v3 : Spec.Tab 1024 128) (ix2 l d) := by
  obtain ⟨-, -, e0, e1, -⟩ := idx_facts t
  unfold iblk0
  rw [View.read_apply]
  show V c main_v3 _ = V c main_v3 _
  congr 1
  funext a
  apply Fin.ext
  match a with
  | ⟨0, _⟩ =>
    show win0_1.index t (0 : Fin 2) * 1024 + 1 * l.val = l.val
    omega
  | ⟨1, _⟩ =>
    show win0_1.index t (1 : Fin 2) * 128 + 1 * d.val = d.val
    omega

/-- The K bias row's window at every point is the whole row. -/
private theorem iblk_bk (t : Fin cfg0.N) (d : Fin 128) :
    (iblk0 V c 2 t : Vec Ideal S1x128 .f32) (ix2 (0 : Fin 1) d) = (V c main_v13 : Spec.Tab 1 128) (ix2 (0 : Fin 1) d) := by
  obtain ⟨-, -, -, -, e0, e1, -⟩ := idx_facts t
  unfold iblk0
  rw [View.read_apply]
  show V c main_v13 _ = V c main_v13 _
  congr 1
  funext a
  apply Fin.ext
  match a with
  | ⟨0, _⟩ =>
    show win0_2.index t (0 : Fin 2) * 1 + 1 * 0 = 0
    omega
  | ⟨1, _⟩ =>
    show win0_2.index t (1 : Fin 2) * 128 + 1 * d.val = d.val
    omega

/-- The V weight's window at every point is the whole array. -/
private theorem iblk_wv (t : Fin cfg0.N) (l : Fin 1024) (e : Fin 128) :
    (iblk0 V c 3 t : Vec Ideal S1024x128 .bf16) (ix2 l e) = (V c main_v5 : Spec.Tab 1024 128) (ix2 l e) := by
  obtain ⟨-, -, -, -, -, -, e0, e1, -⟩ := idx_facts t
  unfold iblk0
  rw [View.read_apply]
  show V c main_v5 _ = V c main_v5 _
  congr 1
  funext a
  apply Fin.ext
  match a with
  | ⟨0, _⟩ =>
    show win0_3.index t (0 : Fin 2) * 1024 + 1 * l.val = l.val
    omega
  | ⟨1, _⟩ =>
    show win0_3.index t (1 : Fin 2) * 128 + 1 * e.val = e.val
    omega

/-- The V bias row's window at every point is the whole row. -/
private theorem iblk_bv (t : Fin cfg0.N) (e : Fin 128) :
    (iblk0 V c 4 t : Vec Ideal S1x128 .f32) (ix2 (0 : Fin 1) e) = (V c main_v14 : Spec.Tab 1 128) (ix2 (0 : Fin 1) e) := by
  obtain ⟨-, -, -, -, -, -, -, -, e0, e1, -⟩ := idx_facts t
  unfold iblk0
  rw [View.read_apply]
  show V c main_v14 _ = V c main_v14 _
  congr 1
  funext a
  apply Fin.ext
  match a with
  | ⟨0, _⟩ =>
    show win0_4.index t (0 : Fin 2) * 1 + 1 * 0 = 0
    omega
  | ⟨1, _⟩ =>
    show win0_4.index t (1 : Fin 2) * 128 + 1 * e.val = e.val
    omega

/-! ## The running table -/

/-- One point's update at entry (d, e): the table there plus the point's slab's share. -/
private theorem step_apply (t : Fin cfg0.N) (s : Vec Ideal S128x128 .f32) (d e : Fin 128) :
    k0_pay2 (iblk0 V c 0 t) (iblk0 V c 1 t) (iblk0 V c 2 t) (iblk0 V c 3 t) (iblk0 V c 4 t) s (ix2 d e)
      = s (ix2 d e) + Spec.slabKV (V c main_arg0) (V c main_v3) (V c main_v13) (V c main_v5) (V c main_v14) t.val d e := by
  refine (pay2_apply (iblk0 V c 0 t) (iblk0 V c 1 t) (iblk0 V c 2 t) (iblk0 V c 3 t) (iblk0 V c 4 t) s d e).trans ?_
  refine congrArg (s (ix2 d e) + ·) ?_
  unfold Spec.slabKV Spec.projT
  refine Finset.sum_congr rfl fun r _ => ?_
  refine congrArg₂ (· * ·) (congrArg₂ (· + ·) (Finset.sum_congr rfl fun l _ => ?_) ?_)
    (congrArg₂ (· + ·) (Finset.sum_congr rfl fun l _ => ?_) ?_)
  · exact congrArg₂ (· * ·) (iblk_x V c t r l) (iblk_wk V c t l d)
  · exact iblk_bk V c t d
  · exact congrArg₂ (· * ·) (iblk_x V c t r l) (iblk_wv V c t l e)
  · exact iblk_bv V c t e

/-- The table after point n is the specification's running table after slab n. -/
private theorem scr_apply : ∀ (n : ℕ) (hn : n < cfg0.N) (d e : Fin 128),
    scr0 V c n hn (ix2 d e)
      = Spec.accKV (V c main_arg0) (V c main_v3) (V c main_v13) (V c main_v5) (V c main_v14) n d e
  | 0, hn, d, e => by
    rw [scr0_zero]
    refine (step_apply V c ⟨0, hn⟩ (k0_pay1 (F := Ideal)) d e).trans ?_
    rw [pay1_apply]
    rfl
  | n + 1, hn, d, e => by
    rw [scr0_succ]
    refine (step_apply V c ⟨n + 1, hn⟩ (scr0 V c n (Nat.lt_of_succ_lt hn)) d e).trans ?_
    rw [scr_apply n (Nat.lt_of_succ_lt hn) d e]
    rfl

end

/-! ## From the last point's write-back to the array -/

section
variable (V : (c : Dev nD) → (b : Ref sig .tc) → Buf (Elt Ideal) ((c : Thread nD τ).loc b)) (c : Dev nD)

/-- The one write-back, at the last point, writes the specification's table: the output's block is the whole 128 × 128 array. -/
private theorem flushed_eq (t : Fin cfg0.N) (hf : (cfg0.win 5).flush t = true) :
    (dat0 V c).flushed 5 t = ((cfg0.win 5).blk t).view.read (Elt Ideal)
      (Spec.KVk (V c main_arg0) (V c main_v3) (V c main_v13) (V c main_v5) (V c main_v14)) := by
  have h7 : t.val = 7 := by
    have h := (flush0_5 t).mp hf
    have hl : t.val < 8 := t.isLt
    omega
  obtain ⟨-, -, -, -, -, -, -, -, -, -, e0, e1⟩ := idx_facts t
  show (cfg0.win 5).cut (grid0.coords t) ((dat0 V c).after 5 t) = _
  rw [after0_5]
  refine funext fun (j : S128x128.Idx) => ?_
  obtain ⟨d, e, rfl⟩ : ∃ (d : Fin 128) (e : Fin 128), j = ix2 d e := ⟨j 0, j 1, eq_ix2 j⟩
  have hemb : ((cfg0.win 5).blk t).view.emb (ix2 d e) = (ix2 d e : S128x128.Idx) := by
    funext a
    apply Fin.ext
    match a with
    | ⟨0, _⟩ =>
      show win0_5.index t (0 : Fin 2) * 128 + 1 * d.val = d.val
      omega
    | ⟨1, _⟩ =>
      show win0_5.index t (1 : Fin 2) * 128 + 1 * e.val = e.val
      omega
  show scr0 V c t.val t.isLt (ix2 d e)
    = Spec.KVk (V c main_arg0) (V c main_v3) (V c main_v13) (V c main_v5) (V c main_v14) (((cfg0.win 5).blk t).view.emb (ix2 d e))
  rw [hemb]
  refine (scr_apply V c t.val t.isLt d e).trans ?_
  rw [h7]
  rfl

/-- An entry of the array is in point t's block iff each coordinate is in the block's range on its axis. -/
private theorem mem_blk (t : Fin cfg0.N) (i : S128x128.Idx) :
    i ∈ ((cfg0.win 5).blk t).view.set ↔ ∀ a : Fin 2, win0_5.index t a * S128x128.size a ≤ (i a).val
      ∧ (i a).val < win0_5.index t a * S128x128.size a + S128x128.size a := by
  show i ∈ ((View.whole main_v18).slice (win0_5.rect t)).set ↔ _
  rw [View.set_slice_whole, Rect.mem_set_unit]
  exact Iff.rfl

/-- The last point's block covers the array. -/
private theorem cover (i : S128x128.Idx) :
    ∃ t : Fin cfg0.N, (cfg0.win 5).flush t = true ∧ i ∈ ((cfg0.win 5).blk t).view.set := by
  refine ⟨t0_7, (flush0_5 t0_7).mpr rfl, ?_⟩
  obtain ⟨-, -, -, -, -, -, -, -, -, -, e0, e1⟩ := idx_facts t0_7
  rw [mem_blk]
  intro a
  match a with
  | ⟨0, _⟩ =>
    show win0_5.index t0_7 (0 : Fin 2) * 128 ≤ (i 0).val ∧ (i 0).val < win0_5.index t0_7 (0 : Fin 2) * 128 + 128
    have h0 : (i 0).val < 128 := (i 0).isLt
    omega
  | ⟨1, _⟩ =>
    show win0_5.index t0_7 (1 : Fin 2) * 128 ≤ (i 1).val ∧ (i 1).val < win0_5.index t0_7 (1 : Fin 2) * 128 + 128
    have h1 : (i 1).val < 128 := (i 1).isLt
    omega

end

/-- The first launch's output array after the run, from the arrays it was handed. -/
theorem kv_value (V : (c : Dev nD) → (b : Ref sig .tc) → Buf (Elt Ideal) ((c : Thread nD τ).loc b)) (c : Dev nD) :
    ((dat0 (F := Ideal) V c).arrAt 5 cfg0.N : Spec.Tab 128 128)
      = Spec.KVk (V c main_arg0) (V c main_v3) (V c main_v13) (V c main_v5) (V c main_v14) :=
  (dat0 (F := Ideal) V c).arrAt_eq_of_cover 5
    (Spec.KVk (V c main_arg0) (V c main_v3) (V c main_v13) (V c main_v5) (V c main_v14))
    (flushed_eq V c) (cover)

end Cert.KernelIdeal.Hand

end
-- ==== Proof.KI.Value1.lean ====
/-
  What the second launch leaves in its output array, at the exact extended-real values: row by row, the
  attention context through the 128 × 128 table, the output projection and first residual, the 4096-wide
  layer cut off below at zero, the projection back and the second residual.

  Grid point t stores rows 256 t … 256 t + 255 of the result, computed from the same rows of x and the whole
  weight, bias and table arrays; the 32 blocks tile the 8192 rows.
-/
import proofs.«180284_j56100862820442_1_alg».proof.Proof.Gen.KernelIdeal.Launch
import proofs.«180284_j56100862820442_1_alg».proof.Proof.Gen.KernelIdeal.Skeleton
import proofs.«180284_j56100862820442_1_alg».proof.Proof.Gen.KernelIdeal.Points
import proofs.«180284_j56100862820442_1_alg».proof.Proof.KI.Data1
import proofs.«180284_j56100862820442_1_alg».proof.Proof.Spec
import proofs.«180284_j56100862820442_1_alg».proof.Proof.LibPlainDot
import proofs.«180284_j56100862820442_1_alg».proof.Proof.LibRowBroadcast
import Idealize.ShloMosaic.PureOps.Ideal.Laws
import Idealize.ShloMosaic.Lib.ValueIdx
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

/-! ## The body's three payloads at an entry, over any blocks -/

/-- A product into the zero accumulator, at an entry: the sum over the contracted index. -/
private theorem mm_apply {M K N : Nat} {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (l : FVec Ideal ⟨2, ![M, K]⟩ φ₁) (r : FVec Ideal ⟨2, ![K, N]⟩ φ₂) (a : Fin M) (b : Fin N) :
    matmul d none l r (constant ⟨2, ![M, N]⟩ .f32 0x00000000#32) (ix2 a b) = ∑ k : Fin K, l (ix2 a k) * r (ix2 k b) :=
  LibPlainDot.matmul_zero_apply d hlc hrc hln hrn hlb hrb none l r a b

/-- The first residual over one block of rows, at row p of the block and column n. -/
private theorem pay2_apply (x : Vec Ideal S256x1024 .f32) (wq : Vec Ideal S1024x128 .bf16) (bq : Vec Ideal S1x128 .f32)
    (kv : Vec Ideal S128x128 .bf16) (wo : Vec Ideal S128x1024 .bf16) (bp : Vec Ideal S1x1024 .f32) (p : Fin 256) (n : Fin 1024) :
    k1_pay2 x wq bq kv wo bp (ix2 p n)
      = x (ix2 p n) + ((∑ e : Fin 128, (∑ d : Fin 128, ((∑ l : Fin 1024, x (ix2 p l) * wq (ix2 l d)) + bq (ix2 (0 : Fin 1) d)) * kv (ix2 d e)) * wo (ix2 e n))
          + bp (ix2 (0 : Fin 1) n)) := by
  unfold k1_pay2
  simp only [shapeCast_self, addf_apply, truncf_apply, RowBroadcast.broadcastTo_row,
    mm_apply dot_S256x128_S128x1024_S256x1024_1_0_0_1_n_n rfl rfl rfl rfl rfl rfl,
    mm_apply dot_S256x128_S128x128_S256x128_1_0_0_1_n_n rfl rfl rfl rfl rfl rfl,
    mm_apply dot_S256x1024_S1024x128_S256x128_1_0_0_1_n_n rfl rfl rfl rfl rfl rfl]

/-- The 4096-wide layer over one block of rows, cut off below at zero, at row p of the block and column f. -/
private theorem pay3_apply (x : Vec Ideal S256x1024 .f32) (wq : Vec Ideal S1024x128 .bf16) (bq : Vec Ideal S1x128 .f32)
    (kv : Vec Ideal S128x128 .bf16) (wo : Vec Ideal S128x1024 .bf16) (bp : Vec Ideal S1x1024 .f32)
    (w1 : Vec Ideal S1024x4096 .bf16) (b1 : Vec Ideal S1x4096 .f32) (p : Fin 256) (f : Fin 4096) :
    k1_pay3 x wq bq kv wo bp w1 b1 (ix2 p f)
      = max ((∑ l : Fin 1024, k1_pay2 x wq bq kv wo bp (ix2 p l) * w1 (ix2 l f)) + b1 (ix2 (0 : Fin 1) f)) 0 := by
  unfold k1_pay3
  simp only [shapeCast_self, addf_apply, truncf_apply, maximumf_apply, broadcast_apply, RowBroadcast.broadcastTo_row,
    mm_apply dot_S256x1024_S1024x4096_S256x4096_1_0_0_1_n_n rfl rfl rfl rfl rfl rfl]
  exact congrArg _ Ideal.ofBits_zero_f32

/-- The last product and the second residual over one block of rows, at row p of the block and column n. -/
private theorem pay1_apply (a : FVec Ideal S256x1024 .f32) (h : FVec Ideal S256x4096 .bf16) (w2 : FVec Ideal S4096x1024 .bf16)
    (b2 : Vec Ideal S1x1024 .f32) (p : Fin 256) (n : Fin 1024) :
    k1_pay1 a h w2 (constant S256x1024 .f32 0x00000000#32) b2 (ix2 p n)
      = (a (ix2 p n) + ∑ f : Fin 4096, h (ix2 p f) * w2 (ix2 f n)) + b2 (ix2 (0 : Fin 1) n) := by
  unfold k1_pay1
  simp only [shapeCast_self, addf_apply, RowBroadcast.broadcastTo_row,
    mm_apply dot_S256x4096_S4096x1024_S256x1024_1_0_0_1_n_n rfl rfl rfl rfl rfl rfl]

/-- What the body stores over one block of rows, at row p of the block and column n. -/
private theorem out1_apply (x : Vec Ideal S256x1024 .f32) (wq : Vec Ideal S1024x128 .bf16) (bq : Vec Ideal S1x128 .f32)
    (kv : Vec Ideal S128x128 .bf16) (wo : Vec Ideal S128x1024 .bf16) (bp : Vec Ideal S1x1024 .f32)
    (w1 : Vec Ideal S1024x4096 .bf16) (b1 : Vec Ideal S1x4096 .f32) (w2 : Vec Ideal S4096x1024 .bf16) (b2 : Vec Ideal S1x1024 .f32)
    (p : Fin 256) (n : Fin 1024) :
    out1 x wq bq kv wo bp w1 b1 w2 b2 (ix2 p n)
      = (k1_pay2 x wq bq kv wo bp (ix2 p n) + ∑ f : Fin 4096, k1_pay3 x wq bq kv wo bp w1 b1 (ix2 p f) * w2 (ix2 f n))
          + b2 (ix2 (0 : Fin 1) n) := by
  unfold out1 k1_pay4
  rw [pay1_apply]
  simp only [shapeCast_self]

/-- When the block x holds the rows r 0, …, r 255 of the array X, what the body stores at row p of the block is the
    result at row r p of the array. -/
private theorem out1_eq_Yk (X : Spec.Tab 8192 1024) (wq : Spec.Tab 1024 128) (bq : Spec.Tab 1 128) (kv : Spec.Tab 128 128)
    (wo : Spec.Tab 128 1024) (bp : Spec.Tab 1 1024) (w1 : Spec.Tab 1024 4096) (b1 : Spec.Tab 1 4096)
    (w2 : Spec.Tab 4096 1024) (b2 : Spec.Tab 1 1024)
    (x : Vec Ideal S256x1024 .f32) (r : Fin 256 → Fin 8192) (hx : ∀ (p : Fin 256) (l : Fin 1024), x (ix2 p l) = X (ix2 (r p) l))
    (p : Fin 256) (n : Fin 1024) :
    out1 x wq bq kv wo bp w1 b1 w2 b2 (ix2 p n) = Spec.Yk X wq bq kv wo bp w1 b1 w2 b2 (ix2 (r p) n) := by
  have h2 : ∀ (p : Fin 256) (l : Fin 1024), k1_pay2 x wq bq kv wo bp (ix2 p l) = Spec.x1k X wq bq kv wo bp (r p) l := by
    intro p l
    rw [pay2_apply]
    unfold Spec.x1k Spec.projT
    simp only [hx]
  rw [out1_apply]
  unfold Spec.Yk
  simp only [pay3_apply, h2]

/-! ## The blocks at an entry -/

section
variable (V : (c : Dev nD) → (b : Ref sig .tc) → Buf (Elt Ideal) ((c : Thread nD τ).loc b)) (c : Dev nD)

/-- The index maps over the 32 points: the block of x and the output block are at (t, 0), every other window's
    block at (0, 0). -/
private theorem idx_facts : ∀ t : Fin cfg1.N,
    win1_0.index t (0 : Fin 2) = t.val ∧ win1_0.index t (1 : Fin 2) = 0
    ∧ win1_10.index t (0 : Fin 2) = t.val ∧ win1_10.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0 :=
  (by decide +kernel : ∀ t : Fin grid1.N, _)

/-- A point of the grid is below 32. -/
private theorem pt_lt (t : Fin cfg1.N) : t.val < 32 := lt_of_lt_of_eq t.isLt N_1

/-- Row p of block t is row 256 t + p of the array. -/
private def rowOf (t : Fin cfg1.N) (p : Fin 256) : Fin 8192 :=
  ⟨256 * t.val + p.val, by have := pt_lt t; have := p.isLt; omega⟩

/-- The block of x at point t holds the rows 256 t, …, 256 t + 255 of x. -/
private theorem blk0_apply (t : Fin cfg1.N) (p : Fin 256) (l : Fin 1024) :
    (iblk1 V c 0 t : Vec Ideal S256x1024 .f32) (ix2 p l) = (V c main_arg0 : Spec.Tab 8192 1024) (ix2 (rowOf t p) l) := by
  obtain ⟨h0, h1, -⟩ := idx_facts t
  show V c main_arg0 (((cfg1.win 0).blk t).view.emb (ix2 p l)) = V c main_arg0 (ix2 (rowOf t p) l)
  refine congrArg _ (funext fun a => Fin.ext ?_)
  match a with
  | ⟨0, _⟩ => show win1_0.index t (0 : Fin 2) * 256 + 1 * p.val = 256 * t.val + p.val; rw [h0]; omega
  | ⟨1, _⟩ => show win1_0.index t (1 : Fin 2) * 1024 + 1 * l.val = l.val; rw [h1]; omega

/-- The block of Wqᵀ at every point is the whole array. -/
private theorem blk1_eq (t : Fin cfg1.N) : (iblk1 V c 1 t : Vec Ideal S1024x128 .bf16) = (V c main_v1 : Spec.Tab 1024 128) := by
  obtain ⟨-, -, -, -, h0, h1, -⟩ := idx_facts t
  funext j
  show V c main_v1 (((cfg1.win 1).blk t).view.emb j) = V c main_v1 j
  refine congrArg _ (funext fun a => Fin.ext ?_)
  match a with
  | ⟨0, _⟩ => show win1_1.index t (0 : Fin 2) * 1024 + 1 * (j 0).val = (j 0).val; rw [h0]; omega
  | ⟨1, _⟩ => show win1_1.index t (1 : Fin 2) * 128 + 1 * (j 1).val = (j 1).val; rw [h1]; omega

/-- The block of the bias row of the first projection at every point is the whole array. -/
private theorem blk2_eq (t : Fin cfg1.N) : (iblk1 V c 2 t : Vec Ideal S1x128 .f32) = (V c main_v12 : Spec.Tab 1 128) := by
  obtain ⟨-, -, -, -, -, -, h0, h1, -⟩ := idx_facts t
  funext j
  show V c main_v12 (((cfg1.win 2).blk t).view.emb j) = V c main_v12 j
  refine congrArg _ (funext fun a => Fin.ext ?_)
  match a with
  | ⟨0, _⟩ => show win1_2.index t (0 : Fin 2) * 1 + 1 * (j 0).val = (j 0).val; rw [h0]; omega
  | ⟨1, _⟩ => show win1_2.index t (1 : Fin 2) * 128 + 1 * (j 1).val = (j 1).val; rw [h1]; omega

/-- The block of the 128 × 128 table at every point is the whole array. -/
private theorem blk3_eq (t : Fin cfg1.N) : (iblk1 V c 3 t : Vec Ideal S128x128 .bf16) = (V c main_v19 : Spec.Tab 128 128) := by
  obtain ⟨-, -, -, -, -, -, -, -, h0, h1, -⟩ := idx_facts t
  funext j
  show V c main_v19 (((cfg1.win 3).blk t).view.emb j) = V c main_v19 j
  refine congrArg _ (funext fun a => Fin.ext ?_)
  match a with
  | ⟨0, _⟩ => show win1_3.index t (0 : Fin 2) * 128 + 1 * (j 0).val = (j 0).val; rw [h0]; omega
  | ⟨1, _⟩ => show win1_3.index t (1 : Fin 2) * 128 + 1 * (j 1).val = (j 1).val; rw [h1]; omega

/-- The block of Wpᵀ at every point is the whole array. -/
private theorem blk4_eq (t : Fin cfg1.N) : (iblk1 V c 4 t : Vec Ideal S128x1024 .bf16) = (V c main_v7 : Spec.Tab 128 1024) := by
  obtain ⟨-, -, -, -, -, -, -, -, -, -, h0, h1, -⟩ := idx_facts t
  funext j
  show V c main_v7 (((cfg1.win 4).blk t).view.emb j) = V c main_v7 j
  refine congrArg _ (funext fun a => Fin.ext ?_)
  match a with
  | ⟨0, _⟩ => show win1_4.index t (0 : Fin 2) * 128 + 1 * (j 0).val = (j 0).val; rw [h0]; omega
  | ⟨1, _⟩ => show win1_4.index t (1 : Fin 2) * 1024 + 1 * (j 1).val = (j 1).val; rw [h1]; omega

/-- The block of the bias row of the output projection at every point is the whole array. -/
private theorem blk5_eq (t : Fin cfg1.N) : (iblk1 V c 5 t : Vec Ideal S1x1024 .f32) = (V c main_v15 : Spec.Tab 1 1024) := by
  obtain ⟨-, -, -, -, -, -, -, -, -, -, -, -, h0, h1, -⟩ := idx_facts t
  funext j
  show V c main_v15 (((cfg1.win 5).blk t).view.emb j) = V c main_v15 j
  refine congrArg _ (funext fun a => Fin.ext ?_)
  match a with
  | ⟨0, _⟩ => show win1_5.index t (0 : Fin 2) * 1 + 1 * (j 0).val = (j 0).val; rw [h0]; omega
  | ⟨1, _⟩ => show win1_5.index t (1 : Fin 2) * 1024 + 1 * (j 1).val = (j 1).val; rw [h1]; omega

/-- The block of W1ᵀ at every point is the whole array. -/
private theorem blk6_eq (t : Fin cfg1.N) : (iblk1 V c 6 t : Vec Ideal S1024x4096 .bf16) = (V c main_v9 : Spec.Tab 1024 4096) := by
  obtain ⟨-, -, -, -, -, -, -, -, -, -, -, -, -, -, h0, h1, -⟩ := idx_facts t
  funext j
  show V c main_v9 (((cfg1.win 6).blk t).view.emb j) = V c main_v9 j
  refine congrArg _ (funext fun a => Fin.ext ?_)
  match a with
  | ⟨0, _⟩ => show win1_6.index t (0 : Fin 2) * 1024 + 1 * (j 0).val = (j 0).val; rw [h0]; omega
  | ⟨1, _⟩ => show win1_6.index t (1 : Fin 2) * 4096 + 1 * (j 1).val = (j 1).val; rw [h1]; omega

/-- The block of the bias row of the 4096-wide layer at every point is the whole array. -/
private theorem blk7_eq (t : Fin cfg1.N) : (iblk1 V c 7 t : Vec Ideal S1x4096 .f32) = (V c main_v16 : Spec.Tab 1 4096) := by
  obtain ⟨-, -, -, -, -, -, -, -, -, -, -, -, -, -, -, -, h0, h1, -⟩ := idx_facts t
  funext j
  show V c main_v16 (((cfg1.win 7).blk t).view.emb j) = V c main_v16 j
  refine congrArg _ (funext fun a => Fin.ext ?_)
  match a with
  | ⟨0, _⟩ => show win1_7.index t (0 : Fin 2) * 1 + 1 * (j 0).val = (j 0).val; rw [h0]; omega
  | ⟨1, _⟩ => show win1_7.index t (1 : Fin 2) * 4096 + 1 * (j 1).val = (j 1).val; rw [h1]; omega

/-- The block of W2ᵀ at every point is the whole array. -/
private theorem blk8_eq (t : Fin cfg1.N) : (iblk1 V c 8 t : Vec Ideal S4096x1024 .bf16) = (V c main_v11 : Spec.Tab 4096 1024) := by
  obtain ⟨-, -, -, -, -, -, -, -, -, -, -, -, -, -, -, -, -, -, h0, h1, -⟩ := idx_facts t
  funext j
  show V c main_v11 (((cfg1.win 8).blk t).view.emb j) = V c main_v11 j
  refine congrArg _ (funext fun a => Fin.ext ?_)
  match a with
  | ⟨0, _⟩ => show win1_8.index t (0 : Fin 2) * 4096 + 1 * (j 0).val = (j 0).val; rw [h0]; omega
  | ⟨1, _⟩ => show win1_8.index t (1 : Fin 2) * 1024 + 1 * (j 1).val = (j 1).val; rw [h1]; omega

/-- The block of the bias row of the projection back at every point is the whole array. -/
private theorem blk9_eq (t : Fin cfg1.N) : (iblk1 V c 9 t : Vec Ideal S1x1024 .f32) = (V c main_v17 : Spec.Tab 1 1024) := by
  obtain ⟨-, -, -, -, -, -, -, -, -, -, -, -, -, -, -, -, -, -, -, -, h0, h1⟩ := idx_facts t
  funext j
  show V c main_v17 (((cfg1.win 9).blk t).view.emb j) = V c main_v17 j
  refine congrArg _ (funext fun a => Fin.ext ?_)
  match a with
  | ⟨0, _⟩ => show win1_9.index t (0 : Fin 2) * 1 + 1 * (j 0).val = (j 0).val; rw [h0]; omega
  | ⟨1, _⟩ => show win1_9.index t (1 : Fin 2) * 1024 + 1 * (j 1).val = (j 1).val; rw [h1]; omega

/-! ## From the 32 blocks to the array -/

/-- What point t writes back is block t of the result array. -/
private theorem flushed_eq (t : Fin cfg1.N) :
    (dat1 (F := Ideal) V c).flushed 10 t
      = ((cfg1.win 10).blk t).view.read (Elt Ideal)
          (Spec.Yk (V c main_arg0) (V c main_v1) (V c main_v12) (V c main_v19) (V c main_v7) (V c main_v15)
            (V c main_v9) (V c main_v16) (V c main_v11) (V c main_v17)) := by
  show (cfg1.win 10).cut (grid1.coords t) ((dat1 V c).after 10 t) = _
  rw [after1_10]
  obtain ⟨-, -, h0, h1, -⟩ := idx_facts t
  funext j
  obtain ⟨p, n, rfl⟩ : ∃ (p : Fin 256) (n : Fin 1024), j = ix2 p n := ⟨j 0, j 1, eq_ix2 j⟩
  have e : ((cfg1.win 10).blk t).view.emb (ix2 p n) = (ix2 (rowOf t p) n : S8192x1024.Idx) := by
    funext a; apply Fin.ext
    match a with
    | ⟨0, _⟩ => show win1_10.index t (0 : Fin 2) * 256 + 1 * p.val = 256 * t.val + p.val; rw [h0]; omega
    | ⟨1, _⟩ => show win1_10.index t (1 : Fin 2) * 1024 + 1 * n.val = n.val; rw [h1]; omega
  show out1 (iblk1 V c 0 t) (iblk1 V c 1 t) (iblk1 V c 2 t) (iblk1 V c 3 t) (iblk1 V c 4 t) (iblk1 V c 5 t) (iblk1 V c 6 t)
      (iblk1 V c 7 t) (iblk1 V c 8 t) (iblk1 V c 9 t) (ix2 p n)
    = Spec.Yk (V c main_arg0) (V c main_v1) (V c main_v12) (V c main_v19) (V c main_v7) (V c main_v15)
        (V c main_v9) (V c main_v16) (V c main_v11) (V c main_v17) (((cfg1.win 10).blk t).view.emb (ix2 p n))
  rw [e, blk1_eq V c t, blk2_eq V c t, blk3_eq V c t, blk4_eq V c t, blk5_eq V c t, blk6_eq V c t, blk7_eq V c t,
    blk8_eq V c t, blk9_eq V c t]
  exact out1_eq_Yk (V c main_arg0) (V c main_v1) (V c main_v12) (V c main_v19) (V c main_v7) (V c main_v15)
    (V c main_v9) (V c main_v16) (V c main_v11) (V c main_v17) (iblk1 V c 0 t) (rowOf t) (blk0_apply V c t) p n

/-- An index of the result array is in point t's block when each coordinate is in the block's range on its axis. -/
private theorem mem_blk (t : Fin cfg1.N) (i : S8192x1024.Idx) :
    i ∈ ((cfg1.win 10).blk t).view.set
      ↔ ∀ a : Fin 2, win1_10.index t a * S256x1024.size a ≤ (i a).val ∧ (i a).val < win1_10.index t a * S256x1024.size a + S256x1024.size a := by
  show i ∈ ((View.whole main_v20).slice (win1_10.rect t)).set ↔ _
  rw [View.set_slice_whole, Rect.mem_set_unit]
  exact Iff.rfl

/-- The 32 blocks of 256 rows cover the 8192 rows: row r is in block r / 256. -/
private theorem cover (i : S8192x1024.Idx) :
    ∃ t : Fin cfg1.N, (cfg1.win 10).flush t = true ∧ i ∈ ((cfg1.win 10).blk t).view.set := by
  have hi0 : (i 0).val < 8192 := (i 0).isLt
  have hi1 : (i 1).val < 1024 := (i 1).isLt
  let t : Fin cfg1.N := ⟨(i 0).val / 256, lt_of_lt_of_eq (by omega : (i 0).val / 256 < 32) N_1.symm⟩
  obtain ⟨-, -, h0, h1, -⟩ := idx_facts t
  have ht : t.val = (i 0).val / 256 := rfl
  refine ⟨t, flush1_10 t, ?_⟩
  rw [mem_blk]
  intro a
  match a with
  | ⟨0, _⟩ =>
    show win1_10.index t (0 : Fin 2) * 256 ≤ (i 0).val ∧ (i 0).val < win1_10.index t (0 : Fin 2) * 256 + 256
    rw [h0, ht]; omega
  | ⟨1, _⟩ =>
    show win1_10.index t (1 : Fin 2) * 1024 ≤ (i 1).val ∧ (i 1).val < win1_10.index t (1 : Fin 2) * 1024 + 1024
    rw [h1]; omega

end

/-- The second launch's output array after the run, from the arrays it was handed. -/
theorem y_value (V : (c : Dev nD) → (b : Ref sig .tc) → Buf (Elt Ideal) ((c : Thread nD τ).loc b)) (c : Dev nD) :
    ((dat1 (F := Ideal) V c).arrAt 10 cfg1.N : Spec.Tab 8192 1024)
      = Spec.Yk (V c main_arg0) (V c main_v1) (V c main_v12) (V c main_v19) (V c main_v7) (V c main_v15)
          (V c main_v9) (V c main_v16) (V c main_v11) (V c main_v17) :=
  (dat1 (F := Ideal) V c).arrAt_eq_of_cover 10
    (Spec.Yk (V c main_arg0) (V c main_v1) (V c main_v12) (V c main_v19) (V c main_v7) (V c main_v15)
      (V c main_v9) (V c main_v16) (V c main_v11) (V c main_v17))
    (fun t _ => flushed_eq V c t) (cover)

end Cert.KernelIdeal.Hand

end
-- ==== Proof.KI.Glue.lean ====
/-
  The kernel program's result as a function of its thirteen arguments, at the exact extended-real values.

  The host operations before the first launch only re-lay the arguments: each weight is transposed (and changes float
  format, which is the identity on extended reals), each bias vector becomes a one-row table. The first launch's
  output, again only changing format, is the second launch's 128 × 128 table. Neither launch nor the single host
  operation between them writes any of these arrays, so the second launch finds them as the first stretch left them.
-/
import proofs.«180284_j56100862820442_1_alg».proof.Proof.Gen.KernelIdeal.Launch
import proofs.«180284_j56100862820442_1_alg».proof.Proof.Gen.KernelIdeal.Skeleton
import proofs.«180284_j56100862820442_1_alg».proof.Proof.Gen.KernelIdeal.Points
import proofs.«180284_j56100862820442_1_alg».proof.Proof.KI.Run
import proofs.«180284_j56100862820442_1_alg».proof.Proof.KI.Value0
import proofs.«180284_j56100862820442_1_alg».proof.Proof.KI.Value1
import Idealize.ShloMosaic.Lib.StableHlo.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

/-! ## Two re-layouts, read entry by entry -/

/-- A table transposed and then changed in float format holds, at the exact values, the table's transpose. -/
theorem relay_weight {a b : ℕ} (x : Spec.Tab a b)
    (h : (⟨2, ![a, b]⟩ : Shape).Transposes [1, 0] ⟨2, ![b, a]⟩) (hb : FTy.bf16.bits < FTy.f32.bits) :
    (truncf (F := Ideal) (φ := .f32) .bf16 (transpose ⟨2, ![b, a]⟩ [1, 0] x h) hb : Spec.Tab b a) = Spec.tr x := by
  funext j
  obtain ⟨p, q, rfl⟩ : ∃ (p : Fin b) (q : Fin a), j = ix2 p q := ⟨j 0, j 1, eq_ix2 j⟩
  -- the transposed table at (p, q) reads the table at (q, p): axis by axis, the source coordinate is the result's other one
  refine transpose_apply [1, 0] x h (ix2 p q) (ix2 q p) fun d => ?_
  match d with
  | ⟨0, _⟩ => rfl
  | ⟨1, _⟩ => rfl

/-- A vector reshaped to a table of one row holds the vector along that row. -/
theorem relay_bias {n : ℕ} (x : Spec.Row n) (h : (⟨1, ![n]⟩ : Shape).ShapeCasts ⟨2, ![1, n]⟩) :
    (shapeCast ⟨2, ![1, n]⟩ x h : Spec.Tab 1 n) = Spec.asRow x := by
  funext j
  refine shapeCast_apply x h j (ix1 (j 1)) ?_
  rw [Shape.rowMajor_val_one, Shape.rowMajor_val_two]
  have h0 : (j 0).val = 0 := by
    have hlt : (j 0).val < 1 := (j 0).isLt
    omega
  show (j 1).val = (j 0).val * n + (j 1).val
  rw [h0]
  omega

section
variable (m : (ℓ : Loc nD τ sig) → Buf (Elt Ideal) ℓ) (c : Dev nD)

/-! ## What the first launch is handed

The first stretch of host operations writes none of the arguments; each weight it transposes and changes in format,
each bias it lays out as a row. -/

/-- The input array is as launched. -/
theorem E1_arg0 : E1 m c main_arg0 = (m ((c.tc : Thread nD τ).loc main_arg0)) :=
  StableHlo.after_of_writes_sub hostOps0 (B0 m c) hostOps0_writes (by decide)

/-- `main_v1` is argument 1 transposed. -/
theorem E1_v1 : (E1 m c main_v1 : Spec.Tab 1024 128) = Spec.tr (m ((c.tc : Thread nD τ).loc main_arg1)) := by
  show StableHlo.after hostOps0 (B0 m c) (Proc.devRef .tc main_v1) = _
  after_results
  exact relay_weight (m ((c.tc : Thread nD τ).loc main_arg1)) _ _

/-- `main_v3` is argument 3 transposed. -/
theorem E1_v3 : (E1 m c main_v3 : Spec.Tab 1024 128) = Spec.tr (m ((c.tc : Thread nD τ).loc main_arg3)) := by
  show StableHlo.after hostOps0 (B0 m c) (Proc.devRef .tc main_v3) = _
  after_results
  exact relay_weight (m ((c.tc : Thread nD τ).loc main_arg3)) _ _

/-- `main_v5` is argument 5 transposed. -/
theorem E1_v5 : (E1 m c main_v5 : Spec.Tab 1024 128) = Spec.tr (m ((c.tc : Thread nD τ).loc main_arg5)) := by
  show StableHlo.after hostOps0 (B0 m c) (Proc.devRef .tc main_v5) = _
  after_results
  exact relay_weight (m ((c.tc : Thread nD τ).loc main_arg5)) _ _

/-- `main_v7` is argument 7 transposed. -/
theorem E1_v7 : (E1 m c main_v7 : Spec.Tab 128 1024) = Spec.tr (m ((c.tc : Thread nD τ).loc main_arg7)) := by
  show StableHlo.after hostOps0 (B0 m c) (Proc.devRef .tc main_v7) = _
  after_results
  exact relay_weight (m ((c.tc : Thread nD τ).loc main_arg7)) _ _

/-- `main_v9` is argument 9 transposed. -/
theorem E1_v9 : (E1 m c main_v9 : Spec.Tab 1024 4096) = Spec.tr (m ((c.tc : Thread nD τ).loc main_arg9)) := by
  show StableHlo.after hostOps0 (B0 m c) (Proc.devRef .tc main_v9) = _
  after_results
  exact relay_weight (m ((c.tc : Thread nD τ).loc main_arg9)) _ _

/-- `main_v11` is argument 11 transposed. -/
theorem E1_v11 : (E1 m c main_v11 : Spec.Tab 4096 1024) = Spec.tr (m ((c.tc : Thread nD τ).loc main_arg11)) := by
  show StableHlo.after hostOps0 (B0 m c) (Proc.devRef .tc main_v11) = _
  after_results
  exact relay_weight (m ((c.tc : Thread nD τ).loc main_arg11)) _ _

/-- `main_v12` is argument 2 as a row. -/
theorem E1_v12 : (E1 m c main_v12 : Spec.Tab 1 128) = Spec.asRow (m ((c.tc : Thread nD τ).loc main_arg2)) := by
  show StableHlo.after hostOps0 (B0 m c) (Proc.devRef .tc main_v12) = _
  after_results
  exact relay_bias (m ((c.tc : Thread nD τ).loc main_arg2)) _

/-- `main_v13` is argument 4 as a row. -/
theorem E1_v13 : (E1 m c main_v13 : Spec.Tab 1 128) = Spec.asRow (m ((c.tc : Thread nD τ).loc main_arg4)) := by
  show StableHlo.after hostOps0 (B0 m c) (Proc.devRef .tc main_v13) = _
  after_results
  exact relay_bias (m ((c.tc : Thread nD τ).loc main_arg4)) _

/-- `main_v14` is argument 6 as a row. -/
theorem E1_v14 : (E1 m c main_v14 : Spec.Tab 1 128) = Spec.asRow (m ((c.tc : Thread nD τ).loc main_arg6)) := by
  show StableHlo.after hostOps0 (B0 m c) (Proc.devRef .tc main_v14) = _
  after_results
  exact relay_bias (m ((c.tc : Thread nD τ).loc main_arg6)) _

/-- `main_v15` is argument 8 as a row. -/
theorem E1_v15 : (E1 m c main_v15 : Spec.Tab 1 1024) = Spec.asRow (m ((c.tc : Thread nD τ).loc main_arg8)) := by
  show StableHlo.after hostOps0 (B0 m c) (Proc.devRef .tc main_v15) = _
  after_results
  exact relay_bias (m ((c.tc : Thread nD τ).loc main_arg8)) _

/-- `main_v16` is argument 10 as a row. -/
theorem E1_v16 : (E1 m c main_v16 : Spec.Tab 1 4096) = Spec.asRow (m ((c.tc : Thread nD τ).loc main_arg10)) := by
  show StableHlo.after hostOps0 (B0 m c) (Proc.devRef .tc main_v16) = _
  after_results
  exact relay_bias (m ((c.tc : Thread nD τ).loc main_arg10)) _

/-- `main_v17` is argument 12 as a row. -/
theorem E1_v17 : (E1 m c main_v17 : Spec.Tab 1 1024) = Spec.asRow (m ((c.tc : Thread nD τ).loc main_arg12)) := by
  show StableHlo.after hostOps0 (B0 m c) (Proc.devRef .tc main_v17) = _
  after_results
  exact relay_bias (m ((c.tc : Thread nD τ).loc main_arg12)) _

/-! ## What the second launch is handed

The one host operation between the launches writes `main_v19` only, and the first launch only its output array
`main_v18`; every other array is as the first launch found it. -/

/-- An array that the second stretch does not write and that is no window's array of the first launch is, at the second
    launch's entry, as it was at the first's. -/
theorem E3_of_E1 (b : Ref sig .tc) (h1 : b ∉ (hostOps1_W : List (Ref sig .tc))) (hs : ∀ w, Pipeline.arrRef spec0 w ≠ b) :
    E3 m c b = E1 m c b :=
  (StableHlo.after_of_writes_sub hostOps1 (B2 m c) hostOps1_writes h1).trans (B2_of_ne m c b hs)

/-- The input array is an input window's array of the first launch, which leaves it as found. -/
theorem E3_arg0 : E3 m c main_arg0 = (m ((c.tc : Thread nD τ).loc main_arg0)) :=
  calc E3 m c main_arg0
    _ = B2 m c (Proc.devRef .tc main_arg0) := StableHlo.after_of_writes_sub hostOps1 (B2 m c) hostOps1_writes (by decide)
    _ = E1 m c main_arg0 := (B2_arr m c 0).trans (((dat0 (E1 m) c).arrAt_in 0 rfl _).trans (A_eq0 (E1 m) c 0))
    _ = (m ((c.tc : Thread nD τ).loc main_arg0)) := E1_arg0 m c

theorem E3_v1 : (E3 m c main_v1 : Spec.Tab 1024 128) = Spec.tr (m ((c.tc : Thread nD τ).loc main_arg1)) :=
  (E3_of_E1 m c main_v1 (by decide) (by decide)).trans (E1_v1 m c)

theorem E3_v7 : (E3 m c main_v7 : Spec.Tab 128 1024) = Spec.tr (m ((c.tc : Thread nD τ).loc main_arg7)) :=
  (E3_of_E1 m c main_v7 (by decide) (by decide)).trans (E1_v7 m c)

theorem E3_v9 : (E3 m c main_v9 : Spec.Tab 1024 4096) = Spec.tr (m ((c.tc : Thread nD τ).loc main_arg9)) :=
  (E3_of_E1 m c main_v9 (by decide) (by decide)).trans (E1_v9 m c)

theorem E3_v11 : (E3 m c main_v11 : Spec.Tab 4096 1024) = Spec.tr (m ((c.tc : Thread nD τ).loc main_arg11)) :=
  (E3_of_E1 m c main_v11 (by decide) (by decide)).trans (E1_v11 m c)

theorem E3_v12 : (E3 m c main_v12 : Spec.Tab 1 128) = Spec.asRow (m ((c.tc : Thread nD τ).loc main_arg2)) :=
  (E3_of_E1 m c main_v12 (by decide) (by decide)).trans (E1_v12 m c)

theorem E3_v15 : (E3 m c main_v15 : Spec.Tab 1 1024) = Spec.asRow (m ((c.tc : Thread nD τ).loc main_arg8)) :=
  (E3_of_E1 m c main_v15 (by decide) (by decide)).trans (E1_v15 m c)

theorem E3_v16 : (E3 m c main_v16 : Spec.Tab 1 4096) = Spec.asRow (m ((c.tc : Thread nD τ).loc main_arg10)) :=
  (E3_of_E1 m c main_v16 (by decide) (by decide)).trans (E1_v16 m c)

theorem E3_v17 : (E3 m c main_v17 : Spec.Tab 1 1024) = Spec.asRow (m ((c.tc : Thread nD τ).loc main_arg12)) :=
  (E3_of_E1 m c main_v17 (by decide) (by decide)).trans (E1_v17 m c)

/-- The 128 × 128 table is the first launch's output, changed in format only. -/
theorem E3_v19 : (E3 m c main_v19 : Spec.Tab 128 128)
    = Spec.KVk (m ((c.tc : Thread nD τ).loc main_arg0)) (Spec.tr (m ((c.tc : Thread nD τ).loc main_arg3))) (Spec.asRow (m ((c.tc : Thread nD τ).loc main_arg4))) (Spec.tr (m ((c.tc : Thread nD τ).loc main_arg5))) (Spec.asRow (m ((c.tc : Thread nD τ).loc main_arg6))) := by
  show StableHlo.after hostOps1 (B2 m c) (Proc.devRef .tc main_v19) = _
  after_results
  show (B2 m c (Proc.devRef .tc (Pipeline.arrRef spec0 5)) : Spec.Tab 128 128) = _
  rw [B2_arr m c 5, kv_value (E1 m) c, E1_arg0 m c, E1_v3 m c, E1_v13 m c, E1_v5 m c, E1_v14 m c]

end

/-- The second launch's output array after the run is the specification's kernel-side function of the arguments. -/
theorem kernel_value (m : (ℓ : Loc nD τ sig) → Buf (Elt Ideal) ℓ) (c : Dev nD) :
    ((dat1 (F := Ideal) (E3 m) c).arrAt 10 cfg1.N : Spec.Tab 8192 1024)
      = Spec.Gk (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
          (m ((c.tc : Thread nD τ).loc main_arg10))
          (m ((c.tc : Thread nD τ).loc main_arg11))
          (m ((c.tc : Thread nD τ).loc main_arg12)) := by
  rw [y_value (E3 m) c]
  unfold Spec.Gk
  rw [E3_arg0 m c, E3_v1 m c, E3_v12 m c, E3_v19 m c, E3_v7 m c, E3_v15 m c, E3_v9 m c, E3_v16 m c, E3_v11 m c, E3_v17 m c]

end Cert.KernelIdeal.Hand

end
-- ==== Proof.RefSide.lean ====
/-
  The reference program's result as a function of its thirteen arguments, over the extended reals: its 38 host
  operations read one stage at a time, each matrix product as a plain sum over its contracted index, each bias as a
  row repeated down the table, the cut-off at zero as a maximum.
-/
import proofs.«180284_j56100862820442_1_alg».proof.Proof.Gen.ReferenceIdeal.Run
import proofs.«180284_j56100862820442_1_alg».proof.Proof.Gen.ReferenceIdeal.Read
import proofs.«180284_j56100862820442_1_alg».proof.Proof.Spec
import Idealize.ShloMosaic.PureOps.Ideal.Laws
import Idealize.ShloMosaic.Lib.ValueIdx
import Idealize.ShloMosaic.Lib.Pipeline.Value

set_option maxRecDepth 16384

noncomputable section

namespace Cert.RefSide

open Idealize.ShloMosaic Idealize.ShloMosaic.TcCoe Idealize.SL.Sem Idealize.ShloMosaic.ValueIdx
open Cert.ReferenceIdeal

/-- An array of the given shape over the extended reals, as the stages take their arguments. -/
private abbrev Arr (S : Shape) : Type := (⟨S, .f32⟩ : BufTy).Contents (Elt Ideal)

/-! ## The three projections

Each is the input times the transposed weight plus the bias row: at (i, d) the sum over l of x (i, l) · W (d, l), plus b d. -/

private theorem e_v0 (k : Fin 1024) (d : Fin 128) : Read.idx_main_v0 (ix2 k d) = ix2 d k :=
  funext fun a => Fin.ext (by match a with | ⟨0, _⟩ => rfl | ⟨1, _⟩ => rfl)
private theorem e_l1 (i : Fin 8192) (d : Fin 128) (k : Fin 1024) : Read.lidx_main_v1 (ix2 i d) k = ix2 i k :=
  funext fun a => Fin.ext (by match a with | ⟨0, _⟩ => rfl | ⟨1, _⟩ => rfl)
private theorem e_r1 (i : Fin 8192) (d : Fin 128) (k : Fin 1024) : Read.ridx_main_v1 (ix2 i d) k = ix2 k d :=
  funext fun a => Fin.ext (by match a with | ⟨0, _⟩ => rfl | ⟨1, _⟩ => rfl)
private theorem e_b3 (i : Fin 8192) (d : Fin 128) : Read.idx_main_v2 (Read.idx_main_v3 (ix2 i d)) = ix1 d :=
  funext fun a => Fin.ext (by match a with | ⟨0, _⟩ => rfl)

/-- Q at (i, d). -/
private theorem q_at (x : Arr S8192x1024) (W : Arr S128x1024) (b : Arr S128) (i : Fin 8192) (d : Fin 128) :
    Read.val_main_v4 (F := Ideal) x W b (ix2 i d) = Spec.proj x W b i d := by
  rw [Read.val_main_v4_apply, Read.val_main_v1_apply, Read.val_main_v3_apply, Read.val_main_v2_apply]
  simp only [Read.val_main_v0_apply, e_v0, e_l1, e_r1, e_b3, Ideal.addf_def]
  rfl

private theorem e_v5 (k : Fin 1024) (d : Fin 128) : Read.idx_main_v5 (ix2 k d) = ix2 d k :=
  funext fun a => Fin.ext (by match a with | ⟨0, _⟩ => rfl | ⟨1, _⟩ => rfl)
private theorem e_l6 (i : Fin 8192) (d : Fin 128) (k : Fin 1024) : Read.lidx_main_v6 (ix2 i d) k = ix2 i k :=
  funext fun a => Fin.ext (by match a with | ⟨0, _⟩ => rfl | ⟨1, _⟩ => rfl)
private theorem e_r6 (i : Fin 8192) (d : Fin 128) (k : Fin 1024) : Read.ridx_main_v6 (ix2 i d) k = ix2 k d :=
  funext fun a => Fin.ext (by match a with | ⟨0, _⟩ => rfl | ⟨1, _⟩ => rfl)
private theorem e_b8 (i : Fin 8192) (d : Fin 128) : Read.idx_main_v7 (Read.idx_main_v8 (ix2 i d)) = ix1 d :=
  funext fun a => Fin.ext (by match a with | ⟨0, _⟩ => rfl)

/-- K at (j, d). -/
private theorem k_at (x : Arr S8192x1024) (W : Arr S128x1024) (b : Arr S128) (i : Fin 8192) (d : Fin 128) :
    Read.val_main_v9 (F := Ideal) x W b (ix2 i d) = Spec.proj x W b i d := by
  rw [Read.val_main_v9_apply, Read.val_main_v6_apply, Read.val_main_v8_apply, Read.val_main_v7_apply]
  simp only [Read.val_main_v5_apply, e_v5, e_l6, e_r6, e_b8, Ideal.addf_def]
  rfl

private theorem e_v10 (k : Fin 1024) (d : Fin 128) : Read.idx_main_v10 (ix2 k d) = ix2 d k :=
  funext fun a => Fin.ext (by match a with | ⟨0, _⟩ => rfl | ⟨1, _⟩ => rfl)
private theorem e_l11 (i : Fin 8192) (d : Fin 128) (k : Fin 1024) : Read.lidx_main_v11 (ix2 i d) k = ix2 i k :=
  funext fun a => Fin.ext (by match a with | ⟨0, _⟩ => rfl | ⟨1, _⟩ => rfl)
private theorem e_r11 (i : Fin 8192) (d : Fin 128) (k : Fin 1024) : Read.ridx_main_v11 (ix2 i d) k = ix2 k d :=
  funext fun a => Fin.ext (by match a with | ⟨0, _⟩ => rfl | ⟨1, _⟩ => rfl)
private theorem e_b13 (i : Fin 8192) (d : Fin 128) : Read.idx_main_v12 (Read.idx_main_v13 (ix2 i d)) = ix1 d :=
  funext fun a => Fin.ext (by match a with | ⟨0, _⟩ => rfl)

/-- V at (j, e). -/
private theorem v_at (x : Arr S8192x1024) (W : Arr S128x1024) (b : Arr S128) (i : Fin 8192) (d : Fin 128) :
    Read.val_main_v14 (F := Ideal) x W b (ix2 i d) = Spec.proj x W b i d := by
  rw [Read.val_main_v14_apply, Read.val_main_v11_apply, Read.val_main_v13_apply, Read.val_main_v12_apply]
  simp only [Read.val_main_v10_apply, e_v10, e_l11, e_r11, e_b13, Ideal.addf_def]
  rfl

/-! ## The context (Q Kᵀ) V -/

private theorem e_v15 (d : Fin 128) (j : Fin 8192) : Read.idx_main_v15 (ix2 d j) = ix2 j d :=
  funext fun a => Fin.ext (by match a with | ⟨0, _⟩ => rfl | ⟨1, _⟩ => rfl)
private theorem e_l16 (i j : Fin 8192) (k : Fin 128) : Read.lidx_main_v16 (ix2 i j) k = ix2 i k :=
  funext fun a => Fin.ext (by match a with | ⟨0, _⟩ => rfl | ⟨1, _⟩ => rfl)
private theorem e_r16 (i j : Fin 8192) (k : Fin 128) : Read.ridx_main_v16 (ix2 i j) k = ix2 k j :=
  funext fun a => Fin.ext (by match a with | ⟨0, _⟩ => rfl | ⟨1, _⟩ => rfl)

/-- Q Kᵀ at (i, j): the sum over d of Q (i, d) · K (j, d). -/
private theorem qk_at (x0 : Arr S8192x1024) (x1 : Arr S128x1024) (x2 : Arr S128) (x3 : Arr S128x1024) (x4 : Arr S128)
    (i j : Fin 8192) :
    Read.val_main_v16 (F := Ideal) x0 x1 x2 x3 x4 (ix2 i j)
      = ∑ d : Fin 128, Spec.proj x0 x1 x2 i d * Spec.proj x0 x3 x4 j d := by
  rw [Read.val_main_v16_apply]
  simp only [Read.val_main_v15_apply, e_l16, e_r16, e_v15, q_at, k_at]

private theorem e_l17 (i : Fin 8192) (e : Fin 128) (k : Fin 8192) : Read.lidx_main_v17 (ix2 i e) k = ix2 i k :=
  funext fun a => Fin.ext (by match a with | ⟨0, _⟩ => rfl | ⟨1, _⟩ => rfl)
private theorem e_r17 (i : Fin 8192) (e : Fin 128) (k : Fin 8192) : Read.ridx_main_v17 (ix2 i e) k = ix2 k e :=
  funext fun a => Fin.ext (by match a with | ⟨0, _⟩ => rfl | ⟨1, _⟩ => rfl)

/-- (Q Kᵀ) V at (i, e): the sum over all 8192 rows j of (Q Kᵀ) (i, j) · V (j, e). -/
private theorem ctx_at (x0 : Arr S8192x1024) (x1 : Arr S128x1024) (x2 : Arr S128) (x3 : Arr S128x1024) (x4 : Arr S128)
    (x5 : Arr S128x1024) (x6 : Arr S128) (i : Fin 8192) (e : Fin 128) :
    Read.val_main_v17 (F := Ideal) x0 x1 x2 x3 x4 x5 x6 (ix2 i e)
      = ∑ j : Fin 8192, (∑ d : Fin 128, Spec.proj x0 x1 x2 i d * Spec.proj x0 x3 x4 j d) * Spec.proj x0 x5 x6 j e := by
  rw [Read.val_main_v17_apply]
  simp only [e_l17, e_r17, qk_at, v_at]

/-! ## The output projection and the first residual -/

private theorem e_v18 (e : Fin 128) (n : Fin 1024) : Read.idx_main_v18 (ix2 e n) = ix2 n e :=
  funext fun a => Fin.ext (by match a with | ⟨0, _⟩ => rfl | ⟨1, _⟩ => rfl)
private theorem e_l19 (i : Fin 8192) (n : Fin 1024) (k : Fin 128) : Read.lidx_main_v19 (ix2 i n) k = ix2 i k :=
  funext fun a => Fin.ext (by match a with | ⟨0, _⟩ => rfl | ⟨1, _⟩ => rfl)
private theorem e_r19 (i : Fin 8192) (n : Fin 1024) (k : Fin 128) : Read.ridx_main_v19 (ix2 i n) k = ix2 k n :=
  funext fun a => Fin.ext (by match a with | ⟨0, _⟩ => rfl | ⟨1, _⟩ => rfl)
private theorem e_b21 (i : Fin 8192) (n : Fin 1024) : Read.idx_main_v20 (Read.idx_main_v21 (ix2 i n)) = ix1 n :=
  funext fun a => Fin.ext (by match a with | ⟨0, _⟩ => rfl)

/-- The first residual at (i, n): x plus the context times the transposed output weight plus its bias. -/
private theorem x1_at (x0 : Arr S8192x1024) (x1 : Arr S128x1024) (x2 : Arr S128) (x3 : Arr S128x1024) (x4 : Arr S128)
    (x5 : Arr S128x1024) (x6 : Arr S128) (x7 : Arr S1024x128) (x8 : Arr S1024) (i : Fin 8192) (n : Fin 1024) :
    Read.val_main_v23 (F := Ideal) x0 x1 x2 x3 x4 x5 x6 x7 x8 (ix2 i n)
      = Spec.x1r x0 x1 x2 x3 x4 x5 x6 x7 x8 i n := by
  rw [Read.val_main_v23_apply, Read.val_main_v22_apply, Read.val_main_v19_apply, Read.val_main_v21_apply,
    Read.val_main_v20_apply]
  simp only [Read.val_main_v18_apply, e_l19, e_r19, e_v18, e_b21, ctx_at, Ideal.addf_def]
  rfl

/-! ## The wide layer, cut off below at zero -/

private theorem e_v24 (l : Fin 1024) (f : Fin 4096) : Read.idx_main_v24 (ix2 l f) = ix2 f l :=
  funext fun a => Fin.ext (by match a with | ⟨0, _⟩ => rfl | ⟨1, _⟩ => rfl)
private theorem e_l25 (i : Fin 8192) (f : Fin 4096) (k : Fin 1024) : Read.lidx_main_v25 (ix2 i f) k = ix2 i k :=
  funext fun a => Fin.ext (by match a with | ⟨0, _⟩ => rfl | ⟨1, _⟩ => rfl)
private theorem e_r25 (i : Fin 8192) (f : Fin 4096) (k : Fin 1024) : Read.ridx_main_v25 (ix2 i f) k = ix2 k f :=
  funext fun a => Fin.ext (by match a with | ⟨0, _⟩ => rfl | ⟨1, _⟩ => rfl)
private theorem e_b27 (i : Fin 8192) (f : Fin 4096) : Read.idx_main_v26 (Read.idx_main_v27 (ix2 i f)) = ix1 f :=
  funext fun a => Fin.ext (by match a with | ⟨0, _⟩ => rfl)

/-- The wide layer at (i, f): the larger of zero and the first residual's row i times column f of the transposed
    weight plus the bias. -/
private theorem h_at (x0 : Arr S8192x1024) (x1 : Arr S128x1024) (x2 : Arr S128) (x3 : Arr S128x1024) (x4 : Arr S128)
    (x5 : Arr S128x1024) (x6 : Arr S128) (x7 : Arr S1024x128) (x8 : Arr S1024) (x9 : Arr S4096x1024) (x10 : Arr S4096)
    (i : Fin 8192) (f : Fin 4096) :
    Read.val_main_v29 (F := Ideal) x0 x1 x2 x3 x4 x5 x6 x7 x8 x9 x10 (ix2 i f)
      = max ((∑ l : Fin 1024, Spec.x1r x0 x1 x2 x3 x4 x5 x6 x7 x8 i l * x9 (ix2 f l)) + x10 (ix1 f)) 0 := by
  rw [Read.val_main_v29_apply, Read.val_main_v28_apply, Read.val_main_v25_apply, Read.val_main_v27_apply,
    Read.val_main_v26_apply, Read.val_main_call0_v0_apply, Read.val_main_call0_cst_apply]
  simp only [Read.val_main_v24_apply, e_l25, e_r25, e_v24, e_b27, x1_at, Ideal.addf_def, Ideal.maximumf_def,
    Ideal.ofBits_def, Ideal.ofBits_zero_f32]

/-! ## The projection back and the second residual -/

private theorem e_v30 (f : Fin 4096) (n : Fin 1024) : Read.idx_main_v30 (ix2 f n) = ix2 n f :=
  funext fun a => Fin.ext (by match a with | ⟨0, _⟩ => rfl | ⟨1, _⟩ => rfl)
private theorem e_l31 (i : Fin 8192) (n : Fin 1024) (k : Fin 4096) : Read.lidx_main_v31 (ix2 i n) k = ix2 i k :=
  funext fun a => Fin.ext (by match a with | ⟨0, _⟩ => rfl | ⟨1, _⟩ => rfl)
private theorem e_r31 (i : Fin 8192) (n : Fin 1024) (k : Fin 4096) : Read.ridx_main_v31 (ix2 i n) k = ix2 k n :=
  funext fun a => Fin.ext (by match a with | ⟨0, _⟩ => rfl | ⟨1, _⟩ => rfl)
private theorem e_b33 (i : Fin 8192) (n : Fin 1024) : Read.idx_main_v32 (Read.idx_main_v33 (ix2 i n)) = ix1 n :=
  funext fun a => Fin.ext (by match a with | ⟨0, _⟩ => rfl)

/-- The result at (i, n). -/
private theorem out_at (x0 : Arr S8192x1024) (x1 : Arr S128x1024) (x2 : Arr S128) (x3 : Arr S128x1024) (x4 : Arr S128)
    (x5 : Arr S128x1024) (x6 : Arr S128) (x7 : Arr S1024x128) (x8 : Arr S1024) (x9 : Arr S4096x1024) (x10 : Arr S4096)
    (x11 : Arr S1024x4096) (x12 : Arr S1024) (i : Fin 8192) (n : Fin 1024) :
    Read.val_main_v35 (F := Ideal) x0 x1 x2 x3 x4 x5 x6 x7 x8 x9 x10 x11 x12 (ix2 i n)
      = Spec.Gr x0 x1 x2 x3 x4 x5 x6 x7 x8 x9 x10 x11 x12 (ix2 i n) := by
  rw [Read.val_main_v35_apply, Read.val_main_v34_apply, Read.val_main_v31_apply, Read.val_main_v33_apply,
    Read.val_main_v32_apply]
  simp only [Read.val_main_v30_apply, e_l31, e_r31, e_v30, e_b33, x1_at, h_at, Ideal.addf_def]
  rfl

/-- The reference run's result term is the specification's function of the arguments. -/
theorem ref_value (m : (ℓ : Loc Cert.ReferenceIdeal.nD Cert.ReferenceIdeal.τ Cert.ReferenceIdeal.sig) → Buf (Elt Ideal) ℓ) (c : Dev Cert.ReferenceIdeal.nD) :
    (Cert.ReferenceIdeal.Value.res_out0 (F := Ideal) m c : Spec.Tab 8192 1024)
      = Spec.Gr (m ((c.tc : Thread Cert.ReferenceIdeal.nD Cert.ReferenceIdeal.τ).loc Cert.ReferenceIdeal.main_arg0))
          (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg2))
          (m ((c.tc : Thread Cert.ReferenceIdeal.nD Cert.ReferenceIdeal.τ).loc Cert.ReferenceIdeal.main_arg3))
          (m ((c.tc : Thread Cert.ReferenceIdeal.nD Cert.ReferenceIdeal.τ).loc Cert.ReferenceIdeal.main_arg4))
          (m ((c.tc : Thread Cert.ReferenceIdeal.nD Cert.ReferenceIdeal.τ).loc Cert.ReferenceIdeal.main_arg5))
          (m ((c.tc : Thread Cert.ReferenceIdeal.nD Cert.ReferenceIdeal.τ).loc Cert.ReferenceIdeal.main_arg6))
          (m ((c.tc : Thread Cert.ReferenceIdeal.nD Cert.ReferenceIdeal.τ).loc Cert.ReferenceIdeal.main_arg7))
          (m ((c.tc : Thread Cert.ReferenceIdeal.nD Cert.ReferenceIdeal.τ).loc Cert.ReferenceIdeal.main_arg8))
          (m ((c.tc : Thread Cert.ReferenceIdeal.nD Cert.ReferenceIdeal.τ).loc Cert.ReferenceIdeal.main_arg9))
          (m ((c.tc : Thread Cert.ReferenceIdeal.nD Cert.ReferenceIdeal.τ).loc Cert.ReferenceIdeal.main_arg10))
          (m ((c.tc : Thread Cert.ReferenceIdeal.nD Cert.ReferenceIdeal.τ).loc Cert.ReferenceIdeal.main_arg11))
          (m ((c.tc : Thread Cert.ReferenceIdeal.nD Cert.ReferenceIdeal.τ).loc Cert.ReferenceIdeal.main_arg12)) := by
  refine (Read.val_main_v35_eq (F := Ideal) m c).trans ?_
  funext j
  obtain ⟨a, b, rfl⟩ : ∃ (a : Fin 8192) (b : Fin 1024), j = ix2 a b := ⟨j 0, j 1, eq_ix2 j⟩
  exact out_at _ _ _ _ _ _ _ _ _ _ _ _ _ a b

end Cert.RefSide

end
-- ==== Proof.LibFiniteOps.lean ====
/-
  Extended reals that are real numbers, and the operations that keep them so.

  At the ideal float instance a float is an extended real. A vector is "all real" when each of its entries is
  the image of a real number; this file shows that each operation a host program or a kernel body applies
  entrywise, by re-indexing, or by a finite sum keeps that property, under the side conditions division and
  the reciprocal square root need (a nonzero, respectively positive, real operand). It also records the sign
  facts those side conditions are discharged from: sums of nonnegative reals are nonnegative, a square is
  nonnegative, a nonnegative real plus a positive one is positive. Last, a finiteness precondition (every entry's
  absolute value below positive infinity) is read back as: the vector is all real.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.ReduceAll

noncomputable section

namespace Idealize.ShloMosaic.FiniteOps

open Idealize.ShloMosaic
open scoped BigOperators

/-! ### One extended real -/

/-- An extended real that is (the image of) a real number. -/
def IsReal (a : EReal) : Prop := ∃ x : ℝ, a = (x : EReal)
/-- … that is a nonnegative real number. -/
def IsNonneg (a : EReal) : Prop := ∃ x : ℝ, 0 ≤ x ∧ a = (x : EReal)
/-- … that is a positive real number. -/
def IsPos (a : EReal) : Prop := ∃ x : ℝ, 0 < x ∧ a = (x : EReal)

theorem IsReal.coe (x : ℝ) : IsReal (x : EReal) := ⟨x, rfl⟩
theorem IsNonneg.isReal {a : EReal} (h : IsNonneg a) : IsReal a := let ⟨x, _, e⟩ := h; ⟨x, e⟩
theorem IsPos.isNonneg {a : EReal} (h : IsPos a) : IsNonneg a := let ⟨x, hx, e⟩ := h; ⟨x, hx.le, e⟩
theorem IsPos.isReal {a : EReal} (h : IsPos a) : IsReal a := h.isNonneg.isReal

/-- Being real is being neither infinity. -/
theorem isReal_iff {a : EReal} : IsReal a ↔ a ≠ ⊤ ∧ a ≠ ⊥ :=
  ⟨fun ⟨x, e⟩ => e ▸ ⟨EReal.coe_ne_top x, EReal.coe_ne_bot x⟩, fun ⟨h1, h2⟩ => ⟨a.toReal, (EReal.coe_toReal h1 h2).symm⟩⟩

/-- A nonnegative real is a real that is at least zero in the order of the extended reals. -/
theorem isNonneg_iff {a : EReal} : IsNonneg a ↔ IsReal a ∧ 0 ≤ a :=
  ⟨fun ⟨x, hx, e⟩ => ⟨⟨x, e⟩, e ▸ EReal.coe_nonneg.2 hx⟩, fun ⟨⟨x, e⟩, h⟩ => ⟨x, EReal.coe_nonneg.1 (e ▸ h), e⟩⟩

/-- A positive real is a real that is above zero in the order of the extended reals. -/
theorem isPos_iff {a : EReal} : IsPos a ↔ IsReal a ∧ 0 < a :=
  ⟨fun ⟨x, hx, e⟩ => ⟨⟨x, e⟩, e ▸ EReal.coe_pos.2 hx⟩, fun ⟨⟨x, e⟩, h⟩ => ⟨x, EReal.coe_pos.1 (e ▸ h), e⟩⟩

theorem IsPos.ne_zero {a : EReal} (h : IsPos a) : a ≠ 0 := by
  obtain ⟨x, hx, rfl⟩ := h; exact EReal.coe_ne_zero.2 hx.ne'

theorem isReal_zero : IsReal 0 := ⟨0, rfl⟩
theorem isNonneg_zero : IsNonneg 0 := ⟨0, le_rfl, rfl⟩
theorem isPos_one : IsPos 1 := ⟨1, one_pos, rfl⟩

theorem IsReal.add {a b : EReal} (ha : IsReal a) (hb : IsReal b) : IsReal (a + b) := by
  obtain ⟨x, rfl⟩ := ha; obtain ⟨y, rfl⟩ := hb; exact ⟨x + y, (EReal.coe_add x y).symm⟩
theorem IsReal.sub {a b : EReal} (ha : IsReal a) (hb : IsReal b) : IsReal (a - b) := by
  obtain ⟨x, rfl⟩ := ha; obtain ⟨y, rfl⟩ := hb; exact ⟨x - y, (EReal.coe_sub x y).symm⟩
theorem IsReal.mul {a b : EReal} (ha : IsReal a) (hb : IsReal b) : IsReal (a * b) := by
  obtain ⟨x, rfl⟩ := ha; obtain ⟨y, rfl⟩ := hb; exact ⟨x * y, (EReal.coe_mul x y).symm⟩
theorem IsReal.max {a b : EReal} (ha : IsReal a) (hb : IsReal b) : IsReal (Max.max a b) := by
  rcases le_total a b with h | h
  · rw [show Max.max a b = b from max_eq_right h]; exact hb
  · rw [show Max.max a b = a from max_eq_left h]; exact ha

theorem IsNonneg.add {a b : EReal} (ha : IsNonneg a) (hb : IsNonneg b) : IsNonneg (a + b) := by
  obtain ⟨x, hx, rfl⟩ := ha; obtain ⟨y, hy, rfl⟩ := hb; exact ⟨x + y, add_nonneg hx hy, (EReal.coe_add x y).symm⟩
theorem IsNonneg.mul {a b : EReal} (ha : IsNonneg a) (hb : IsNonneg b) : IsNonneg (a * b) := by
  obtain ⟨x, hx, rfl⟩ := ha; obtain ⟨y, hy, rfl⟩ := hb; exact ⟨x * y, mul_nonneg hx hy, (EReal.coe_mul x y).symm⟩
/-- A nonnegative real plus a positive real is positive. -/
theorem IsNonneg.add_pos {a b : EReal} (ha : IsNonneg a) (hb : IsPos b) : IsPos (a + b) := by
  obtain ⟨x, hx, rfl⟩ := ha; obtain ⟨y, hy, rfl⟩ := hb
  exact ⟨x + y, add_pos_of_nonneg_of_pos hx hy, (EReal.coe_add x y).symm⟩
theorem IsPos.mul {a b : EReal} (ha : IsPos a) (hb : IsPos b) : IsPos (a * b) := by
  obtain ⟨x, hx, rfl⟩ := ha; obtain ⟨y, hy, rfl⟩ := hb; exact ⟨x * y, mul_pos hx hy, (EReal.coe_mul x y).symm⟩
/-- The square of a real is a nonnegative real. -/
theorem IsReal.mul_self_nonneg {a : EReal} (ha : IsReal a) : IsNonneg (a * a) := by
  obtain ⟨x, rfl⟩ := ha; exact ⟨x * x, _root_.mul_self_nonneg x, (EReal.coe_mul x x).symm⟩
/-- The larger of a real and a nonnegative real is a nonnegative real (a rectifier's output). -/
theorem IsReal.max_nonneg {a b : EReal} (ha : IsReal a) (hb : IsNonneg b) : IsNonneg (Max.max a b) := by
  rcases le_total a b with h | h
  · rw [show Max.max a b = b from max_eq_right h]; exact hb
  · rw [show Max.max a b = a from max_eq_left h]
    obtain ⟨y, hy, rfl⟩ := hb
    exact isNonneg_iff.2 ⟨ha, le_trans (EReal.coe_nonneg.2 hy) h⟩

/-- A finite sum of reals is real. -/
theorem IsReal.sum {ι : Type} (s : Finset ι) (f : ι → EReal) (h : ∀ i ∈ s, IsReal (f i)) : IsReal (∑ i ∈ s, f i) :=
  Finset.sum_induction f IsReal (fun _ _ => IsReal.add) isReal_zero h
/-- A finite sum of nonnegative reals is a nonnegative real. -/
theorem IsNonneg.sum {ι : Type} (s : Finset ι) (f : ι → EReal) (h : ∀ i ∈ s, IsNonneg (f i)) : IsNonneg (∑ i ∈ s, f i) :=
  Finset.sum_induction f IsNonneg (fun _ _ => IsNonneg.add) isNonneg_zero h

/-- The quotient of a real by a nonzero real is real. -/
theorem IsReal.div {a b : EReal} (ha : IsReal a) (hb : IsReal b) (hb0 : b ≠ 0) : IsReal (Ideal.div a b) := by
  obtain ⟨y, rfl⟩ := hb
  rw [Ideal.div_coe (EReal.coe_ne_zero.1 hb0)]
  exact ha.mul (IsReal.coe _)
/-- The quotient of a nonnegative real by a positive real is a nonnegative real. -/
theorem IsNonneg.div_pos {a b : EReal} (ha : IsNonneg a) (hb : IsPos b) : IsNonneg (Ideal.div a b) := by
  obtain ⟨y, hy, rfl⟩ := hb
  rw [Ideal.div_coe hy.ne']
  exact ha.mul ⟨1 / y, by positivity, rfl⟩
/-- The quotient of a positive real by a positive real is a positive real. -/
theorem IsPos.div_pos {a b : EReal} (ha : IsPos a) (hb : IsPos b) : IsPos (Ideal.div a b) := by
  obtain ⟨y, hy, rfl⟩ := hb
  rw [Ideal.div_coe hy.ne']
  exact ha.mul ⟨1 / y, by positivity, rfl⟩

/-- The reciprocal square root of a positive real is a positive real. -/
theorem IsPos.rsqrt {a : EReal} (ha : IsPos a) : IsPos (Ideal.rsqrt a) := by
  obtain ⟨x, hx, rfl⟩ := ha
  rw [Ideal.rsqrt_coe, if_neg (not_lt.2 hx.le), if_neg hx.ne']
  exact ⟨(Real.sqrt x)⁻¹, inv_pos.2 (Real.sqrt_pos.2 hx), rfl⟩

/-! ### Vectors -/

variable {ι κ : Type}

/-- Every entry is a real number. -/
def AllReal (v : ι → EReal) : Prop := ∀ i, IsReal (v i)
/-- Every entry is a nonnegative real number. -/
def AllNonneg (v : ι → EReal) : Prop := ∀ i, IsNonneg (v i)
/-- Every entry is a positive real number. -/
def AllPos (v : ι → EReal) : Prop := ∀ i, IsPos (v i)

/-- The definition spelled out: each entry equals some real. -/
theorem allReal_def (v : ι → EReal) : AllReal v ↔ ∀ i, ∃ x : ℝ, v i = (x : EReal) := Iff.rfl
/-- The other spelling: no entry is an infinity. -/
theorem allReal_iff (v : ι → EReal) : AllReal v ↔ ∀ i, v i ≠ ⊤ ∧ v i ≠ ⊥ := forall_congr' fun _ => isReal_iff

theorem AllNonneg.allReal {v : ι → EReal} (h : AllNonneg v) : AllReal v := fun i => (h i).isReal
theorem AllPos.allNonneg {v : ι → EReal} (h : AllPos v) : AllNonneg v := fun i => (h i).isNonneg
theorem AllPos.allReal {v : ι → EReal} (h : AllPos v) : AllReal v := fun i => (h i).isReal

/-- A vector each of whose entries is an entry of an all-real vector is all real: every re-indexing. -/
theorem AllReal.comp {v : ι → EReal} (h : AllReal v) (f : κ → ι) : AllReal (fun j => v (f j)) := fun j => h (f j)
theorem AllNonneg.comp {v : ι → EReal} (h : AllNonneg v) (f : κ → ι) : AllNonneg (fun j => v (f j)) := fun j => h (f j)
theorem AllPos.comp {v : ι → EReal} (h : AllPos v) (f : κ → ι) : AllPos (fun j => v (f j)) := fun j => h (f j)

/-! ### Entrywise operations -/

section Ops
variable {s t : Shape} {φ : FTy}

theorem AllReal.addf {a b : FVec Ideal s φ} (ha : AllReal a) (hb : AllReal b) : AllReal (Idealize.ShloMosaic.addf a b) :=
  fun i => (ha i).add (hb i)
theorem AllReal.subf {a b : FVec Ideal s φ} (ha : AllReal a) (hb : AllReal b) : AllReal (Idealize.ShloMosaic.subf a b) :=
  fun i => (ha i).sub (hb i)
theorem AllReal.mulf {a b : FVec Ideal s φ} (ha : AllReal a) (hb : AllReal b) : AllReal (Idealize.ShloMosaic.mulf a b) :=
  fun i => (ha i).mul (hb i)
theorem AllReal.maximumf {a b : FVec Ideal s φ} (ha : AllReal a) (hb : AllReal b) :
    AllReal (Idealize.ShloMosaic.maximumf a b) :=
  fun i => (ha i).max (hb i)

/-- A sum of nonnegative reals, entrywise. -/
theorem AllNonneg.addf {a b : FVec Ideal s φ} (ha : AllNonneg a) (hb : AllNonneg b) :
    AllNonneg (Idealize.ShloMosaic.addf a b) :=
  fun i => (ha i).add (hb i)
/-- A nonnegative vector plus a positive one is positive: a variance plus its stabilising constant, a count plus one. -/
theorem AllNonneg.addf_pos {a b : FVec Ideal s φ} (ha : AllNonneg a) (hb : AllPos b) :
    AllPos (Idealize.ShloMosaic.addf a b) :=
  fun i => (ha i).add_pos (hb i)
/-- The entrywise square of a real vector is nonnegative. -/
theorem AllReal.mulf_self {a : FVec Ideal s φ} (ha : AllReal a) : AllNonneg (Idealize.ShloMosaic.mulf a a) :=
  fun i => (ha i).mul_self_nonneg
/-- A rectifier's output (the larger of a real and a nonnegative real, entrywise) is nonnegative. -/
theorem AllReal.maximumf_nonneg {a b : FVec Ideal s φ} (ha : AllReal a) (hb : AllNonneg b) :
    AllNonneg (Idealize.ShloMosaic.maximumf a b) :=
  fun i => (ha i).max_nonneg (hb i)

/-- The host's division by a vector of nonzero reals keeps a real vector real. -/
theorem AllReal.hostDivf {a b : FVec Ideal s φ} (ha : AllReal a) (hb : AllReal b) (hb0 : ∀ i, b i ≠ 0) :
    AllReal (Host.divf a b) :=
  fun i => (ha i).div (hb i) (hb0 i)
/-- … in particular by a vector of positive reals. -/
theorem AllReal.hostDivf_pos {a b : FVec Ideal s φ} (ha : AllReal a) (hb : AllPos b) : AllReal (Host.divf a b) :=
  ha.hostDivf hb.allReal fun i => (hb i).ne_zero
/-- A nonnegative vector divided by a positive one is nonnegative: a mean of squares. -/
theorem AllNonneg.hostDivf_pos {a b : FVec Ideal s φ} (ha : AllNonneg a) (hb : AllPos b) : AllNonneg (Host.divf a b) :=
  fun i => (ha i).div_pos (hb i)
/-- The same for the kernel's division. -/
theorem AllReal.divf {a b : FVec Ideal s φ} (ha : AllReal a) (hb : AllReal b) (hb0 : ∀ i, b i ≠ 0) :
    AllReal (Idealize.ShloMosaic.divf a b) :=
  fun i => (ha i).div (hb i) (hb0 i)

/-- The host's reciprocal square root of a vector of positive reals is a vector of positive reals. -/
theorem AllPos.hostRsqrt {a : FVec Ideal s φ} (ha : AllPos a) : AllPos (Host.rsqrt a) :=
  fun i => (ha i).rsqrt
/-- The same for the kernel's reciprocal square root. -/
theorem AllPos.rsqrt {a : FVec Ideal s φ} (ha : AllPos a) : AllPos (Idealize.ShloMosaic.rsqrt a) :=
  fun i => (ha i).rsqrt

/-- A selection between two real vectors is real, whatever the mask. -/
theorem AllReal.select {a b : FVec Ideal s φ} (c : IVec s 1) (ha : AllReal a) (hb : AllReal b) :
    AllReal (Idealize.ShloMosaic.select c a b) := fun i => by
  show IsReal (if c i = 1 then a i else b i)
  split
  · exact ha i
  · exact hb i

/-- A constant vector is real when its literal denotes a real. -/
theorem allReal_constant {b : BitVec φ.bits} (h : IsReal (Ideal.ofBits φ b)) : AllReal (constant (F := Ideal) s φ b) :=
  fun _ => h
theorem allNonneg_constant {b : BitVec φ.bits} (h : IsNonneg (Ideal.ofBits φ b)) : AllNonneg (constant (F := Ideal) s φ b) :=
  fun _ => h
theorem allPos_constant {b : BitVec φ.bits} (h : IsPos (Ideal.ofBits φ b)) : AllPos (constant (F := Ideal) s φ b) :=
  fun _ => h

end Ops

/-! ### Re-indexing operations: each entry of the result is an entry of an operand

Stated for any predicate on entries, then at the three used here. -/

section Layout
variable {s t : Shape} {α : Type} {w : Nat} (P : α → Prop)

theorem forall_broadcast (t : Shape) {x : α} (hx : P x) : ∀ j, P (broadcast t x j) := fun _ => hx
theorem forall_broadcastTo {x : s.Idx → α} (hx : ∀ k, P (x k)) (h : s.Broadcasts t) : ∀ j, P (broadcastTo t x h j) :=
  fun _ => hx _
theorem forall_broadcastInDim {x : s.Idx → α} (hx : ∀ k, P (x k)) (dims : Fin s.rank → Fin t.rank)
    (h : s.BroadcastsInDim t dims) : ∀ j, P (broadcastInDim t dims h x j) :=
  fun _ => hx _
theorem forall_shapeCast {x : s.Idx → α} (hx : ∀ k, P (x k)) (h : s.ShapeCasts t) : ∀ j, P (shapeCast t x h j) :=
  fun _ => hx _
theorem forall_extractStridedSlice {x : s.Idx → α} (hx : ∀ k, P (x k)) (off : Fin s.rank → Nat) (h : s.Slices off t) :
    ∀ j, P (extractStridedSlice t off x h j) :=
  fun _ => hx _
theorem forall_transpose {x : s.Idx → α} (hx : ∀ k, P (x k)) (perm : List (Fin s.rank)) (h : s.Transposes perm t) :
    ∀ j, P (transpose t perm x h j) :=
  fun _ => hx _
/-- A gather's entries are entries of the operand (the start indices are clamped into it). -/
theorem forall_gather {si : Shape} {x : s.Idx → α} (hx : ∀ k, P (x k)) (d : GatherDims s si t) (idx : IVec si w) :
    ∀ j, P (Host.gather d x idx j) :=
  fun _ => hx _
/-- A concatenation's entries are entries of its pieces. -/
theorem forall_concatenate (a : Fin t.rank) (xs : List ((s : Shape) × (s.Idx → α)))
    (hxs : ∀ p ∈ xs, ∀ k, P (p.2 k)) (h : Shape.Concatenates (xs.map (·.1)) t a) :
    ∀ j, P (concatenate t a xs h j) := by
  intro j
  unfold concatenate
  exact hxs _ (List.getElem_mem _) _

end Layout

section LayoutReal
variable {s t : Shape} {w : Nat}

theorem AllReal.broadcastTo {x : s.Idx → EReal} (hx : AllReal x) (h : s.Broadcasts t) :
    AllReal (Idealize.ShloMosaic.broadcastTo t x h) := forall_broadcastTo IsReal hx h
theorem AllReal.broadcastInDim {x : s.Idx → EReal} (hx : AllReal x) (dims : Fin s.rank → Fin t.rank)
    (h : s.BroadcastsInDim t dims) : AllReal (Idealize.ShloMosaic.broadcastInDim t dims h x) :=
  forall_broadcastInDim IsReal hx dims h
theorem AllReal.shapeCast {x : s.Idx → EReal} (hx : AllReal x) (h : s.ShapeCasts t) :
    AllReal (Idealize.ShloMosaic.shapeCast t x h) := forall_shapeCast IsReal hx h
theorem AllReal.extractStridedSlice {x : s.Idx → EReal} (hx : AllReal x) (off : Fin s.rank → Nat) (h : s.Slices off t) :
    AllReal (Idealize.ShloMosaic.extractStridedSlice t off x h) := forall_extractStridedSlice IsReal hx off h
theorem AllReal.gather {si : Shape} {x : s.Idx → EReal} (hx : AllReal x) (d : GatherDims s si t) (idx : IVec si w) :
    AllReal (Host.gather d x idx) := forall_gather IsReal hx d idx
theorem AllReal.concatenate (a : Fin t.rank) (xs : List ((s : Shape) × (s.Idx → EReal)))
    (hxs : ∀ p ∈ xs, AllReal p.2) (h : Shape.Concatenates (xs.map (·.1)) t a) :
    AllReal (Idealize.ShloMosaic.concatenate t a xs h) := forall_concatenate IsReal a xs hxs h
/-- The concatenation of two real vectors. -/
theorem AllReal.concatenate_pair {s₁ s₂ : Shape} (a : Fin t.rank) {x₁ : s₁.Idx → EReal} {x₂ : s₂.Idx → EReal}
    (h₁ : AllReal x₁) (h₂ : AllReal x₂) (h : Shape.Concatenates (([⟨s₁, x₁⟩, ⟨s₂, x₂⟩] : List ((s : Shape) × (s.Idx → EReal))).map (·.1)) t a) :
    AllReal (Idealize.ShloMosaic.concatenate t a [⟨s₁, x₁⟩, ⟨s₂, x₂⟩] h) :=
  AllReal.concatenate a _ (fun p hp => by
    rcases List.mem_cons.1 hp with rfl | hp
    · exact h₁
    · rcases List.mem_cons.1 hp with rfl | hp
      · exact h₂
      · exact absurd hp (List.not_mem_nil)) h

theorem AllNonneg.broadcastInDim {x : s.Idx → EReal} (hx : AllNonneg x) (dims : Fin s.rank → Fin t.rank)
    (h : s.BroadcastsInDim t dims) : AllNonneg (Idealize.ShloMosaic.broadcastInDim t dims h x) :=
  forall_broadcastInDim IsNonneg hx dims h
theorem AllPos.broadcastInDim {x : s.Idx → EReal} (hx : AllPos x) (dims : Fin s.rank → Fin t.rank)
    (h : s.BroadcastsInDim t dims) : AllPos (Idealize.ShloMosaic.broadcastInDim t dims h x) :=
  forall_broadcastInDim IsPos hx dims h
theorem AllNonneg.gather {si : Shape} {x : s.Idx → EReal} (hx : AllNonneg x) (d : GatherDims s si t) (idx : IVec si w) :
    AllNonneg (Host.gather d x idx) := forall_gather IsNonneg hx d idx
theorem AllPos.gather {si : Shape} {x : s.Idx → EReal} (hx : AllPos x) (d : GatherDims s si t) (idx : IVec si w) :
    AllPos (Host.gather d x idx) := forall_gather IsPos hx d idx

end LayoutReal

/-! ### Finite sums: the host's float reduction, scatter-add and dot product -/

section Sums
variable {s t u si su : Shape} {φ φ₁ φ₂ : FTy} {w : Nat}

/-- The host's float sum of a real vector from a real initial value is real. -/
theorem AllReal.hostReduceAdd {axes : List (Fin s.rank)} {x : FVec Ideal s φ} {init : u.Idx → Ideal φ}
    (hx : AllReal x) (hi : AllReal init) (h : s.ReducesTo axes t) (hu : 0 < u.numel) :
    AllReal (Host.reduceAdd x init h hu) := fun j => by
  show IsReal (Ideal.hostReduceAdd h x (init (Shape.Idx.first hu)) j)
  unfold Ideal.hostReduceAdd
  exact (hi _).add (IsReal.sum _ _ fun i _ => hx i)
/-- The host's float sum of a nonnegative vector from a nonnegative initial value is nonnegative. -/
theorem AllNonneg.hostReduceAdd {axes : List (Fin s.rank)} {x : FVec Ideal s φ} {init : u.Idx → Ideal φ}
    (hx : AllNonneg x) (hi : AllNonneg init) (h : s.ReducesTo axes t) (hu : 0 < u.numel) :
    AllNonneg (Host.reduceAdd x init h hu) := fun j => by
  show IsNonneg (Ideal.hostReduceAdd h x (init (Shape.Idx.first hu)) j)
  unfold Ideal.hostReduceAdd
  exact (hi _).add (IsNonneg.sum _ _ fun i _ => hx i)

/-- The host's accumulating scatter of real updates into a real operand is real: each entry is the operand's
    plus a finite sum of updates. -/
theorem AllReal.hostScatterAdd (d : ScatterDims s si su) {x : FVec Ideal s φ} {upd : FVec Ideal su φ} (idx : IVec si w)
    (hx : AllReal x) (hu : AllReal upd) : AllReal (Host.scatterAdd d x idx upd) := fun i => by
  show IsReal (Ideal.hostScatterAdd d x idx upd i)
  unfold Ideal.hostScatterAdd
  exact (hx i).add (IsReal.sum _ _ fun j _ => hu j)
/-- The host's accumulating scatter of nonnegative updates into a nonnegative operand (zeros, say) is nonnegative. -/
theorem AllNonneg.hostScatterAdd (d : ScatterDims s si su) {x : FVec Ideal s φ} {upd : FVec Ideal su φ} (idx : IVec si w)
    (hx : AllNonneg x) (hu : AllNonneg upd) : AllNonneg (Host.scatterAdd d x idx upd) := fun i => by
  show IsNonneg (Ideal.hostScatterAdd d x idx upd i)
  unfold Ideal.hostScatterAdd
  exact (hx i).add (IsNonneg.sum _ _ fun j _ => hu j)

/-- The host's dot product of two real operands is real: a finite sum of products. -/
theorem AllReal.hostDotGeneral {sl sr so : Shape} (d : DotDims sl sr so) (prec : Option ContractPrecision)
    {lhs : FVec Ideal sl φ₁} {rhs : FVec Ideal sr φ₂} (hl : AllReal lhs) (hr : AllReal rhs) :
    AllReal (Host.dotGeneral d prec lhs rhs) := fun j => by
  show IsReal (FloatOps.dotGeneral d prec .single lhs rhs j)
  rw [Ideal.dotGeneral_apply]
  exact IsReal.sum _ _ fun k _ => (hl _).mul (hr _)
/-- A matrix product into a real accumulator is real. -/
theorem AllReal.matmul {sl sr so : Shape} (d : DotDims sl sr so) (prec : Option ContractPrecision)
    {lhs : FVec Ideal sl φ₁} {rhs : FVec Ideal sr φ₂} {acc : FVec Ideal so .f32} (hl : AllReal lhs) (hr : AllReal rhs)
    (ha : AllReal acc) : AllReal (Idealize.ShloMosaic.matmul d prec lhs rhs acc) := fun j => by
  show IsReal (FloatOps.matmul d prec lhs rhs acc j)
  rw [Ideal.matmul_apply]
  exact (ha j).add (IsReal.sum _ _ fun k _ => (hl _).mul (hr _))

end Sums

/-! ### Literals -/

/-- The word of `0.0` is zero, `1.0` one. -/
theorem ofBits_one_f32 : Ideal.ofBits .f32 0x3F800000#32 = 1 := by
  simp [Ideal.ofBits, Ideal.ieee]
  norm_cast
  norm_num
theorem isReal_ofBits_zero_f32 : IsReal (Ideal.ofBits .f32 0x00000000#32) := by
  rw [Ideal.ofBits_zero_f32]; exact isReal_zero
theorem isNonneg_ofBits_zero_f32 : IsNonneg (Ideal.ofBits .f32 0x00000000#32) := by
  rw [Ideal.ofBits_zero_f32]; exact isNonneg_zero
theorem isPos_ofBits_one_f32 : IsPos (Ideal.ofBits .f32 0x3F800000#32) := by
  rw [ofBits_one_f32]; exact isPos_one

/-- The word `0x461C4000` (`1.0e4`) denotes a positive real. -/
theorem isPos_ofBits_1e4_f32 : IsPos (Ideal.ofBits .f32 0x461C4000#32) := by
  unfold IsPos
  simp [Ideal.ofBits, Ideal.ieee]
  exact ⟨10240000 * (2 ^ 10)⁻¹, by positivity, (EReal.coe_mul _ _).symm⟩
/-- The word `0x3727C5AC` (`9.99999974e-6`) denotes a positive real. -/
theorem isPos_ofBits_eps_f32 : IsPos (Ideal.ofBits .f32 0x3727C5AC#32) := by
  unfold IsPos
  simp [Ideal.ofBits, Ideal.ieee]
  exact ⟨10995116 * (2 ^ 40)⁻¹, by positivity, (EReal.coe_mul _ _).symm⟩
/-- The word `0x4A240E18` (`2687878.0`) denotes a positive real. -/
theorem isPos_ofBits_2687878_f32 : IsPos (Ideal.ofBits .f32 0x4A240E18#32) := by
  unfold IsPos
  simp [Ideal.ofBits, Ideal.ieee]
  exact ⟨10751512 * (2 ^ 2)⁻¹, by positivity, (EReal.coe_mul _ _).symm⟩

/-! ### A finiteness precondition read back -/

/-- The word of positive infinity denotes the top element. -/
theorem ofBits_inf_f32 : Ideal.ofBits .f32 0x7F800000#32 = ⊤ := by simp [Ideal.ofBits, Ideal.ieee]

/-- An extended real whose absolute value compares below positive infinity is a real number. -/
theorem isReal_of_abs_lt_inf {a : EReal}
    (h : Ideal.cmp .olt (max a (-a)) (Ideal.ofBits .f32 0x7F800000#32) = 1#1) : IsReal a := by
  rw [ofBits_inf_f32] at h
  have hlt : max a (-a) < ⊤ := by
    by_contra hn
    simp [Ideal.cmp, hn] at h
  rw [max_lt_iff] at hlt
  refine isReal_iff.2 ⟨ne_of_lt hlt.1, ?_⟩
  rintro rfl
  simp at hlt

/-- A shape of rank zero has one index. -/
instance subsingleton_idx_rank_zero : Subsingleton (⟨0, ![]⟩ : Shape).Idx := ⟨fun a b => funext fun d => d.elim0⟩

/-- One conjunct of a finiteness precondition read back: if "every entry's absolute value is below positive
    infinity", reduced by conjunction from true, came out true, the vector is all real. -/
theorem allReal_of_all_abs_lt_inf {s : Shape} {axes : List (Fin s.rank)} (x : FVec Ideal s .f32)
    (hb : (⟨0, ![]⟩ : Shape).BroadcastsInDim s ![]) (hr : s.ReducesTo axes ⟨0, ![]⟩) (hu : 0 < (⟨0, ![]⟩ : Shape).numel)
    (j : (⟨0, ![]⟩ : Shape).Idx)
    (e : Host.reduce IntOp.andi
          (cmpf .olt (Host.absf x) (broadcastInDim s ![] hb (constant (F := Ideal) ⟨0, ![]⟩ .f32 0x7F800000#32)))
          (constantI ⟨0, ![]⟩ 1 1#1) hr hu j = 1#1) : AllReal x := fun i =>
  isReal_of_abs_lt_inf (Host.reduce_andi_all _ _ hr hu j e i)

end Idealize.ShloMosaic.FiniteOps

end
-- ==== Proof.Finite.lean ====
/-
  The precondition read back: when every entry of every argument array has absolute value below +∞, every entry is a
  real number.
-/
import proofs.«180284_j56100862820442_1_alg».proof.Defs
import proofs.«180284_j56100862820442_1_alg».proof.Proof.Gen.Pre_finite_inputs
import proofs.«180284_j56100862820442_1_alg».proof.Proof.Spec
import Idealize.ShloMosaic.PureOps.Ideal.Laws
import Idealize.ShloMosaic.Lib.ValueIdx
import Idealize.ShloMosaic.Lib.ReduceAll
import proofs.«180284_j56100862820442_1_alg».proof.Proof.LibFiniteOps

set_option maxRecDepth 16384

noncomputable section

namespace Cert.Finite

open Idealize.ShloMosaic Idealize.ShloMosaic.TcCoe Idealize.SL.Sem Idealize.ShloMosaic.ValueIdx

/-- A conjunction of two rank-zero truth values is true exactly when both are. -/
private theorem andi_apply_eq_one {s : Shape} (x y : IVec s 1) (j : s.Idx) :
    andi x y j = 1#1 ↔ x j = 1#1 ∧ y j = 1#1 := IntOp.andi_eq_one

/-- The two spellings of "every entry is a real number" are the same predicate. -/
private theorem spec_allReal {S : Shape} {v : S.Idx → EReal} (hv : FiniteOps.AllReal v) : Spec.AllReal v :=
  (FiniteOps.allReal_def v).1 hv

/-- Under the precondition every argument array of the idealized kernel's program is all real. -/
theorem real_of_pre [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    Spec.AllReal (m ((c.tc : Thread Cert.KernelIdeal.nD Cert.KernelIdeal.τ).loc Cert.KernelIdeal.main_arg0))
    ∧ Spec.AllReal (m ((c.tc : Thread Cert.KernelIdeal.nD Cert.KernelIdeal.τ).loc Cert.KernelIdeal.main_arg1))
    ∧ Spec.AllReal (m ((c.tc : Thread Cert.KernelIdeal.nD Cert.KernelIdeal.τ).loc Cert.KernelIdeal.main_arg2))
    ∧ Spec.AllReal (m ((c.tc : Thread Cert.KernelIdeal.nD Cert.KernelIdeal.τ).loc Cert.KernelIdeal.main_arg3))
    ∧ Spec.AllReal (m ((c.tc : Thread Cert.KernelIdeal.nD Cert.KernelIdeal.τ).loc Cert.KernelIdeal.main_arg4))
    ∧ Spec.AllReal (m ((c.tc : Thread Cert.KernelIdeal.nD Cert.KernelIdeal.τ).loc Cert.KernelIdeal.main_arg5))
    ∧ Spec.AllReal (m ((c.tc : Thread Cert.KernelIdeal.nD Cert.KernelIdeal.τ).loc Cert.KernelIdeal.main_arg6))
    ∧ Spec.AllReal (m ((c.tc : Thread Cert.KernelIdeal.nD Cert.KernelIdeal.τ).loc Cert.KernelIdeal.main_arg7))
    ∧ Spec.AllReal (m ((c.tc : Thread Cert.KernelIdeal.nD Cert.KernelIdeal.τ).loc Cert.KernelIdeal.main_arg8))
    ∧ Spec.AllReal (m ((c.tc : Thread Cert.KernelIdeal.nD Cert.KernelIdeal.τ).loc Cert.KernelIdeal.main_arg9))
    ∧ Spec.AllReal (m ((c.tc : Thread Cert.KernelIdeal.nD Cert.KernelIdeal.τ).loc Cert.KernelIdeal.main_arg10))
    ∧ Spec.AllReal (m ((c.tc : Thread Cert.KernelIdeal.nD Cert.KernelIdeal.τ).loc Cert.KernelIdeal.main_arg11))
    ∧ Spec.AllReal (m ((c.tc : Thread Cert.KernelIdeal.nD Cert.KernelIdeal.τ).loc Cert.KernelIdeal.main_arg12)) := by
  have h0 := congrFun (h c) ValueIdx.ix0
  unfold Cert.Pre_finite_inputs.fn Cert.Pre_finite_inputs.fn_part1 Cert.Pre_finite_inputs.fn_part2
    Cert.Pre_finite_inputs.fn_part3 at h0
  dsimp only at h0
  simp only [andi_apply_eq_one] at h0
  obtain ⟨⟨⟨⟨⟨⟨⟨⟨⟨⟨⟨⟨e0, e1⟩, e2⟩, e3⟩, e4⟩, e5⟩, e6⟩, e7⟩, e8⟩, e9⟩, e10⟩, e11⟩, e12⟩ := h0
  exact ⟨spec_allReal (FiniteOps.allReal_of_all_abs_lt_inf _ _ _ _ _ e0),
    spec_allReal (FiniteOps.allReal_of_all_abs_lt_inf _ _ _ _ _ e1),
    spec_allReal (FiniteOps.allReal_of_all_abs_lt_inf _ _ _ _ _ e2),
    spec_allReal (FiniteOps.allReal_of_all_abs_lt_inf _ _ _ _ _ e3),
    spec_allReal (FiniteOps.allReal_of_all_abs_lt_inf _ _ _ _ _ e4),
    spec_allReal (FiniteOps.allReal_of_all_abs_lt_inf _ _ _ _ _ e5),
    spec_allReal (FiniteOps.allReal_of_all_abs_lt_inf _ _ _ _ _ e6),
    spec_allReal (FiniteOps.allReal_of_all_abs_lt_inf _ _ _ _ _ e7),
    spec_allReal (FiniteOps.allReal_of_all_abs_lt_inf _ _ _ _ _ e8),
    spec_allReal (FiniteOps.allReal_of_all_abs_lt_inf _ _ _ _ _ e9),
    spec_allReal (FiniteOps.allReal_of_all_abs_lt_inf _ _ _ _ _ e10),
    spec_allReal (FiniteOps.allReal_of_all_abs_lt_inf _ _ _ _ _ e11),
    spec_allReal (FiniteOps.allReal_of_all_abs_lt_inf _ _ _ _ _ e12)⟩

end Cert.Finite

end
-- ==== Proof.lean ====
/-
  The certificate of the linear-attention block: a two-launch kernel against its plain reference.

  The reference computes, for the 8192 × 1024 input x, the projections Q, K, V (128 columns each), the 8192 × 8192
  table Q Kᵀ, the context (Q Kᵀ) V, the output projection and first residual, a 4096-wide layer cut off below at zero,
  the projection back and the second residual. The kernel never forms the 8192 × 8192 table: its first launch adds up
  the 128 × 128 table Kᵀ V over eight slabs of 1024 rows, and its second launch, 256 rows at a time, forms the context
  Q (Kᵀ V) and everything after it. Over the extended reals, where a change of float format is the identity, the two
  results differ only in that bracketing, and (Q Kᵀ) V = Q (Kᵀ V) when every entry is a real number, which the
  precondition (every input entry finite) gives.

  The three frames: each kernel program's run is the list "host operations, first launch, host operations, second
  launch" composed by the several-regions launch theorem, the buffers' contents followed through it; no item writes
  an argument. The reference's frame is its run read back. No operation of the kernel was rewritten for the ideal
  reading, so the idealization claim is empty.
-/
import proofs.«180284_j56100862820442_1_alg».proof.Defs
import proofs.«180284_j56100862820442_1_alg».proof.Proof.Gen.Kernel
import proofs.«180284_j56100862820442_1_alg».proof.Proof.Gen.KernelIdeal
import proofs.«180284_j56100862820442_1_alg».proof.Proof.Gen.ReferenceIdeal
import proofs.«180284_j56100862820442_1_alg».proof.Proof.Gen.Pre_finite_inputs
import proofs.«180284_j56100862820442_1_alg».proof.Proof.Gen.ReferenceIdeal.Run
import proofs.«180284_j56100862820442_1_alg».proof.Proof.KB.Run
import proofs.«180284_j56100862820442_1_alg».proof.Proof.KI.Run
import proofs.«180284_j56100862820442_1_alg».proof.Proof.KI.Glue
import proofs.«180284_j56100862820442_1_alg».proof.Proof.RefSide
import proofs.«180284_j56100862820442_1_alg».proof.Proof.Finite
import proofs.«180284_j56100862820442_1_alg».proof.Proof.Spec
import Idealize.ShloMosaic.Adequacy
import Idealize.ShloMosaic.Init

noncomputable section

namespace Cert.Proof

open Idealize.ShloMosaic Idealize.SL.Sem

/-- The word-level kernel program runs to the end and leaves its arguments as launched. -/
theorem frame_k : Cert.frame_Kernel (hKernel := Cert.Kernel.Gen.facts) (hPre_finite_inputs := Cert.Pre_finite_inputs.Gen.facts) :=
  fun m ρ _ => Cert.Kernel.Hand.frame m ρ

/-- So does the idealized kernel program. -/
theorem frame_ki : Cert.frame_KernelIdeal (hKernelIdeal := Cert.KernelIdeal.Gen.facts) (hPre_finite_inputs := Cert.Pre_finite_inputs.Gen.facts) :=
  fun m ρ _ => Cert.KernelIdeal.Hand.frame m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the arguments, all finite, the idealized kernel ends with its result array at the
    second launch's output, the reference with its result at its composed term; both are the same function of the
    arguments: the kernel's `Spec.Gk`, the reference's `Spec.Gr`, equal on real arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => (Cert.KernelIdeal.Hand.dat1 (F := Ideal) (Cert.KernelIdeal.Hand.E3 m) c).arrAt 10 Cert.KernelIdeal.cfg1.N,
    Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12⟩ := Cert.Finite.real_of_pre m hpre c
  obtain ⟨a0, a1, a2, a3, a4, a5, a6, a7, a8, a9, a10, a11, a12⟩ := hagree c
  refine (Cert.RefSide.ref_value m' c).trans ?_
  rw [a0, a1, a2, a3, a4, a5, a6, a7, a8, a9, a10, a11, a12]
  exact ((Cert.KernelIdeal.Hand.kernel_value m c).trans (Cert.Spec.Gk_eq_Gr _ _ _ _ _ _ _ _ _ _ _ _ _ h0 h1 h2 h3 h4 h5 h6 h7 h8 h9 h10 h11 h12)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
